-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S8x512 : Shape := ⟨2, ![8, 512]⟩
abbrev S32000x4096 : Shape := ⟨2, ![32000, 4096]⟩
abbrev S_ : Shape := ⟨0, ![]⟩
abbrev S4x512 : Shape := ⟨2, ![4, 512]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8x512 : S_.BroadcastsInDim S8x512 (![] : Fin 0 → Fin S8x512.rank)
  reducesTo_S8x512_S_d0_1 : S8x512.ReducesTo [0, 1] S_
  slices_S8x512_S4x512_0_0 : S8x512.Slices ![0, 0] S4x512
  natLt_1_32 : 1 < 32
  reducesTo_S4x512_S_d0_1 : S4x512.ReducesTo [0, 1] S_

variable [Facts]

def fn_part1 {F : FTy → Type} [FloatOps F] (main_arg1 : IVec S8x512 32) (main_v8 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v8 main_v17
  let main_c_6 : IVec S_ 32 := constantI S_ 32 4294967196#32
  let main_v19 : IVec S8x512 32 := broadcastInDim S8x512 ![] bcast_S_S8x512 main_c_6
  let main_v20 : IVec S8x512 1 := cmpi .ne main_arg1 main_v19
  let main_v21 : IVec S4x512 1 := (extractStridedSlice S4x512 ![0, 0] · slices_S8x512_S4x512_0_0) main_v20
  let main_v22 : IVec S4x512 32 := (extui 32 · natLt_1_32) main_v21
  let main_c_7 : IVec S_ 32 := constantI S_ 32 0#32
  let main_v23 : IVec S_ 32 := (fun x v => Host.reduce IntOp.addi x v reducesTo_S4x512_S_d0_1 h_S_) main_v22 main_c_7
  let main_c_8 : IVec S_ 32 := constantI S_ 32 1#32
  let main_v24 : IVec S_ 1 := cmpi .sge main_v23 main_c_8
  let main_v25 : IVec S_ 1 := andi main_v18 main_v24
  main_v25

def fn {F : FTy → Type} [FloatOps F] (main_arg0 : FVec F S8x512x4096 .f32) (main_arg1 : IVec S8x512 32) (main_arg2 : FVec F S32000x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S32000x4096 .f32 := Host.absf main_arg2
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 4294967196#32
  let main_v9 : IVec S8x512 32 := broadcastInDim S8x512 ![] bcast_S_S8x512 main_c_2
  let main_v10 : IVec S8x512 1 := cmpi .eq main_arg1 main_v9
  let main_c_3 : IVec S_ 32 := constantI S_ 32 0#32
  let main_v11 : IVec S8x512 32 := broadcastInDim S8x512 ![] bcast_S_S8x512 main_c_3
  let main_v12 : IVec S8x512 1 := cmpi .sge main_arg1 main_v11
  let main_c_4 : IVec S_ 32 := constantI S_ 32 32000#32
  let main_v13 : IVec S8x512 32 := broadcastInDim S8x512 ![] bcast_S_S8x512 main_c_4
  let main_v14 : IVec S8x512 1 := cmpi .slt main_arg1 main_v13
  let main_v15 : IVec S8x512 1 := andi main_v12 main_v14
  let main_v16 : IVec S8x512 1 := ori main_v10 main_v15
  fn_part1 (F := F) main_arg1 main_v8 main_v16
-- ==== Kernel.lean ====
abbrev S8x512x4096 : Shape := ⟨3, ![8, 512, 4096]⟩
abbrev S8x512 : Shape := ⟨2, ![8, 512]⟩
abbrev S32000x4096 : Shape := ⟨2, ![32000, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S1280x4096 : Shape := ⟨2, ![1280, 4096]⟩
abbrev S512x1 : Shape := ⟨2, ![512, 1]⟩
abbrev S512 : Shape := ⟨1, ![512]⟩
abbrev S512x1280 : Shape := ⟨2, ![512, 1280]⟩
abbrev S8 : Shape := ⟨1, ![8]⟩
abbrev S4 : Shape := ⟨1, ![4]⟩
abbrev S4x512 : Shape := ⟨2, ![4, 512]⟩

abbrev nBuf : Space → Nat
  | .hbm => 91
  | .vmem => 10
  | .smem => 0
  | _ => 0

abbrev bufTy : (tb : Table) → Fin (tcTables nBuf tb) → BufTy
  | .hbm, ⟨0, _⟩ => ⟨S8x512x4096, .f32⟩
  | .hbm, ⟨1, _⟩ => ⟨S8x512, .i32⟩
  | .hbm, ⟨2, _⟩ => ⟨S32000x4096, .f32⟩
  | .hbm, ⟨3, _⟩ => ⟨S4096x4096, .f32⟩
  | .hbm, ⟨4, _⟩ => ⟨S4096x4096, .bf16⟩
  | .hbm, ⟨5, _⟩ => ⟨S32000x4096, .bf16⟩
  | .hbm, ⟨6, _⟩ => ⟨S_, .i32⟩
  | .hbm, ⟨7, _⟩ => ⟨S8x512, .i32⟩
  | .hbm, ⟨8, _⟩ => ⟨S8x512, .i1⟩
  | .hbm, ⟨9, _⟩ => ⟨S_, .i32⟩
  | .hbm, ⟨10, _⟩ => ⟨S_, .i32⟩
  | .hbm, ⟨11, _⟩ => ⟨S8x512, .i32⟩
  | .hbm, ⟨12, _⟩ => ⟨S8x512, .i32⟩
  | .hbm, ⟨13, _⟩ => ⟨S4096, .i32⟩
  | .hbm, ⟨14, _⟩ => ⟨S4096x1, .i32⟩
  | .hbm, ⟨15, _⟩ => ⟨S4096, .f32⟩
  | .hbm, ⟨16, _⟩ => ⟨S8x512, .f32⟩
  | .hbm, ⟨17, _⟩ => ⟨S8x512, .f32⟩
  | .hbm, ⟨18, _⟩ => ⟨S8x512, .f32⟩
  | .hbm, ⟨19, _⟩ => ⟨S_, .f32⟩
  | .hbm, ⟨20, _⟩ => ⟨S8, .f32⟩
  | .hbm, ⟨21, _⟩ => ⟨S4, .f32⟩
  | .hbm, ⟨22, _⟩ => ⟨S4, .f32⟩
  | .hbm, ⟨23, _⟩ => ⟨S4x512, .i1⟩
  | .hbm, ⟨24, _⟩ => ⟨S4x512, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S_, .f32⟩
  | .hbm, ⟨30, _⟩ => ⟨S4x512, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S4, .i1⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .i1⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .local _ .vmem, ⟨0, _⟩ => ⟨S512x4096, .bf16⟩
  | .local _ .vmem, ⟨1, _⟩ => ⟨S1280x4096, .bf16⟩
  | .local _ .vmem, ⟨2, _⟩ => ⟨S1280x4096, .bf16⟩
  | .local _ .vmem, ⟨3, _⟩ => ⟨S512x1, .i32⟩
  | .local _ .vmem, ⟨4, _⟩ => ⟨S512x1, .i32⟩
  | .local _ .vmem, ⟨5, _⟩ => ⟨S512, .f32⟩
  | .local _ .vmem, ⟨6, _⟩ => ⟨S512, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_call2_v0 : Ref sig .tc := ⟨.hbm, 64, rfl⟩
abbrev main_call2_call0_cst : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_call0_v2 : Ref sig .tc := ⟨.hbm, 68, rfl⟩
abbrev main_call2_call0_v3 : Ref sig .tc := ⟨.hbm, 69, rfl⟩
abbrev main_call2_call0_v4 : Ref sig .tc := ⟨.hbm, 70, rfl⟩
abbrev main_call2_call0_v5 : Ref sig .tc := ⟨.hbm, 71, rfl⟩
abbrev main_call2_call0_v6 : Ref sig .tc := ⟨.hbm, 72, rfl⟩
abbrev main_call2_call0_v7 : Ref sig .tc := ⟨.hbm, 73, rfl⟩
abbrev main_call2_call0_v8 : Ref sig .tc := ⟨.hbm, 74, rfl⟩
abbrev main_call2_call0_v9 : Ref sig .tc := ⟨.hbm, 75, rfl⟩
abbrev main_call2_call0_v10 : Ref sig .tc := ⟨.hbm, 76, rfl⟩
abbrev main_call2_call0_v11 : Ref sig .tc := ⟨.hbm, 77, rfl⟩
abbrev main_call2_v1 : Ref sig .tc := ⟨.hbm, 78, rfl⟩
abbrev main_v35 : Ref sig .tc := ⟨.hbm, 79, rfl⟩
abbrev main_cst_7 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_8 : Ref sig .tc := ⟨.hbm, 84, rfl⟩
abbrev main_v39 : Ref sig .tc := ⟨.hbm, 85, rfl⟩
abbrev main_cst_9 : Ref sig .tc := ⟨.hbm, 86, rfl⟩
abbrev main_v40 : Ref sig .tc := ⟨.hbm, 87, rfl⟩
abbrev main_cst_10 : Ref sig .tc := ⟨.hbm, 88, rfl⟩
abbrev main_v41 : Ref sig .tc := ⟨.hbm, 89, rfl⟩
abbrev main_v42 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x512x4096_S4096x4096 : S8x512x4096.ShapeCasts S4096x4096
  bitsLt_bf16_f32 : FTy.bits .bf16 < FTy.bits .f32
  bcast_S_S8x512 : S_.BroadcastsInDim S8x512 (![] : Fin 0 → Fin S8x512.rank)
  shapeCasts_S8x512_S4096 : S8x512.ShapeCasts S4096
  shapeCasts_S4096_S4096x1 : S4096.ShapeCasts S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  iota_S512x1280_d1_w32 : S512x1280.Iotas .tc 32 [1]
  broadcasts_S512x1_S512x1280 : S512x1.Broadcasts S512x1280
  reduces_S512x1280_S512 : S512x1280.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  shapeCasts_S4096_S8x512 : S4096.ShapeCasts S8x512
  reducesTo_S8x512_S8_d1 : S8x512.ReducesTo [1] S8
  h_S_ : 0 < S_.numel
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  natLt_1_32 : 1 < 32
  bcast_S_S4 : S_.BroadcastsInDim S4 (![] : Fin 0 → Fin S4.rank)
  reducesTo_S4_S_d0 : S4.ReducesTo [0] S_
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_v1) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x512x4096 : Shape := ⟨3, ![8, 512, 4096]⟩
abbrev S8x512 : Shape := ⟨2, ![8, 512]⟩
abbrev S32000x4096 : Shape := ⟨2, ![32000, 4096]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512 : Shape := ⟨2, ![4, 512]⟩

abbrev nBuf : Space → Nat
  | .hbm => 122
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S8x512, .i32⟩
  | .hbm, ⟨2, _⟩ => ⟨S32000x4096, .f32⟩
  | .hbm, ⟨3, _⟩ => ⟨S8x512x32000, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S8x512x1, .f32⟩
  | .hbm, ⟨10, _⟩ => ⟨S8x512x32000, .f32⟩
  | .hbm, ⟨11, _⟩ => ⟨S8x512x32000, .f32⟩
  | .hbm, ⟨12, _⟩ => ⟨S8x512x32000, .f32⟩
  | .hbm, ⟨13, _⟩ => ⟨S_, .f32⟩
  | .hbm, ⟨14, _⟩ => ⟨S8x512, .f32⟩
  | .hbm, ⟨15, _⟩ => ⟨S8x512x1, .f32⟩
  | .hbm, ⟨16, _⟩ => ⟨S8x512x1, .f32⟩
  | .hbm, ⟨17, _⟩ => ⟨S8x512x32000, .f32⟩
  | .hbm, ⟨18, _⟩ => ⟨S8x512x32000, .f32⟩
  | .hbm, ⟨19, _⟩ => ⟨S_, .i32⟩
  | .hbm, ⟨20, _⟩ => ⟨S8x512, .i32⟩
  | .hbm, ⟨21, _⟩ => ⟨S8x512, .i1⟩
  | .hbm, ⟨22, _⟩ => ⟨S_, .i32⟩
  | .hbm, ⟨23, _⟩ => ⟨S_, .i32⟩
  | .hbm, ⟨24, _⟩ => ⟨S8x512, .i32⟩
  | .hbm, ⟨25, _⟩ => ⟨S8x512, .i32⟩
  | .hbm, ⟨26, _⟩ => ⟨S8x512x1, .i32⟩
  | .hbm, ⟨27, _⟩ => ⟨S_, .i32⟩
  | .hbm, ⟨28, _⟩ => ⟨S8x512x1, .i32⟩
  | .hbm, ⟨29, _⟩ => ⟨S8x512x1, .i1⟩
  | .hbm, ⟨30, _⟩ => ⟨S_, .i32⟩
  | .hbm, ⟨31, _⟩ => ⟨S8x512x1, .i32⟩
  | .hbm, ⟨32, _⟩ => ⟨S8x512x1, .i32⟩
  | .hbm, ⟨33, _⟩ => ⟨S8x512x1, .i32⟩
  | .hbm, ⟨34, _⟩ => ⟨S8x512x1x1, .i32⟩
  | .hbm, ⟨35, _⟩ => ⟨S1, .i32⟩
  | .hbm, ⟨36, _⟩ => ⟨S_, .i32⟩
  | .hbm, ⟨37, _⟩ => ⟨S8x512x1x1, .i32⟩
  | .hbm, ⟨38, _⟩ => ⟨S8x512x1x1, .i1⟩
  | .hbm, ⟨39, _⟩ => ⟨S1x1x1x1, .i32⟩
  | .hbm, ⟨40, _⟩ => ⟨S8x512x1x1, .i32⟩
  | .hbm, ⟨41, _⟩ => ⟨S8x512x1x1, .i1⟩
  | .hbm, ⟨42, _⟩ => ⟨S8x512x1x1, .i1⟩
  | .hbm, ⟨43, _⟩ => ⟨S_, .i1⟩
  | .hbm, ⟨44, _⟩ => ⟨S8x512x1, .i1⟩
  | .hbm, ⟨45, _⟩ => ⟨S8x512x1, .f32⟩
  | .hbm, ⟨46, _⟩ => ⟨S_, .f32⟩
  | .hbm, ⟨47, _⟩ => ⟨S8x512x1, .f32⟩
  | .hbm, ⟨48, _⟩ => ⟨S8x512x1, .f32⟩
  | .hbm, ⟨49, _⟩ => ⟨S8x512, .f32⟩
  | .hbm, ⟨50, _⟩ => ⟨S8x512, .f32⟩
  | .hbm, ⟨51, _⟩ => ⟨S8x512, .f32⟩
  | .hbm, ⟨52, _⟩ => ⟨S_, .f32⟩
  | .hbm, ⟨53, _⟩ => ⟨S8, .f32⟩
  | .hbm, ⟨54, _⟩ => ⟨S4, .f32⟩
  | .hbm, ⟨55, _⟩ => ⟨S4, .f32⟩
  | .hbm, ⟨56, _⟩ => ⟨S4x512, .i1⟩
  | .hbm, ⟨57, _⟩ => ⟨S4x512, .f32⟩
  | .hbm, ⟨58, _⟩ => ⟨S4x512, .f32⟩
  | .hbm, ⟨59, _⟩ => ⟨S4x512, .f32⟩
  | .hbm, ⟨60, _⟩ => ⟨S4x512, .f32⟩
  | .hbm, ⟨61, _⟩ => ⟨S_, .f32⟩
  | .hbm, ⟨62, _⟩ => ⟨S_, .f32⟩
  | .hbm, ⟨63, _⟩ => ⟨S4x512, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4, .i1⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S4, .f32⟩
  | .hbm, ⟨89, _⟩ => ⟨S_, .f32⟩
  | .hbm, ⟨90, _⟩ => ⟨S4, .f32⟩
  | .hbm, ⟨91, _⟩ => ⟨S4, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S_, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S4, .i1⟩
  | .hbm, ⟨102, _⟩ => ⟨S4, .f32⟩
  | .hbm, ⟨103, _⟩ => ⟨S4, .f32⟩
  | .hbm, ⟨104, _⟩ => ⟨S4, .f32⟩
  | .hbm, ⟨105, _⟩ => ⟨S4, .f32⟩
  | .hbm, ⟨106, _⟩ => ⟨S4, .f32⟩
  | .hbm, ⟨107, _⟩ => ⟨S4, .f32⟩
  | .hbm, ⟨108, _⟩ => ⟨S4, .f32⟩
  | .hbm, ⟨109, _⟩ => ⟨S4, .f32⟩
  | .hbm, ⟨110, _⟩ => ⟨S4, .f32⟩
  | .hbm, ⟨111, _⟩ => ⟨S_, .f32⟩
  | .hbm, ⟨112, _⟩ => ⟨S4, .f32⟩
  | .hbm, ⟨113, _⟩ => ⟨S4, .f32⟩
  | .hbm, ⟨114, _⟩ => ⟨S4, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_1 : Ref sig .tc := ⟨.hbm, 61, rfl⟩
abbrev main_v18 : Ref sig .tc := ⟨.hbm, 62, rfl⟩
abbrev main_v19 : Ref sig .tc := ⟨.hbm, 63, rfl⟩
abbrev main_c_2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_3 : Ref sig .tc := ⟨.hbm, 69, rfl⟩
abbrev main_v24 : Ref sig .tc := ⟨.hbm, 70, rfl⟩
abbrev main_v25 : Ref sig .tc := ⟨.hbm, 71, rfl⟩
abbrev main_call3_v0 : Ref sig .tc := ⟨.hbm, 72, rfl⟩
abbrev main_call3_call0_cst : Ref sig .tc := ⟨.hbm, 73, rfl⟩
abbrev main_call3_call0_v0 : Ref sig .tc := ⟨.hbm, 74, rfl⟩
abbrev main_call3_call0_v1 : Ref sig .tc := ⟨.hbm, 75, rfl⟩
abbrev main_call3_call0_v2 : Ref sig .tc := ⟨.hbm, 76, rfl⟩
abbrev main_call3_call0_v3 : Ref sig .tc := ⟨.hbm, 77, rfl⟩
abbrev main_call3_call0_v4 : Ref sig .tc := ⟨.hbm, 78, rfl⟩
abbrev main_call3_call0_v5 : Ref sig .tc := ⟨.hbm, 79, rfl⟩
abbrev main_call3_call0_v6 : Ref sig .tc := ⟨.hbm, 80, rfl⟩
abbrev main_call3_call0_v7 : Ref sig .tc := ⟨.hbm, 81, rfl⟩
abbrev main_call3_call0_v8 : Ref sig .tc := ⟨.hbm, 82, rfl⟩
abbrev main_call3_call0_v9 : Ref sig .tc := ⟨.hbm, 83, rfl⟩
abbrev main_call3_call0_v10 : Ref sig .tc := ⟨.hbm, 84, rfl⟩
abbrev main_call3_call0_v11 : Ref sig .tc := ⟨.hbm, 85, rfl⟩
abbrev main_call3_v1 : Ref sig .tc := ⟨.hbm, 86, rfl⟩
abbrev main_v26 : Ref sig .tc := ⟨.hbm, 87, rfl⟩
abbrev main_v27 : Ref sig .tc := ⟨.hbm, 88, rfl⟩
abbrev main_cst_4 : Ref sig .tc := ⟨.hbm, 89, rfl⟩
abbrev main_v28 : Ref sig .tc := ⟨.hbm, 90, rfl⟩
abbrev main_v29 : Ref sig .tc := ⟨.hbm, 91, rfl⟩
abbrev main_cst_5 : Ref sig .tc := ⟨.hbm, 92, rfl⟩
abbrev main_v30 : Ref sig .tc := ⟨.hbm, 93, rfl⟩
abbrev main_v31 : Ref sig .tc := ⟨.hbm, 94, rfl⟩
abbrev main_call4_v0 : Ref sig .tc := ⟨.hbm, 95, rfl⟩
abbrev main_call4_call0_cst : Ref sig .tc := ⟨.hbm, 96, rfl⟩
abbrev main_call4_call0_v0 : Ref sig .tc := ⟨.hbm, 97, rfl⟩
abbrev main_call4_call0_v1 : Ref sig .tc := ⟨.hbm, 98, rfl⟩
abbrev main_call4_call0_v2 : Ref sig .tc := ⟨.hbm, 99, rfl⟩
abbrev main_call4_call0_v3 : Ref sig .tc := ⟨.hbm, 100, rfl⟩
abbrev main_call4_call0_v4 : Ref sig .tc := ⟨.hbm, 101, rfl⟩
abbrev main_call4_call0_v5 : Ref sig .tc := ⟨.hbm, 102, rfl⟩
abbrev main_call4_call0_v6 : Ref sig .tc := ⟨.hbm, 103, rfl⟩
abbrev main_call4_call0_v7 : Ref sig .tc := ⟨.hbm, 104, rfl⟩
abbrev main_call4_call0_v8 : Ref sig .tc := ⟨.hbm, 105, rfl⟩
abbrev main_call4_call0_v9 : Ref sig .tc := ⟨.hbm, 106, rfl⟩
abbrev main_call4_call0_v10 : Ref sig .tc := ⟨.hbm, 107, rfl⟩
abbrev main_call4_call0_v11 : Ref sig .tc := ⟨.hbm, 108, rfl⟩
abbrev main_call4_v1 : Ref sig .tc := ⟨.hbm, 109, rfl⟩
abbrev main_v32 : Ref sig .tc := ⟨.hbm, 110, rfl⟩
abbrev main_cst_6 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_cst_7 : Ref sig .tc := ⟨.hbm, 115, rfl⟩
abbrev main_v36 : Ref sig .tc := ⟨.hbm, 116, rfl⟩
abbrev main_cst_8 : Ref sig .tc := ⟨.hbm, 117, rfl⟩
abbrev main_v37 : Ref sig .tc := ⟨.hbm, 118, rfl⟩
abbrev main_cst_9 : Ref sig .tc := ⟨.hbm, 119, rfl⟩
abbrev main_v38 : Ref sig .tc := ⟨.hbm, 120, rfl⟩
abbrev main_v39 : Ref sig .tc := ⟨.hbm, 121, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  natLt_1_32 : 1 < 32
  bcast_S_S4 : S_.BroadcastsInDim S4 (![] : Fin 0 → Fin S4.rank)
  reducesTo_S4_S_d0 : S4.ReducesTo [0] S_
  dot_S8x512x4096_S32000x4096_S8x512x32000_2_1_01_0_n_n_wf : DotDims.WF S8x512x4096 S32000x4096 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x4096_S32000x4096_S8x512x32000_2_1_01_0_n_n : DotDims S8x512x4096 S32000x4096 S8x512x32000 where
  lhsContracting := [2]
  rhsContracting := [1]
  lhsNonContracting := [0, 1]
  rhsNonContracting := [0]
  lhsBatch := []
  rhsBatch := []
  wf := dot_S8x512x4096_S32000x4096_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.KRuns.lean ====
import proofs.«418224_j48859547959893_3_alg».proof.Proof.Gen.Kernel.Launch
import proofs.«418224_j48859547959893_3_alg».proof.Proof.Gen.Kernel.Skeleton
import proofs.«418224_j48859547959893_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents `m` after the
    twelve host operations before the region (the casts of the activations and of the weight table to bf16, the masked
    labels and their reshapes). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-! ### What the host operations write

Every host operation writes exactly one buffer, its own result. `WritesOutside K op` says that this one buffer is none of
the references listed in `K`; so a reference of `K` keeps its contents across `op`. -/

/-- `op` writes one buffer, and it is none of `K`. -/
def WritesOutside (K : List (Ref sig .tc)) (op : HloOp τ sig (Elt F)) : Prop :=
  ∃ y : Ref sig .tc, op.writes = {Proc.devRef .tc y} ∧ y ∉ K

/-- A reference of `K` is not written by an operation writing outside `K`. -/
theorem WritesOutside.not_mem {K : List (Ref sig .tc)} {op : HloOp τ sig (Elt F)} (h : WritesOutside K op)
    {b : Ref sig .tc} (hb : b ∈ K) : Proc.devRef .tc b ∉ op.writes := by
  obtain ⟨y, hw, hy⟩ := h
  rw [hw, Finset.mem_singleton]
  intro e
  exact hy (Proc.devRef_injective _ e ▸ hb)

/-- The program's three arguments: no host operation before the region writes one. -/
abbrev argRefs : List (Ref sig .tc) := [main_arg0, main_arg1, main_arg2]
/-- The pipeline's four arrays and the program's three arguments: no host operation after the region writes one. -/
abbrev keptRefs : List (Ref sig .tc) := [main_v1, main_v2, main_v7, main_v8, main_arg0, main_arg1, main_arg2]

theorem hostOps0_outside : (hostOps0 : List (HloOp τ sig (Elt F))).Forall (WritesOutside argRefs) := by
  simp only [List.Forall]
  repeat' apply And.intro
  all_goals exact ⟨_, rfl, by decide⟩
theorem hostOps0_1_outside : (hostOps0_1 : List (HloOp τ sig (Elt F))).Forall (WritesOutside argRefs) := by
  simp only [List.Forall]
  repeat' apply And.intro
  all_goals exact ⟨_, rfl, by decide⟩
theorem hostOps0_2_outside : (hostOps0_2 : List (HloOp τ sig (Elt F))).Forall (WritesOutside argRefs) := by
  simp only [List.Forall]
  repeat' apply And.intro
  all_goals exact ⟨_, rfl, by decide⟩
theorem hostOps1_outside : (hostOps1 : List (HloOp τ sig (Elt F))).Forall (WritesOutside keptRefs) := by
  simp only [List.Forall]
  repeat' apply And.intro
  all_goals exact ⟨_, rfl, by decide⟩
theorem hostOps1_1_outside : (hostOps1_1 : List (HloOp τ sig (Elt F))).Forall (WritesOutside keptRefs) := by
  simp only [List.Forall]
  repeat' apply And.intro
  all_goals exact ⟨_, rfl, by decide⟩
theorem hostOps1_2_outside : (hostOps1_2 : List (HloOp τ sig (Elt F))).Forall (WritesOutside keptRefs) := by
  simp only [List.Forall]
  repeat' apply And.intro
  all_goals exact ⟨_, rfl, by decide⟩
theorem hostOps1_3_outside : (hostOps1_3 : List (HloOp τ sig (Elt F))).Forall (WritesOutside keptRefs) := by
  simp only [List.Forall]
  repeat' apply And.intro
  all_goals exact ⟨_, rfl, by decide⟩
theorem hostOps1_4_outside : (hostOps1_4 : List (HloOp τ sig (Elt F))).Forall (WritesOutside keptRefs) := by
  simp only [List.Forall]
  repeat' apply And.intro
  all_goals exact ⟨_, rfl, by decide⟩

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main around the region, at the certificate's variants `𝒱₀`: the three stretches of host lines before it, the region,
    the five stretches after it: it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1, hostOps1_1, hostOps1_2, hostOps1_3, hostOps1_4])) :=
by
  have hsub : ([hostOps0, hostOps0_1, hostOps0_2] : List (List (HloOp τ sig (Elt F)))).Forall fun ops => ops.Forall fun op => op.bufs ⊆ StableHlo.tcRefs τ sig :=
    And.intro hostOps0_sub (And.intro hostOps0_1_sub hostOps0_2_sub)
  have hfresh : ([hostOps0, hostOps0_1, hostOps0_2] : List (List (HloOp τ sig (Elt F)))).Forall fun ops => ops.Forall fun op => op.fresh = ∅ :=
    And.intro hostOps0_fresh (And.intro hostOps0_1_fresh hostOps0_2_fresh)
  exact Pipeline.hmain_around cfgs 0 defs₀ 𝒱₀ m main [hostOps0, hostOps0_1, hostOps0_2] [hostOps1, hostOps1_1, hostOps1_2, hostOps1_3, hostOps1_4]
    hsub hfresh main_chain

/-- The lines after the region touch the pipeline's arrays and the bypassing buffers only (each operation's buffers are
    unscoped TensorCore references, and with nothing prefetched every such reference is one or the other). -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- Each of them writes outside the kept references. -/
theorem sfx_outside : ∀ ops ∈ ([hostOps1, hostOps1_1, hostOps1_2, hostOps1_3, hostOps1_4] : List (List (HloOp τ sig (Elt F)))), ∀ op ∈ ops, WritesOutside keptRefs op := by
  intro ops hops op hop
  simp only [List.mem_cons, List.mem_nil_iff, or_false] at hops
  rcases hops with rfl | rfl | rfl | rfl | rfl
  · exact (List.forall_iff_forall_mem.mp hostOps1_outside) op hop
  · exact (List.forall_iff_forall_mem.mp hostOps1_1_outside) op hop
  · exact (List.forall_iff_forall_mem.mp hostOps1_2_outside) op hop
  · exact (List.forall_iff_forall_mem.mp hostOps1_3_outside) op hop
  · exact (List.forall_iff_forall_mem.mp hostOps1_4_outside) op hop
/-- Every array of the pipeline is a kept reference. -/
theorem arr_mem_kept (w : Fin cfg0.W) : Pipeline.arrRef spec0 w ∈ keptRefs := by
  fin_cases w <;> decide
/-- And they write no array of the pipeline (each writes only its own result buffer, which is no array). -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  fun ops hops op hop w => (sfx_outside ops hops op hop).not_mem (arr_mem_kept w)

/-- No host operation before the region writes an argument of the program: the region finds it as launched. -/
theorem V_arg (c : Dev nD) {b : Ref sig .tc} (hb : b ∈ argRefs) : V m c b = m ((c : Thread nD τ).loc b) :=
  StableHlo.after_of_forall_not_mem (b := Proc.devRef .tc b) _ _ (fun op hop => by
    obtain ⟨ops, hops, hop⟩ := List.mem_flatten.mp hop
    simp only [List.mem_cons, List.mem_nil_iff, or_false] at hops
    rcases hops with rfl | rfl | rfl
    · exact ((List.forall_iff_forall_mem.mp hostOps0_outside) op hop).not_mem hb
    · exact ((List.forall_iff_forall_mem.mp hostOps0_1_outside) op hop).not_mem hb
    · exact ((List.forall_iff_forall_mem.mp hostOps0_2_outside) op hop).not_mem hb)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for ANY proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for ANY proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the lines that follow the region an argument of the program holds what the region found in it: no line writes
    it, and it is no array of the pipeline. -/
theorem tail_arg (dats : (p : Fin 1) → (c : Dev nD) → Dat τ (Elt F) Unit ℕ (UR sig nD τ) ℕ (cfgs p) c) (c : Dev nD)
    {b : Ref sig .tc} (hb : b ∈ keptRefs) (hw : ∀ w, Pipeline.arrRef spec0 w ≠ b) :
    Pipeline.afterTail₀ cfgs dats 0 (V0 m) [hostOps1, hostOps1_1, hostOps1_2, hostOps1_3, hostOps1_4] c b = V m c b := by
  unfold Pipeline.afterTail₀
  rw [StableHlo.after_of_forall_not_mem (b := Proc.devRef .tc b) _ _ (fun op hop => by
    obtain ⟨ops, hops, hop⟩ := List.mem_flatten.mp hop
    exact (sfx_outside ops hops op hop).not_mem hb)]
  exact Pipeline.withArrays_of_ne _ c (V0 m c) _ b hw

/-- THE FRAME from a frame run: a run to the library's frame post, read at the three argument buffers — none is an array
    of the pipeline, so each holds what the lines after the region leave in it (the post's second clause), which is what
    the region found (`tail_arg`), which is what was launched (`V_arg`) — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_arg m dats c (by decide) (by decide)).trans (V_arg m c (by decide))),
      ((h c).2 main_arg1 (Pipeline.mem_restRefs_of main_arg1 (by decide) (by decide))).trans
        ((tail_arg m dats c (by decide) (by decide)).trans (V_arg m c (by decide))),
      ((h c).2 main_arg2 (Pipeline.mem_restRefs_of main_arg2 (by decide) (by decide))).trans
        ((tail_arg m dats c (by decide) (by decide)).trans (V_arg m c (by decide)))⟩) h

/-! ## The body's branch conditions -/

/-- The condition of the body's first `scf.if` (in `k0_part1`), from the grid coordinates: the column-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 25): the first column tile of each row block — decided over the grid. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second `scf.if`: the column-tile coordinate is 24. -/
abbrev cond0_1 (i : grid0.Coords) : Prop := k0_cond2 i = 1#1
/-- It holds at the points ≡ 24 (mod 25): the last column tile of each row block — decided over the grid. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

/-- Windows 0, 1, 2 are never idle (inputs). -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- At the first tile of a row block the output is idle: the body stores nothing into it. -/
theorem idleAt0_3_A : ∀ t : Fin cfg0.N, cond0_0 (grid0.coords t) → ¬cond0_1 (grid0.coords t) → cfg0.idle 3 (grid0.coords t) = true := by decide +kernel
/-- There the pipeline does not write the output's block back. -/
theorem noFlush0_3_A : ∀ t : Fin cfg0.N, cond0_0 (grid0.coords t) → ¬cond0_1 (grid0.coords t) → (cfg0.win 3).flush t = false := by decide +kernel
/-- At a middle tile the output is idle: the body stores nothing into it. -/
theorem idleAt0_3_B : ∀ t : Fin cfg0.N, ¬cond0_0 (grid0.coords t) → ¬cond0_1 (grid0.coords t) → cfg0.idle 3 (grid0.coords t) = true := by decide +kernel
/-- There the pipeline does not write the output's block back. -/
theorem noFlush0_3_B : ∀ t : Fin cfg0.N, ¬cond0_0 (grid0.coords t) → ¬cond0_1 (grid0.coords t) → (cfg0.win 3).flush t = false := by decide +kernel
/-- At the last tile of a row block the output is live: the body stores the block's 512 values into it. -/
theorem liveAt0_3_C : ∀ t : Fin cfg0.N, ¬cond0_0 (grid0.coords t) → cond0_1 (grid0.coords t) → cfg0.idle 3 (grid0.coords t) = false := by decide +kernel

/-! ## The kernel body's memrefs -/

/-- One staging buffer of the output window, through which its contents are stated (the choice does not matter). -/
abbrev VO0_3 : View sig .tc .vmem S512 .f32 := (Memref.whole cc0_stg3_0 : Memref sig .tc .vmem S512 .f32).view
/-- Each window's current staging memref at point `t`, spelled as the pipeline passes it, and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows — the running row maximum,
    the running sum of exponentials, the running label logit. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- The scratches as views: what each holds is stated through its view. -/
abbrev VS0_0 : View sig .tc .vmem S512x1 .f32 := scM0_0.view
abbrev VS0_1 : View sig .tc .vmem S512x1 .f32 := scM0_1.view
abbrev VS0_2 : View sig .tc .vmem S512x1 .f32 := scM0_2.view

/-- The frame kit's invariant with the scratch operands as memrefs owned at some contents: what the body obligation hands
    the run at a row block's first tile and takes back after the last point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KRunA.lean ====
import proofs.«418224_j48859547959893_3_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves behind AT THE FIRST COLUMN TILE OF A ROW BLOCK (coordinate 1 is 0, not 24), as the pieces written
    into each buffer (last first), WITH the proof that the body runs: on whole memrefs — the three inputs at their blocks,
    the output's buffer at contents `xi3` handed back untouched (nothing is stored into it here), the three scratches at
    anything (what they held is loaded but never used: each is overwritten first, by −∞, 0 and 0) — the body runs to the
    continuation holding the inputs as they were, the output's buffer as it was, and each scratch with its pieces written:
    the running maximum after this tile, the running sum of exponentials after this tile, the label logit found so far. -/
noncomputable def kernelRun0_A (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    Σ' (L3 : List (View.Piece (Elt F) S512 .f32)) (LS0 : List (View.Piece (Elt F) S512x1 .f32)) (LS1 : List (View.Piece (Elt F) S512x1 .f32)), { LS2 : List (View.Piece (Elt F) S512x1 .f32) //
      ∀ (xi3 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨[], ?_, ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KRunB.lean ====
import proofs.«418224_j48859547959893_3_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves behind AT A MIDDLE COLUMN TILE (coordinate 1 neither 0 nor 24), as the pieces written into each
    buffer (last first), WITH the proof that the body runs: on whole memrefs — the three inputs at their blocks, the
    output's buffer at contents `xi3` handed back untouched, the three scratches at what the tile before left (`xs·`) — the
    body runs to the continuation holding the inputs as they were, the output's buffer as it was, and each scratch with its
    pieces written: the maximum, the rescaled sum of exponentials and the label logit, each updated by this tile. -/
noncomputable def kernelRun0_B (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    Σ' (L3 : List (View.Piece (Elt F) S512 .f32)) (LS0 : List (View.Piece (Elt F) S512x1 .f32)) (LS1 : List (View.Piece (Elt F) S512x1 .f32)), { LS2 : List (View.Piece (Elt F) S512x1 .f32) //
      ∀ (xi3 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨[], ?_, ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KRunC.lean ====
import proofs.«418224_j48859547959893_3_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves behind AT THE LAST COLUMN TILE OF A ROW BLOCK (coordinate 1 is 24), as the pieces written into each
    buffer (last first), WITH the proof that the body runs: on whole memrefs — the three inputs at their blocks, the
    output's buffer at anything, the three scratches at what the tile before left (`xs·`) — the body runs to the
    continuation holding the inputs as they were, each scratch with its pieces written (updated by this tile), and the
    output's buffer with its pieces written: per row, the label logit minus the log-sum-exp (maximum plus log of the sum). -/
noncomputable def kernelRun0_C (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    Σ' (L3 : List (View.Piece (Elt F) S512 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨?_, ?_, ?_, ?_, fun E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KFrame.lean ====
import proofs.«418224_j48859547959893_3_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first column tile of a row block nothing is stored into the output's buffer (the window is idle there and not written back): no
    pieces — a placeholder (junk read back) that nothing consults. -/
def out0_A_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- At the first column tile of a row block the stores into scratch 0 cover its 512×1 entries (each store is whole). -/
theorem scover0_A_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) (y : S512x1.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S512x1.size (by sl_kernel_rfl) y

/-- What the first column tile of a row block leaves in the running maximum (scratch 0): its pieces read back over junk. -/
def sout0_A_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.1)

/-- At the first column tile of a row block the stores into scratch 1 cover its 512×1 entries (each store is whole). -/
theorem scover0_A_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) (y : S512x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S512x1.size (by sl_kernel_rfl) y

/-- What the first column tile of a row block leaves in the running sum of exponentials (scratch 1): its pieces read back over junk. -/
def sout0_A_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.1)

/-- At the first column tile of a row block the stores into scratch 2 cover its 512×1 entries (each store is whole). -/
theorem scover0_A_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) (y : S512x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S512x1.size (by sl_kernel_rfl) y

/-- What the first column tile of a row block leaves in the running label logit (scratch 2): its pieces read back over junk. -/
def sout0_A_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512x1 .f32 :=
  VS0_2.read (Elt F) (VS0_2.writes (Elt F) VS0_2.junk (kernelRun0_A c i arg2 harg2 arg3 harg3 arg4 harg4 arg5 harg5 arg6 harg6 arg7 harg7 arg8 harg8 hc0 hc1 x0 x1 x2).2.2.2.1)

/-- At a middle column tile nothing is stored into the output's buffer (the window is idle there and not written back): no
    pieces — a placeholder (junk read back) that nothing consults. -/
def out0_B_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1 xs2).1)

/-- At a middle column tile the stores into scratch 0 cover its 512×1 entries (each store is whole). -/
theorem scover0_B_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.1 S512x1.size (by sl_kernel_rfl) y

/-- What a middle column tile leaves in the running maximum (scratch 0): its pieces read back over junk. -/
def sout0_B_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1 xs2).2.1)

/-- At a middle column tile the stores into scratch 1 cover its 512×1 entries (each store is whole). -/
theorem scover0_B_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.1 S512x1.size (by sl_kernel_rfl) y

/-- What a middle column tile leaves in the running sum of exponentials (scratch 1): its pieces read back over junk. -/
def sout0_B_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1 xs2).2.2.1)

/-- At a middle column tile the stores into scratch 2 cover its 512×1 entries (each store is whole). -/
theorem scover0_B_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.2.1 S512x1.size (by sl_kernel_rfl) y

/-- What a middle column tile leaves in the running label logit (scratch 2): its pieces read back over junk. -/
def sout0_B_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 hc0 hc1 x0 x1 x2 xs0 xs1 xs2).2.2.2.1)

/-- At the last column tile of a row block the one store into the output's buffer covers its 512 entries. -/
theorem cover0_C_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S512.size (by sl_kernel_rfl) y

/-- What the last column tile of a row block leaves in the output's staging buffer: its pieces read back over junk — per row, the label
    logit minus (maximum + log of the sum of exponentials). -/
def out0_C_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1 xs2).1)

/-- At the last column tile of a row block the stores into scratch 0 cover its 512×1 entries (each store is whole). -/
theorem scover0_C_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S512x1.size (by sl_kernel_rfl) y

/-- What the last column tile of a row block leaves in the running maximum (scratch 0): its pieces read back over junk. -/
def sout0_C_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1 xs2).2.1)

/-- At the last column tile of a row block the stores into scratch 1 cover its 512×1 entries (each store is whole). -/
theorem scover0_C_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.1 S512x1.size (by sl_kernel_rfl) y

/-- What the last column tile of a row block leaves in the running sum of exponentials (scratch 1): its pieces read back over junk. -/
def sout0_C_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1 xs2).2.2.1)

/-- At the last column tile of a row block the stores into scratch 2 cover its 512×1 entries (each store is whole). -/
theorem scover0_C_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.2.1 S512x1.size (by sl_kernel_rfl) y

/-- What the last column tile of a row block leaves in the running label logit (scratch 2): its pieces read back over junk. -/
def sout0_C_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 hc0 hc1 x0 x1 x2 xs0 xs1 xs2).2.2.2.1)

/-! ## What the buffers hold after each point -/

/-- THE ACCUMULATION. What the output's staging buffer and the three scratches hold after the body at position `n` (a
    tuple: the output, then scratch 0, 1, 2): the case the closed forms select at `n`, run at the point's memrefs and input
    blocks, the scratches — outside a row block's first tile — at what this leaves at `n - 1`. Both conditions at once
    is no case (no point has column-tile coordinate 0 and 24). -/
def outsAt0 (c : Dev nD) : (n : ℕ) → n < cfg0.N → Vec F S512 .f32 × Vec F S512x1 .f32 × Vec F S512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
          sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
          sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
          sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
          sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a row block's first tile: that case's contents. -/
theorem outsAt0_A (c : Dev nD) (t : Fin cfg0.N) (h0 : t.val % 25 = 0) (h1 : ¬t.val % 25 = 24) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
          sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
          sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
          sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a middle tile: that case's contents, over what the point before left in the scratches. -/
theorem outsAt0_B (c : Dev nD) (t : Fin cfg0.N) (h0 : ¬t.val % 25 = 0) (h1 : ¬t.val % 25 = 24) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a row block's last tile: that case's contents, over what the point before left in the scratches. -/
theorem outsAt0_C (c : Dev nD) (t : Fin cfg0.N) (h0 : ¬t.val % 25 = 0) (h1 : t.val % 25 = 24) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    each of the three scratches at what the point before left in it (`outsAt0`'s scratch components), and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratches at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the scratches at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at point `t`
    each input's buffer at its block and the output's at `outsAt0`'s first component; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' memrefs hold their blocks; the closed forms say which case the point is in; so that
    case's run applies. The invariant hands the body the three scratches at what the point before left (at anything at the
    first point), and takes them back at this point's contents (each scratch's pieces cover it); the output's buffer is
    handed back untouched at a first or middle tile and at its 512 stored values at a last tile; the core owes nothing
    throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 25 = 0
  · by_cases h1 : t.val % 25 = 24
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1 sout0_A_2; (try dsimp only)
      by_cases hz : t.val = 0
      ·
        rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 25 = 24
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0 sout0_C_1 sout0_C_2; (try dsimp only)
      have hz : t.val ≠ 0 := by omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          · unfold owns; iexists _; isplitr
            swap; · iexact HS2
            ipureintro; exact View.read_writes_of_cover _ _ _ _ _ (scover0_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1 sout0_B_2; (try dsimp only)
      have hz : t.val ≠ 0 := by omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          · unfold owns; iexists _; isplitr
            swap; · iexact HS2
            ipureintro; exact View.read_writes_of_cover _ _ _ _ _ (scover0_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (every scratch at anything) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratches' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-- info: 'Cert.Kernel.Hand.run_main' depends on axioms: [propext, Classical.choice, Quot.sound] -/
#guard_msgs in #print axioms run_main

/-- THE FRAME: the program runs (terminates, no fault) and its three argument arrays end unchanged — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.KIRuns.lean ====
import proofs.«418224_j48859547959893_3_alg».proof.Proof.Gen.KernelIdeal.Launch
import proofs.«418224_j48859547959893_3_alg».proof.Proof.Gen.KernelIdeal.Skeleton
import proofs.«418224_j48859547959893_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents `m` after the
    twelve host operations before the region (the casts of the activations and of the weight table to bf16, the masked
    labels and their reshapes). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-! ### What the host operations write

Every host operation writes exactly one buffer, its own result. `WritesOutside K op` says that this one buffer is none of
the references listed in `K`; so a reference of `K` keeps its contents across `op`. -/

/-- `op` writes one buffer, and it is none of `K`. -/
def WritesOutside (K : List (Ref sig .tc)) (op : HloOp τ sig (Elt F)) : Prop :=
  ∃ y : Ref sig .tc, op.writes = {Proc.devRef .tc y} ∧ y ∉ K

/-- A reference of `K` is not written by an operation writing outside `K`. -/
theorem WritesOutside.not_mem {K : List (Ref sig .tc)} {op : HloOp τ sig (Elt F)} (h : WritesOutside K op)
    {b : Ref sig .tc} (hb : b ∈ K) : Proc.devRef .tc b ∉ op.writes := by
  obtain ⟨y, hw, hy⟩ := h
  rw [hw, Finset.mem_singleton]
  intro e
  exact hy (Proc.devRef_injective _ e ▸ hb)

/-- The program's three arguments: no host operation before the region writes one. -/
abbrev argRefs : List (Ref sig .tc) := [main_arg0, main_arg1, main_arg2]
/-- The pipeline's four arrays and the program's three arguments: no host operation after the region writes one. -/
abbrev keptRefs : List (Ref sig .tc) := [main_v1, main_v2, main_v7, main_v8, main_arg0, main_arg1, main_arg2]

theorem hostOps0_outside : (hostOps0 : List (HloOp τ sig (Elt F))).Forall (WritesOutside argRefs) := by
  simp only [List.Forall]
  repeat' apply And.intro
  all_goals exact ⟨_, rfl, by decide⟩
theorem hostOps0_1_outside : (hostOps0_1 : List (HloOp τ sig (Elt F))).Forall (WritesOutside argRefs) := by
  simp only [List.Forall]
  repeat' apply And.intro
  all_goals exact ⟨_, rfl, by decide⟩
theorem hostOps0_2_outside : (hostOps0_2 : List (HloOp τ sig (Elt F))).Forall (WritesOutside argRefs) := by
  simp only [List.Forall]
  repeat' apply And.intro
  all_goals exact ⟨_, rfl, by decide⟩
theorem hostOps1_outside : (hostOps1 : List (HloOp τ sig (Elt F))).Forall (WritesOutside keptRefs) := by
  simp only [List.Forall]
  repeat' apply And.intro
  all_goals exact ⟨_, rfl, by decide⟩
theorem hostOps1_1_outside : (hostOps1_1 : List (HloOp τ sig (Elt F))).Forall (WritesOutside keptRefs) := by
  simp only [List.Forall]
  repeat' apply And.intro
  all_goals exact ⟨_, rfl, by decide⟩
theorem hostOps1_2_outside : (hostOps1_2 : List (HloOp τ sig (Elt F))).Forall (WritesOutside keptRefs) := by
  simp only [List.Forall]
  repeat' apply And.intro
  all_goals exact ⟨_, rfl, by decide⟩
theorem hostOps1_3_outside : (hostOps1_3 : List (HloOp τ sig (Elt F))).Forall (WritesOutside keptRefs) := by
  simp only [List.Forall]
  repeat' apply And.intro
  all_goals exact ⟨_, rfl, by decide⟩
theorem hostOps1_4_outside : (hostOps1_4 : List (HloOp τ sig (Elt F))).Forall (WritesOutside keptRefs) := by
  simp only [List.Forall]
  repeat' apply And.intro
  all_goals exact ⟨_, rfl, by decide⟩

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main around the region, at the certificate's variants `𝒱₀`: the three stretches of host lines before it, the region,
    the five stretches after it: it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1, hostOps1_1, hostOps1_2, hostOps1_3, hostOps1_4])) :=
by
  have hsub : ([hostOps0, hostOps0_1, hostOps0_2] : List (List (HloOp τ sig (Elt F)))).Forall fun ops => ops.Forall fun op => op.bufs ⊆ StableHlo.tcRefs τ sig :=
    And.intro hostOps0_sub (And.intro hostOps0_1_sub hostOps0_2_sub)
  have hfresh : ([hostOps0, hostOps0_1, hostOps0_2] : List (List (HloOp τ sig (Elt F)))).Forall fun ops => ops.Forall fun op => op.fresh = ∅ :=
    And.intro hostOps0_fresh (And.intro hostOps0_1_fresh hostOps0_2_fresh)
  exact Pipeline.hmain_around cfgs 0 defs₀ 𝒱₀ m main [hostOps0, hostOps0_1, hostOps0_2] [hostOps1, hostOps1_1, hostOps1_2, hostOps1_3, hostOps1_4]
    hsub hfresh main_chain

/-- The lines after the region touch the pipeline's arrays and the bypassing buffers only (each operation's buffers are
    unscoped TensorCore references, and with nothing prefetched every such reference is one or the other). -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- Each of them writes outside the kept references. -/
theorem sfx_outside : ∀ ops ∈ ([hostOps1, hostOps1_1, hostOps1_2, hostOps1_3, hostOps1_4] : List (List (HloOp τ sig (Elt F)))), ∀ op ∈ ops, WritesOutside keptRefs op := by
  intro ops hops op hop
  simp only [List.mem_cons, List.mem_nil_iff, or_false] at hops
  rcases hops with rfl | rfl | rfl | rfl | rfl
  · exact (List.forall_iff_forall_mem.mp hostOps1_outside) op hop
  · exact (List.forall_iff_forall_mem.mp hostOps1_1_outside) op hop
  · exact (List.forall_iff_forall_mem.mp hostOps1_2_outside) op hop
  · exact (List.forall_iff_forall_mem.mp hostOps1_3_outside) op hop
  · exact (List.forall_iff_forall_mem.mp hostOps1_4_outside) op hop
/-- Every array of the pipeline is a kept reference. -/
theorem arr_mem_kept (w : Fin cfg0.W) : Pipeline.arrRef spec0 w ∈ keptRefs := by
  fin_cases w <;> decide
/-- And they write no array of the pipeline (each writes only its own result buffer, which is no array). -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  fun ops hops op hop w => (sfx_outside ops hops op hop).not_mem (arr_mem_kept w)

/-- No host operation before the region writes an argument of the program: the region finds it as launched. -/
theorem V_arg (c : Dev nD) {b : Ref sig .tc} (hb : b ∈ argRefs) : V m c b = m ((c : Thread nD τ).loc b) :=
  StableHlo.after_of_forall_not_mem (b := Proc.devRef .tc b) _ _ (fun op hop => by
    obtain ⟨ops, hops, hop⟩ := List.mem_flatten.mp hop
    simp only [List.mem_cons, List.mem_nil_iff, or_false] at hops
    rcases hops with rfl | rfl | rfl
    · exact ((List.forall_iff_forall_mem.mp hostOps0_outside) op hop).not_mem hb
    · exact ((List.forall_iff_forall_mem.mp hostOps0_1_outside) op hop).not_mem hb
    · exact ((List.forall_iff_forall_mem.mp hostOps0_2_outside) op hop).not_mem hb)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for ANY proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for ANY proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the lines that follow the region an argument of the program holds what the region found in it: no line writes
    it, and it is no array of the pipeline. -/
theorem tail_arg (dats : (p : Fin 1) → (c : Dev nD) → Dat τ (Elt F) Unit ℕ (UR sig nD τ) ℕ (cfgs p) c) (c : Dev nD)
    {b : Ref sig .tc} (hb : b ∈ keptRefs) (hw : ∀ w, Pipeline.arrRef spec0 w ≠ b) :
    Pipeline.afterTail₀ cfgs dats 0 (V0 m) [hostOps1, hostOps1_1, hostOps1_2, hostOps1_3, hostOps1_4] c b = V m c b := by
  unfold Pipeline.afterTail₀
  rw [StableHlo.after_of_forall_not_mem (b := Proc.devRef .tc b) _ _ (fun op hop => by
    obtain ⟨ops, hops, hop⟩ := List.mem_flatten.mp hop
    exact (sfx_outside ops hops op hop).not_mem hb)]
  exact Pipeline.withArrays_of_ne _ c (V0 m c) _ b hw

/-- THE FRAME from a frame run: a run to the library's frame post, read at the three argument buffers — none is an array
    of the pipeline, so each holds what the lines after the region leave in it (the post's second clause), which is what
    the region found (`tail_arg`), which is what was launched (`V_arg`) — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_arg m dats c (by decide) (by decide)).trans (V_arg m c (by decide))),
      ((h c).2 main_arg1 (Pipeline.mem_restRefs_of main_arg1 (by decide) (by decide))).trans
        ((tail_arg m dats c (by decide) (by decide)).trans (V_arg m c (by decide))),
      ((h c).2 main_arg2 (Pipeline.mem_restRefs_of main_arg2 (by decide) (by decide))).trans
        ((tail_arg m dats c (by decide) (by decide)).trans (V_arg m c (by decide)))⟩) h

/-! ## The body's branch conditions -/

/-- The condition of the body's first `scf.if` (in `k0_part1`), from the grid coordinates: the column-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 25): the first column tile of each row block — decided over the grid. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second `scf.if`: the column-tile coordinate is 24. -/
abbrev cond0_1 (i : grid0.Coords) : Prop := k0_cond2 i = 1#1
/-- It holds at the points ≡ 24 (mod 25): the last column tile of each row block — decided over the grid. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

/-- Windows 0, 1, 2 are never idle (inputs). -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- At the first tile of a row block the output is idle: the body stores nothing into it. -/
theorem idleAt0_3_A : ∀ t : Fin cfg0.N, cond0_0 (grid0.coords t) → ¬cond0_1 (grid0.coords t) → cfg0.idle 3 (grid0.coords t) = true := by decide +kernel
/-- There the pipeline does not write the output's block back. -/
theorem noFlush0_3_A : ∀ t : Fin cfg0.N, cond0_0 (grid0.coords t) → ¬cond0_1 (grid0.coords t) → (cfg0.win 3).flush t = false := by decide +kernel
/-- At a middle tile the output is idle: the body stores nothing into it. -/
theorem idleAt0_3_B : ∀ t : Fin cfg0.N, ¬cond0_0 (grid0.coords t) → ¬cond0_1 (grid0.coords t) → cfg0.idle 3 (grid0.coords t) = true := by decide +kernel
/-- There the pipeline does not write the output's block back. -/
theorem noFlush0_3_B : ∀ t : Fin cfg0.N, ¬cond0_0 (grid0.coords t) → ¬cond0_1 (grid0.coords t) → (cfg0.win 3).flush t = false := by decide +kernel
/-- At the last tile of a row block the output is live: the body stores the block's 512 values into it. -/
theorem liveAt0_3_C : ∀ t : Fin cfg0.N, ¬cond0_0 (grid0.coords t) → cond0_1 (grid0.coords t) → cfg0.idle 3 (grid0.coords t) = false := by decide +kernel

/-! ## The kernel body's memrefs -/

/-- One staging buffer of the output window, through which its contents are stated (the choice does not matter). -/
abbrev VO0_3 : View sig .tc .vmem S512 .f32 := (Memref.whole cc0_stg3_0 : Memref sig .tc .vmem S512 .f32).view
/-- Each window's current staging memref at point `t`, spelled as the pipeline passes it, and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows — the running row maximum,
    the running sum of exponentials, the running label logit. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- The scratches as views: what each holds is stated through its view. -/
abbrev VS0_0 : View sig .tc .vmem S512x1 .f32 := scM0_0.view
abbrev VS0_1 : View sig .tc .vmem S512x1 .f32 := scM0_1.view
abbrev VS0_2 : View sig .tc .vmem S512x1 .f32 := scM0_2.view

/-- The frame kit's invariant with the scratch operands as memrefs owned at some contents: what the body obligation hands
    the run at a row block's first tile and takes back after the last point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KIRunA.lean ====
import proofs.«418224_j48859547959893_3_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves behind AT THE FIRST COLUMN TILE OF A ROW BLOCK (coordinate 1 is 0, not 24), as the pieces written
    into each buffer (last first), WITH the proof that the body runs: on whole memrefs — the three inputs at their blocks,
    the output's buffer at contents `xi3` handed back untouched (nothing is stored into it here), the three scratches at
    anything (what they held is loaded but never used: each is overwritten first, by −∞, 0 and 0) — the body runs to the
    continuation holding the inputs as they were, the output's buffer as it was, and each scratch with its pieces written:
    the running maximum after this tile, the running sum of exponentials after this tile, the label logit found so far. -/
noncomputable def kernelRun0_A (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    Σ' (L3 : List (View.Piece (Elt F) S512 .f32)) (LS0 : List (View.Piece (Elt F) S512x1 .f32)) (LS1 : List (View.Piece (Elt F) S512x1 .f32)), { LS2 : List (View.Piece (Elt F) S512x1 .f32) //
      ∀ (xi3 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨[], ?_, ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KIRunB.lean ====
import proofs.«418224_j48859547959893_3_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves behind AT A MIDDLE COLUMN TILE (coordinate 1 neither 0 nor 24), as the pieces written into each
    buffer (last first), WITH the proof that the body runs: on whole memrefs — the three inputs at their blocks, the
    output's buffer at contents `xi3` handed back untouched, the three scratches at what the tile before left (`xs·`) — the
    body runs to the continuation holding the inputs as they were, the output's buffer as it was, and each scratch with its
    pieces written: the maximum, the rescaled sum of exponentials and the label logit, each updated by this tile. -/
noncomputable def kernelRun0_B (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    Σ' (L3 : List (View.Piece (Elt F) S512 .f32)) (LS0 : List (View.Piece (Elt F) S512x1 .f32)) (LS1 : List (View.Piece (Elt F) S512x1 .f32)), { LS2 : List (View.Piece (Elt F) S512x1 .f32) //
      ∀ (xi3 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨[], ?_, ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KIRunC.lean ====
import proofs.«418224_j48859547959893_3_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves behind AT THE LAST COLUMN TILE OF A ROW BLOCK (coordinate 1 is 24), as the pieces written into each
    buffer (last first), WITH the proof that the body runs: on whole memrefs — the three inputs at their blocks, the
    output's buffer at anything, the three scratches at what the tile before left (`xs·`) — the body runs to the
    continuation holding the inputs as they were, each scratch with its pieces written (updated by this tile), and the
    output's buffer with its pieces written: per row, the label logit minus the log-sum-exp (maximum plus log of the sum). -/
noncomputable def kernelRun0_C (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    Σ' (L3 : List (View.Piece (Elt F) S512 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨?_, ?_, ?_, ?_, fun E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIFrame.lean ====
import proofs.«418224_j48859547959893_3_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first column tile of a row block nothing is stored into the output's buffer (the window is idle there and not written back): no
    pieces — a placeholder (junk read back) that nothing consults. -/
def out0_A_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- At the first column tile of a row block the stores into scratch 0 cover its 512×1 entries (each store is whole). -/
theorem scover0_A_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) (y : S512x1.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S512x1.size (by sl_kernel_rfl) y

/-- What the first column tile of a row block leaves in the running maximum (scratch 0): its pieces read back over junk. -/
def sout0_A_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.1)

/-- At the first column tile of a row block the stores into scratch 1 cover its 512×1 entries (each store is whole). -/
theorem scover0_A_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) (y : S512x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S512x1.size (by sl_kernel_rfl) y

/-- What the first column tile of a row block leaves in the running sum of exponentials (scratch 1): its pieces read back over junk. -/
def sout0_A_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.1)

/-- At the first column tile of a row block the stores into scratch 2 cover its 512×1 entries (each store is whole). -/
theorem scover0_A_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) (y : S512x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S512x1.size (by sl_kernel_rfl) y

/-- What the first column tile of a row block leaves in the running label logit (scratch 2): its pieces read back over junk. -/
def sout0_A_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) : Vec F S512x1 .f32 :=
  VS0_2.read (Elt F) (VS0_2.writes (Elt F) VS0_2.junk (kernelRun0_A c i arg2 harg2 arg3 harg3 arg4 harg4 arg5 harg5 arg6 harg6 arg7 harg7 arg8 harg8 hc0 hc1 x0 x1 x2).2.2.2.1)

/-- At a middle column tile nothing is stored into the output's buffer (the window is idle there and not written back): no
    pieces — a placeholder (junk read back) that nothing consults. -/
def out0_B_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1 xs2).1)

/-- At a middle column tile the stores into scratch 0 cover its 512×1 entries (each store is whole). -/
theorem scover0_B_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.1 S512x1.size (by sl_kernel_rfl) y

/-- What a middle column tile leaves in the running maximum (scratch 0): its pieces read back over junk. -/
def sout0_B_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1 xs2).2.1)

/-- At a middle column tile the stores into scratch 1 cover its 512×1 entries (each store is whole). -/
theorem scover0_B_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.1 S512x1.size (by sl_kernel_rfl) y

/-- What a middle column tile leaves in the running sum of exponentials (scratch 1): its pieces read back over junk. -/
def sout0_B_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1 xs2).2.2.1)

/-- At a middle column tile the stores into scratch 2 cover its 512×1 entries (each store is whole). -/
theorem scover0_B_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.2.1 S512x1.size (by sl_kernel_rfl) y

/-- What a middle column tile leaves in the running label logit (scratch 2): its pieces read back over junk. -/
def sout0_B_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 hc0 hc1 x0 x1 x2 xs0 xs1 xs2).2.2.2.1)

/-- At the last column tile of a row block the one store into the output's buffer covers its 512 entries. -/
theorem cover0_C_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S512.size (by sl_kernel_rfl) y

/-- What the last column tile of a row block leaves in the output's staging buffer: its pieces read back over junk — per row, the label
    logit minus (maximum + log of the sum of exponentials). -/
def out0_C_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1 xs2).1)

/-- At the last column tile of a row block the stores into scratch 0 cover its 512×1 entries (each store is whole). -/
theorem scover0_C_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S512x1.size (by sl_kernel_rfl) y

/-- What the last column tile of a row block leaves in the running maximum (scratch 0): its pieces read back over junk. -/
def sout0_C_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1 xs2).2.1)

/-- At the last column tile of a row block the stores into scratch 1 cover its 512×1 entries (each store is whole). -/
theorem scover0_C_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.1 S512x1.size (by sl_kernel_rfl) y

/-- What the last column tile of a row block leaves in the running sum of exponentials (scratch 1): its pieces read back over junk. -/
def sout0_C_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1 xs2).2.2.1)

/-- At the last column tile of a row block the stores into scratch 2 cover its 512×1 entries (each store is whole). -/
theorem scover0_C_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.2.1 S512x1.size (by sl_kernel_rfl) y

/-- What the last column tile of a row block leaves in the running label logit (scratch 2): its pieces read back over junk. -/
def sout0_C_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 hc0 hc1 x0 x1 x2 xs0 xs1 xs2).2.2.2.1)

/-! ## What the buffers hold after each point -/

/-- THE ACCUMULATION. What the output's staging buffer and the three scratches hold after the body at position `n` (a
    tuple: the output, then scratch 0, 1, 2): the case the closed forms select at `n`, run at the point's memrefs and input
    blocks, the scratches — outside a row block's first tile — at what this leaves at `n - 1`. Both conditions at once
    is no case (no point has column-tile coordinate 0 and 24). -/
def outsAt0 (c : Dev nD) : (n : ℕ) → n < cfg0.N → Vec F S512 .f32 × Vec F S512x1 .f32 × Vec F S512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
          sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
          sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
          sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
          sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
          sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a row block's first tile: that case's contents. -/
theorem outsAt0_A (c : Dev nD) (t : Fin cfg0.N) (h0 : t.val % 25 = 0) (h1 : ¬t.val % 25 = 24) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
          sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
          sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
          sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a middle tile: that case's contents, over what the point before left in the scratches. -/
theorem outsAt0_B (c : Dev nD) (t : Fin cfg0.N) (h0 : ¬t.val % 25 = 0) (h1 : ¬t.val % 25 = 24) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a row block's last tile: that case's contents, over what the point before left in the scratches. -/
theorem outsAt0_C (c : Dev nD) (t : Fin cfg0.N) (h0 : ¬t.val % 25 = 0) (h1 : t.val % 25 = 24) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
          sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    each of the three scratches at what the point before left in it (`outsAt0`'s scratch components), and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratches at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the scratches at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at point `t`
    each input's buffer at its block and the output's at `outsAt0`'s first component; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' memrefs hold their blocks; the closed forms say which case the point is in; so that
    case's run applies. The invariant hands the body the three scratches at what the point before left (at anything at the
    first point), and takes them back at this point's contents (each scratch's pieces cover it); the output's buffer is
    handed back untouched at a first or middle tile and at its 512 stored values at a last tile; the core owes nothing
    throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 25 = 0
  · by_cases h1 : t.val % 25 = 24
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1 sout0_A_2; (try dsimp only)
      by_cases hz : t.val = 0
      ·
        rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 25 = 24
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0 sout0_C_1 sout0_C_2; (try dsimp only)
      have hz : t.val ≠ 0 := by omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          · unfold owns; iexists _; isplitr
            swap; · iexact HS2
            ipureintro; exact View.read_writes_of_cover _ _ _ _ _ (scover0_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1 sout0_B_2; (try dsimp only)
      have hz : t.val ≠ 0 := by omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          · unfold owns; iexists _; isplitr
            swap; · iexact HS2
            ipureintro; exact View.read_writes_of_cover _ _ _ _ _ (scover0_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (every scratch at anything) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratches' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-- info: 'Cert.KernelIdeal.Hand.run_main' depends on axioms: [propext, Classical.choice, Quot.sound] -/
#guard_msgs in #print axioms run_main

/-- THE FRAME: the program runs (terminates, no fault) and its three argument arrays end unchanged — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KIPay.lean ====
/-
  The kernel body's arithmetic read at an index, at the ideal values.

  One grid point holds a block xb of 512 rows × 4096 features, a block wb of 1280 vocabulary entries × 4096 features,
  a block yb of 512 labels, and per row three carried numbers: the running maximum, the running rescaled sum and the
  running label-logit sum.  blkLogit xb wb p q = Σ_h xb[p, h] · wb[q, h] is the logit of row p at lane q of the block.
  Each payload of the body is read here at an index as ordinary arithmetic over blkLogit.
-/
import proofs.«418224_j48859547959893_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

namespace Cert.KernelIdeal.Pay

open Idealize.ShloMosaic Idealize.SL.Sem
open Cert.KernelIdeal Cert.KernelIdeal.Gen
open Idealize.ShloMosaic.ValueIdx

/-! ## Layout: a column [a, 1] against a vector [a] and a matrix [a, b] -/

section Layout
variable {α : Type}

/-- A vector [a] viewed as a column [a, 1] reads, at (i, 0), its entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] viewed as a vector [a] reads, at i, its entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] broadcast to [a, b] reads, at (p, c), the column's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a [512, 1280] block, kept as a column -/

/-- The index a reduction along the lanes inserts: row p with lane k. -/
theorem lift_lane (h : S512x1280.Reduces [1] S512) (p : Fin 512) (k : Fin 1280) :
    h.lift (ix1 p) k = ix2 p k :=
  funext fun c => Fin.ext (by
    match c with
    | ⟨0, _⟩ => rfl
    | ⟨1, _⟩ => rfl)

/-- The lane sum of a block, kept as a column: at (p, 0), Σ_q v[p, q]. -/
theorem laneSum_apply (v : FVec Ideal S512x1280 .f32) (p : Fin 512) :
    shapeCast S512x1 (multiReduction (F := Ideal) .add [1] S512 v 0x00000000#32 reduces_S512x1280_S512 (.inl rfl) rfl)
        shapeCasts_S512_S512x1 (ix2 p 0)
      = ∑ q : Fin 1280, v (ix2 p q) := by
  refine (shapeCast_a_a1_apply _ _ p 0).trans ?_
  refine (Ideal.multiReduction_add_single v 0x00000000#32 reduces_S512x1280_S512 (.inl rfl) rfl (ix1 p)).trans ?_
  exact Finset.sum_congr rfl fun k _ => congrArg v (lift_lane _ p k)

/-- The lane maximum of a block (from −∞), kept as a column: at (p, 0), the largest v[p, q]. -/
theorem laneMax_apply (v : FVec Ideal S512x1280 .f32) (p : Fin 512) :
    shapeCast S512x1 (multiReduction (F := Ideal) .maximumf [1] S512 v 0xFF800000#32 reduces_S512x1280_S512 (.inl rfl) rfl)
        shapeCasts_S512_S512x1 (ix2 p 0)
      = Finset.univ.sup fun q : Fin 1280 => v (ix2 p q) := by
  refine (shapeCast_a_a1_apply _ _ p 0).trans ?_
  refine (Ideal.multiReduction_maximumf_single v 0xFF800000#32 reduces_S512x1280_S512 (.inl rfl) rfl (ix1 p)).trans ?_
  have hbot : (FloatOps.ofBits (F := Ideal) .f32 0xFF800000#32 : EReal) = ⊥ := by
    show Ideal.ofBits .f32 0xFF800000#32 = ⊥
    simp [Ideal.ofBits, Ideal.ieee]
  rw [hbot]
  refine le_antisymm ?_ ?_
  · refine (Finset.fold_max_le _).2 ⟨bot_le, fun x _ => ?_⟩
    exact (congrArg v (lift_lane _ p x)).le.trans
      (Finset.le_sup (f := fun q : Fin 1280 => v (ix2 p q)) (Finset.mem_univ x))
  · refine Finset.sup_le fun x _ => (Finset.le_fold_max _).2 (Or.inr ⟨x, Finset.mem_univ _, ?_⟩)
    exact (congrArg v (lift_lane _ p x)).ge

/-! ## A lane's position as a 32-bit word -/

/-- The word of 1280·j plus the word of q is the word of 1280·j + q: nothing wraps, the position is below 32000. -/
theorem lanePos_word (j : ℕ) (hj : j < 25) (q : Fin 1280) :
    IntOp.addi (Scalar.muli (BitVec.ofNat 32 j) 1280#32) (BitVec.ofNat 32 q.val) = BitVec.ofNat 32 (1280 * j + q.val) := by
  have hq := q.isLt
  apply BitVec.eq_of_toNat_eq
  show ((BitVec.ofNat 32 j * 1280#32) + BitVec.ofNat 32 q.val).toNat = _
  simp only [BitVec.toNat_add, BitVec.toNat_mul, BitVec.toNat_ofNat]
  omega

/-! ## The block's matmul: the operands' indices at a contraction coordinate -/

theorem lhs_dot_0 (i : S512x1280.Idx) (k : dot_S512x4096_S1280x4096_S512x1280_1_1_0_0_n_n.contr.Idx) :
    (dot_S512x4096_S1280x4096_S512x1280_1_1_0_0_n_n.lhsIdx i k 0).val = (i 0).val := by
  unfold DotDims.lhsIdx
  rw [dif_neg (show ¬(0 : Fin S512x4096.rank) ∈ dot_S512x4096_S1280x4096_S512x1280_1_1_0_0_n_n.lhsBatch by decide),
    dif_pos (show (0 : Fin S512x4096.rank) ∈ dot_S512x4096_S1280x4096_S512x1280_1_1_0_0_n_n.lhsNonContracting by decide)]
  rfl

theorem lhs_dot_1 (i : S512x1280.Idx) (k : dot_S512x4096_S1280x4096_S512x1280_1_1_0_0_n_n.contr.Idx) :
    (dot_S512x4096_S1280x4096_S512x1280_1_1_0_0_n_n.lhsIdx i k 1).val = (k ⟨0, by decide⟩).val :=
  dot_S512x4096_S1280x4096_S512x1280_1_1_0_0_n_n.lhsIdx_val_of_single rfl i k

theorem rhs_dot_0 (i : S512x1280.Idx) (k : dot_S512x4096_S1280x4096_S512x1280_1_1_0_0_n_n.contr.Idx) :
    (dot_S512x4096_S1280x4096_S512x1280_1_1_0_0_n_n.rhsIdx i k 0).val = (i 1).val := by
  unfold DotDims.rhsIdx
  rw [dif_neg (show ¬(0 : Fin S1280x4096.rank) ∈ dot_S512x4096_S1280x4096_S512x1280_1_1_0_0_n_n.rhsBatch by decide),
    dif_pos (show (0 : Fin S1280x4096.rank) ∈ dot_S512x4096_S1280x4096_S512x1280_1_1_0_0_n_n.rhsNonContracting by decide)]
  rfl

theorem rhs_dot_1 (i : S512x1280.Idx) (k : dot_S512x4096_S1280x4096_S512x1280_1_1_0_0_n_n.contr.Idx) :
    (dot_S512x4096_S1280x4096_S512x1280_1_1_0_0_n_n.rhsIdx i k 1).val = (k ⟨0, by decide⟩).val :=
  dot_S512x4096_S1280x4096_S512x1280_1_1_0_0_n_n.rhsIdx_val_of_single rfl i k

variable (xb : Vec Ideal S512x4096 .bf16) (wb : Vec Ideal S1280x4096 .bf16) (yb : Vec Ideal S512x1 .i32)
variable (p : Fin 512) (q : Fin 1280)

/-- The logit of row p at lane q of the block: Σ_h xb[p, h] · wb[q, h]. -/
def blkLogit (xb : Vec Ideal S512x4096 .bf16) (wb : Vec Ideal S1280x4096 .bf16) (p : Fin 512) (q : Fin 1280) : EReal :=
  ∑ h : Fin 4096, xb (ValueIdx.ix2 p h) * wb (ValueIdx.ix2 q h)

theorem pay2_apply (v28 : FVec Ideal S512x1 .f32) : k0_pay2 (F := Ideal) v28 = v28 := by
  unfold k0_pay2
  exact shapeCast_self v28 _

theorem pay4_apply : k0_pay4 (F := Ideal) (ValueIdx.ix2 p 0) = ⊥ := by
  unfold k0_pay4
  rw [shapeCast_self]
  show Ideal.ofBits .f32 0xFF800000#32 = ⊥
  simp [Ideal.ofBits, Ideal.ieee]

theorem pay5_apply : k0_pay5 (F := Ideal) (ValueIdx.ix2 p 0) = 0 := by
  unfold k0_pay5
  rw [shapeCast_self]
  show Ideal.ofBits .f32 0x00000000#32 = 0
  exact Ideal.ofBits_zero_f32

theorem pay6_apply : k0_pay6 (F := Ideal) (ValueIdx.ix2 p 0) = 0 := by
  unfold k0_pay6
  rw [shapeCast_self]
  show Ideal.ofBits .f32 0x00000000#32 = 0
  exact Ideal.ofBits_zero_f32

theorem pay3_apply (v49 v50 v53 : Vec Ideal S512x1 .f32) :
    k0_pay3 (F := Ideal) v49 v50 v53 (ValueIdx.ix1 p)
      = v53 (ValueIdx.ix2 p 0) - (v49 (ValueIdx.ix2 p 0) + Ideal.log (v50 (ValueIdx.ix2 p 0))) := by
  unfold k0_pay3
  refine (shapeCast_a1_a_apply _ _ p).trans ?_
  rfl

theorem pay7_apply : k0_pay7 (F := Ideal) xb wb (ValueIdx.ix2 p q) = blkLogit xb wb p q := by
  unfold k0_pay7 blkLogit
  rw [shapeCast_self, shapeCast_self]
  simp only [matmul]
  rw [Ideal.matmul_constant_zero_apply,
    ← Equiv.sum_comp (contrEquiv1 dot_S512x4096_S1280x4096_S512x1280_1_1_0_0_n_n 4096 rfl rfl).symm]
  refine Finset.sum_congr rfl fun k _ => ?_
  have hk := contrEquiv1_symm_val dot_S512x4096_S1280x4096_S512x1280_1_1_0_0_n_n 4096 rfl rfl k
  have el : dot_S512x4096_S1280x4096_S512x1280_1_1_0_0_n_n.lhsIdx (ix2 p q)
      ((contrEquiv1 dot_S512x4096_S1280x4096_S512x1280_1_1_0_0_n_n 4096 rfl rfl).symm k) = ix2 p k :=
    funext fun a => Fin.ext (by
      match a with
      | ⟨0, _⟩ => exact lhs_dot_0 _ _
      | ⟨1, _⟩ => exact (lhs_dot_1 _ _).trans hk)
  have er : dot_S512x4096_S1280x4096_S512x1280_1_1_0_0_n_n.rhsIdx (ix2 p q)
      ((contrEquiv1 dot_S512x4096_S1280x4096_S512x1280_1_1_0_0_n_n 4096 rfl rfl).symm k) = ix2 q k :=
    funext fun a => Fin.ext (by
      match a with
      | ⟨0, _⟩ => exact rhs_dot_0 _ _
      | ⟨1, _⟩ => exact (rhs_dot_1 _ _).trans hk)
  rw [el, er]

theorem pay9_apply (mp : Vec Ideal S512x1 .f32) :
    k0_pay9 (F := Ideal) xb wb mp (ValueIdx.ix2 p 0)
      = max (mp (ValueIdx.ix2 p 0)) (Finset.univ.sup fun q : Fin 1280 => blkLogit xb wb p q) := by
  unfold k0_pay9
  show max (mp (ix2 p 0)) _ = _
  refine congrArg (max (mp (ix2 p 0))) ?_
  refine (laneMax_apply (k0_pay7 (F := Ideal) xb wb) p).trans ?_
  exact Finset.sup_congr rfl fun q _ => pay7_apply xb wb p q

theorem pay10_apply (mp v29 : Vec Ideal S512x1 .f32) :
    k0_pay10 (F := Ideal) xb wb mp v29 (ValueIdx.ix2 p 0)
      = Ideal.exp (v29 (ValueIdx.ix2 p 0) - k0_pay9 (F := Ideal) xb wb mp (ValueIdx.ix2 p 0)) := by
  unfold k0_pay10
  rfl

theorem pay11_apply (mp : Vec Ideal S512x1 .f32) :
    k0_pay11 (F := Ideal) xb wb mp (ValueIdx.ix2 p q)
      = Ideal.exp (blkLogit xb wb p q - k0_pay9 (F := Ideal) xb wb mp (ValueIdx.ix2 p 0)) := by
  unfold k0_pay11
  show Ideal.exp (k0_pay7 (F := Ideal) xb wb (ix2 p q)
      - broadcastTo S512x1280 (k0_pay9 (F := Ideal) xb wb mp) broadcasts_S512x1_S512x1280 (ix2 p q)) = _
  rw [pay7_apply, broadcastTo_a1_ab_apply]

theorem pay1_apply (v31 : FVec Ideal S512x1 .f32) (v34 : FVec Ideal S512x1280 .f32) (v35 : Vec Ideal S512x1 .f32) :
    k0_pay1 (F := Ideal) v31 v34 v35 (ValueIdx.ix2 p 0)
      = v31 (ValueIdx.ix2 p 0) * v35 (ValueIdx.ix2 p 0) + ∑ q : Fin 1280, v34 (ValueIdx.ix2 p q) := by
  unfold k0_pay1
  dsimp only
  rw [shapeCast_self]
  show v31 (ix2 p 0) * v35 (ix2 p 0) + _ = _
  refine congrArg (v31 (ix2 p 0) * v35 (ix2 p 0) + ·) ?_
  exact laneSum_apply v34 p

theorem pay8_apply (i : grid0.Coords) (hi : (i 1).val < 25) (v16 : Vec Ideal S512x1 .f32) :
    k0_pay8 (F := Ideal) i xb wb yb v16 (ValueIdx.ix2 p 0)
      = v16 (ValueIdx.ix2 p 0)
        + ∑ q : Fin 1280, (if BitVec.ofNat 32 (1280 * (i 1).val + q.val) = yb (ValueIdx.ix2 p 0) then blkLogit xb wb p q else 0) := by
  unfold k0_pay8
  dsimp only
  rw [shapeCast_self]
  show v16 (ix2 p 0) + _ = _
  refine congrArg (v16 (ix2 p 0) + ·) ?_
  refine (laneSum_apply _ p).trans ?_
  refine Finset.sum_congr rfl fun q _ => ?_
  rw [select_apply, pay7_apply]
  have hc : cmpi CmpIPredicate.eq
        (addi (broadcast S512x1280 (Scalar.muli (BitVec.ofNat 32 (i 1).val) 1280#32))
          (iota Kind.tc S512x1280 32 [1] iota_S512x1280_d1_w32))
        (broadcastTo S512x1280 (shapeCast S512x1 yb shapeCasts_S512x1_S512x1) broadcasts_S512x1_S512x1280) (ix2 p q)
      = IntOp.cmpi .eq (BitVec.ofNat 32 (1280 * (i 1).val + q.val)) (yb (ix2 p 0)) := by
    show IntOp.cmpi .eq
        (IntOp.addi (Scalar.muli (BitVec.ofNat 32 (i 1).val) 1280#32)
          (iota Kind.tc S512x1280 32 [1] iota_S512x1280_d1_w32 (ix2 p q)))
        (broadcastTo S512x1280 (shapeCast S512x1 yb shapeCasts_S512x1_S512x1) broadcasts_S512x1_S512x1280 (ix2 p q)) = _
    rw [iota_single_apply, broadcastTo_a1_ab_apply, shapeCast_self]
    show IntOp.cmpi .eq (IntOp.addi (Scalar.muli (BitVec.ofNat 32 (i 1).val) 1280#32) (BitVec.ofNat 32 q.val))
        (yb (ix2 p 0)) = _
    rw [lanePos_word _ hi]
  rw [hc]
  show Scalar.select _ _ (Ideal.ofBits .f32 0x00000000#32) = _
  rw [Ideal.ofBits_zero_f32]
  unfold Scalar.select
  by_cases h : BitVec.ofNat 32 (1280 * (i 1).val + q.val) = yb (ix2 p 0)
  · rw [if_pos h]
    exact if_pos (StableHlo.Predicate.cmpi_eq_iff.2 h)
  · rw [if_neg h]
    exact if_neg (fun hc' => h (StableHlo.Predicate.cmpi_eq_iff.1 hc'))

end Cert.KernelIdeal.Pay

end
-- ==== Proof.Spec.lean ====
/-
  The shared vocabulary of this certificate, over the library only.

  Rows: the activations [8, 512, 4096] are read as 4096 rows r = 512·b + t of 4096 features; the vocabulary has
  32000 entries.  logit r v = Σ_h x[r, h] · W[v, h].  A label y[r] is either the ignore index (-100, the word
  4294967196) or a vocabulary index; the safe label replaces the ignore index by 0.  The per-token log-probability is
  logit r (safe label) − (M r + log Σ_v exp (logit r v − M r)) with M r the largest logit of the row.

  The loss's closing arithmetic (masked row sums, the chosen half's negative mean, the sigmoid preference term) is
  the same chain of host operations in both programs; it is stated once, as a function of the per-token array, the
  label mask and the count that divides the chosen half's sum.
-/
import Idealize.ShloMosaic.PureOps.Ideal
import Idealize.ShloMosaic.Lib.ValueIdx
import Idealize.ShloMosaic.Lib.StableHlo

noncomputable section

namespace Cert.Spec

open Idealize.ShloMosaic

abbrev S8x512x4096 : Shape := ⟨3, ![8, 512, 4096]⟩
abbrev S8x512 : Shape := ⟨2, ![8, 512]⟩
abbrev S32000x4096 : Shape := ⟨2, ![32000, 4096]⟩
abbrev S4096 : Shape := ⟨1, ![4096]⟩
abbrev S_ : Shape := ⟨0, ![]⟩
abbrev S8 : Shape := ⟨1, ![8]⟩
abbrev S4 : Shape := ⟨1, ![4]⟩
abbrev S4x512 : Shape := ⟨2, ![4, 512]⟩

/-- Row r = 512·b + t as the pair (b, t). -/
abbrev rowB (r : Fin 4096) : Fin 8 := ⟨r.val / 512, by omega⟩
abbrev rowT (r : Fin 4096) : Fin 512 := ⟨r.val % 512, Nat.mod_lt _ (by decide)⟩

/-- x[r, h]. -/
def xrow (x : FVec Ideal S8x512x4096 .f32) (r : Fin 4096) (h : Fin 4096) : EReal :=
  x (ValueIdx.ix3 (rowB r) (rowT r) h)

/-- logit r v = Σ_h x[r, h] · W[v, h]. -/
def logit (x : FVec Ideal S8x512x4096 .f32) (W : FVec Ideal S32000x4096 .f32) (r : Fin 4096) (v : Fin 32000) : EReal :=
  ∑ h : Fin 4096, xrow x r h * W (ValueIdx.ix2 v h)

/-- The label of row r. -/
def ylab (y : IVec S8x512 32) (r : Fin 4096) : BitVec 32 := y (ValueIdx.ix2 (rowB r) (rowT r))

/-- The safe label: the ignore index (-100) replaced by 0. -/
def ysafe (y : IVec S8x512 32) (r : Fin 4096) : BitVec 32 :=
  if ylab y r = 4294967196#32 then 0#32 else ylab y r

/-- The vocabulary entry the safe label names (total: read modulo the vocabulary size). -/
def ytok (y : IVec S8x512 32) (r : Fin 4096) : Fin 32000 := ⟨(ysafe y r).toNat % 32000, Nat.mod_lt _ (by decide)⟩

/-- The largest logit of row r. -/
def rowMax (x : FVec Ideal S8x512x4096 .f32) (W : FVec Ideal S32000x4096 .f32) (r : Fin 4096) : EReal :=
  Finset.univ.sup (logit x W r)

/-- Σ_v exp (logit r v − M r). -/
def rowSumExp (x : FVec Ideal S8x512x4096 .f32) (W : FVec Ideal S32000x4096 .f32) (r : Fin 4096) : EReal :=
  ∑ v : Fin 32000, Ideal.exp (logit x W r v - rowMax x W r)

/-- The per-token log-probability of row r, in the form the streaming kernel ends with. -/
def ptl (x : FVec Ideal S8x512x4096 .f32) (y : IVec S8x512 32) (W : FVec Ideal S32000x4096 .f32) (r : Fin 4096) : EReal :=
  logit x W r (ytok y r) - (rowMax x W r + Ideal.log (rowSumExp x W r))

/-- The per-token log-probabilities as the [8, 512] array both programs' closing arithmetic reads. -/
def ptlArr (x : FVec Ideal S8x512x4096 .f32) (y : IVec S8x512 32) (W : FVec Ideal S32000x4096 .f32) : FVec Ideal S8x512 .f32 :=
  fun i => ptl x y W ⟨512 * (i 0).val + (i 1).val, by
    have h0 : (i 0).val < 8 := ValueIdx.idx2_lt0 i
    have h1 : (i 1).val < 512 := ValueIdx.idx2_lt1 i
    omega⟩

/-! ## The streaming form: the vocabulary in 25 tiles of 1280 lanes, a running maximum, a rescaled running sum

The kernel visits the vocabulary tile by tile.  After `n` tiles it holds, per row, the largest logit seen (`runM`), the sum of
`exp (logit − runM)` over the lanes seen (`runL`, rescaled by `exp (old maximum − new maximum)` at each tile) and the sum of
the logits at the lanes whose position is the safe label (`runT`: at most one lane). -/

/-- The vocabulary entry at lane q of tile n (total: read modulo the vocabulary size). -/
def tok (n : ℕ) (q : Fin 1280) : Fin 32000 := ⟨(1280 * n + q.val) % 32000, Nat.mod_lt _ (by decide)⟩

/-- The largest logit of row r within tile n. -/
def tileMax (x : FVec Ideal S8x512x4096 .f32) (W : FVec Ideal S32000x4096 .f32) (r : Fin 4096) (n : ℕ) : EReal :=
  Finset.univ.sup (fun q : Fin 1280 => logit x W r (tok n q))

/-- The running maximum after the first n tiles (−∞ before any). -/
def runM (x : FVec Ideal S8x512x4096 .f32) (W : FVec Ideal S32000x4096 .f32) (r : Fin 4096) : ℕ → EReal
  | 0 => ⊥
  | n + 1 => max (runM x W r n) (tileMax x W r n)

/-- The running rescaled sum after the first n tiles (0 before any). -/
def runL (x : FVec Ideal S8x512x4096 .f32) (W : FVec Ideal S32000x4096 .f32) (r : Fin 4096) : ℕ → EReal
  | 0 => 0
  | n + 1 => Ideal.exp (runM x W r n - runM x W r (n + 1)) * runL x W r n
              + ∑ q : Fin 1280, Ideal.exp (logit x W r (tok n q) - runM x W r (n + 1))

/-- The running label-logit sum after the first n tiles: lane q of tile n contributes its logit where the 32-bit word of its
    position 1280·n + q is the safe label, and 0 elsewhere. -/
def runT (x : FVec Ideal S8x512x4096 .f32) (y : IVec S8x512 32) (W : FVec Ideal S32000x4096 .f32) (r : Fin 4096) : ℕ → EReal
  | 0 => 0
  | n + 1 => runT x y W r n
              + ∑ q : Fin 1280, (if BitVec.ofNat 32 (1280 * n + q.val) = ysafe y r then logit x W r (tok n q) else 0)

/-- What the streaming kernel writes for row r after its 25 tiles. -/
def ptlStream (x : FVec Ideal S8x512x4096 .f32) (y : IVec S8x512 32) (W : FVec Ideal S32000x4096 .f32) (r : Fin 4096) : EReal :=
  runT x y W r 25 - (runM x W r 25 + Ideal.log (runL x W r 25))

/-- The same number in the order the reference computes it: (logit − maximum) − log Σ exp. -/
def ptlRef (x : FVec Ideal S8x512x4096 .f32) (y : IVec S8x512 32) (W : FVec Ideal S32000x4096 .f32) (r : Fin 4096) : EReal :=
  (logit x W r (ytok y r) - rowMax x W r) - Ideal.log (rowSumExp x W r)

/-- Every entry of both float inputs is a real number. -/
def FiniteIn (x : FVec Ideal S8x512x4096 .f32) (W : FVec Ideal S32000x4096 .f32) : Prop :=
  (∀ i, ∃ a : ℝ, x i = (a : EReal)) ∧ (∀ i, ∃ a : ℝ, W i = (a : EReal))

/-- Every label is the ignore index or a vocabulary index. -/
def LabelsOk (y : IVec S8x512 32) : Prop :=
  ∀ i, y i = 4294967196#32 ∨ (y i).toNat < 32000

/-- The shape relations the closing arithmetic's operations take. -/
structure TailFacts : Prop where
  bcast_S_S8x512 : S_.BroadcastsInDim S8x512 (![] : Fin 0 → Fin S8x512.rank)
  reducesTo_S8x512_S8_d1 : S8x512.ReducesTo [1] S8
  h_S_ : 0 < S_.numel
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  natLt_1_32 : 1 < 32
  bcast_S_S4 : S_.BroadcastsInDim S4 (![] : Fin 0 → Fin S4.rank)
  reducesTo_S4_S_d0 : S4.ReducesTo [0] S_

variable {F : FTy → Type} [FloatOps F]

/-- The label mask: 1 where the label is not the ignore index. -/
def maskOf (hf : TailFacts) (y : IVec S8x512 32) : IVec S8x512 1 :=
  cmpi .ne y (broadcastInDim S8x512 ![] hf.bcast_S_S8x512 (constantI S_ 32 4294967196#32))

/-- How many labels of the chosen half (the first four sequences) are not ignored, as a 32-bit word. -/
def cntOf (hf : TailFacts) (mask : IVec S8x512 1) : IVec S_ 32 :=
  Host.reduce IntOp.addi (extui 32 (extractStridedSlice S4x512 ![0, 0] mask hf.slices_S8x512_S4x512_0_0) hf.natLt_1_32)
    (constantI S_ 32 0#32) hf.reducesTo_S4x512_S_d0_1 hf.h_S_

/-- jax's softplus on four entries, as it lowers. -/
def softplus4 (hf : TailFacts) (a : FVec F S4 .f32) : FVec F S4 .f32 :=
  let z : FVec F S4 .f32 := broadcastInDim S4 ![] hf.bcast_S_S4 (constant S_ .f32 0x00000000#32)
  let d : FVec F S4 .f32 := subf a z
  select (cmpf .une d d) (addf a z) (addf (maximumf a z) (Host.log1p (Host.exp (Host.negf (Host.absf d)))))

/-- jax's log_sigmoid on four entries, as it lowers. -/
def logSigmoid4 (hf : TailFacts) (a : FVec F S4 .f32) : FVec F S4 .f32 :=
  Host.negf (softplus4 hf (Host.negf a))

/-- The loss from the per-token array `p`, the label mask and the word `den` that divides the chosen half's sum. -/
def tailFn (hf : TailFacts) (p : FVec F S8x512 .f32) (mask : IVec S8x512 1) (den : IVec S_ 32) : FVec F S_ .f32 :=
  let all : FVec F S8 .f32 := Host.reduceAdd (mulf p (uitofp .f32 mask)) (constant S_ .f32 0x00000000#32) hf.reducesTo_S8x512_S8_d1 hf.h_S_
  let chosen : FVec F S4 .f32 := extractStridedSlice S4 ![0] all hf.slices_S8_S4_0
  let rejected : FVec F S4 .f32 := extractStridedSlice S4 ![4] all hf.slices_S8_S4_4
  let mc : IVec S4x512 1 := extractStridedSlice S4x512 ![0, 0] mask hf.slices_S8x512_S4x512_0_0
  let pc : FVec F S4x512 .f32 := extractStridedSlice S4x512 ![0, 0] p hf.slices_S8x512_S4x512_0_0
  let num : FVec F S_ .f32 := Host.reduceAdd (mulf (Host.negf pc) (uitofp .f32 mc)) (constant S_ .f32 0x00000000#32) hf.reducesTo_S4x512_S_d0_1 hf.h_S_
  let nll : FVec F S_ .f32 := Host.divf num (sitofp .f32 den)
  let d : FVec F S4 .f32 := subf chosen rejected
  let l1 : FVec F S4 .f32 := mulf (Host.negf (logSigmoid4 hf (mulf (broadcastInDim S4 ![] hf.bcast_S_S4 (constant S_ .f32 0x3DCCCCCD#32)) d))) (broadcastInDim S4 ![] hf.bcast_S_S4 (constant S_ .f32 0x3F800000#32))
  let l2 : FVec F S4 .f32 := mulf (logSigmoid4 hf (mulf (broadcastInDim S4 ![] hf.bcast_S_S4 (constant S_ .f32 0xBDCCCCCD#32)) d)) (broadcastInDim S4 ![] hf.bcast_S_S4 (constant S_ .f32 0x00000000#32))
  let losses : FVec F S4 .f32 := subf l1 l2
  addf (mulf nll (constant S_ .f32 0x3F800000#32))
    (Host.divf (Host.reduceAdd losses (constant S_ .f32 0x00000000#32) hf.reducesTo_S4_S_d0 hf.h_S_) (constant S_ .f32 0x40800000#32))

end Cert.Spec

end
-- ==== Proof.KITail.lean ====
/-
  The kernel program's host lines after the region, read back as one function: whatever the region left in the
  per-token buffer [4096] and whatever mask the lines before the region computed, the 75 later lines compute the
  specification's closing arithmetic of the per-token array reshaped to [8, 512], the mask, and the chosen half's
  count of labels that are not ignored, raised to at least 1.
-/
import proofs.«418224_j48859547959893_3_alg».proof.Proof.Gen.KernelIdeal.Launch
import proofs.«418224_j48859547959893_3_alg».proof.Proof.Spec
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The shape relations of the closing arithmetic, from the kernel program's stated facts. -/
theorem hf : Cert.Spec.TailFacts :=
  ⟨bcast_S_S8x512, reducesTo_S8x512_S8_d1, h_S_, slices_S8_S4_0, slices_S8_S4_4, slices_S8x512_S4x512_0_0,
    reducesTo_S4x512_S_d0_1, natLt_1_32, bcast_S_S4, reducesTo_S4_S_d0⟩

attribute [local irreducible] Host.reduce Host.reduceAdd in
set_option maxRecDepth 8192 in
set_option maxHeartbeats 1600000 in
/-- The lines after the region, from any contents `U` of the buffers at the region's exit. -/
theorem tail_eq (U : Valuation τ sig (Elt F)) :
    after (List.flatten [hostOps1, hostOps1_1, hostOps1_2, hostOps1_3, hostOps1_4]) U (main_v42 : DevRef τ sig)
      = Cert.Spec.tailFn hf (shapeCast S8x512 (U (main_v8 : DevRef τ sig)) shapeCasts_S4096_S8x512) (U (main_v4 : DevRef τ sig))
          (maxsi (Cert.Spec.cntOf hf (U (main_v4 : DevRef τ sig))) (constantI S_ 32 1#32)) := by
  simp only [hostOps1, hostOps1_1, hostOps1_2, hostOps1_3, hostOps1_4, List.flatten_cons, List.flatten_nil, List.append_nil, List.cons_append, List.nil_append, after_cons, after_nil]
  rfl

/-! ## The lines before the region -/

set_option maxRecDepth 8192 in
/-- The label mask the lines before the region compute: 1 where the label is not the ignore index. -/
theorem mask_eq (U : Valuation τ sig (Elt F)) :
    after (List.flatten [hostOps0, hostOps0_1, hostOps0_2]) U (main_v4 : DevRef τ sig)
      = Cert.Spec.maskOf hf (U (main_arg1 : DevRef τ sig)) := by
  simp only [hostOps0, hostOps0_1, hostOps0_2, List.flatten_cons, List.flatten_nil, List.append_nil, List.cons_append, List.nil_append, after_cons, after_nil]
  rfl

set_option maxRecDepth 8192 in
/-- The activations as the region finds them: the [8, 512, 4096] argument read as [4096, 4096] (a change of float
    format on the way, the identity on extended reals). -/
theorem v1_eq (U : Valuation τ sig (Elt F)) :
    after (List.flatten [hostOps0, hostOps0_1, hostOps0_2]) U (main_v1 : DevRef τ sig)
      = truncf .bf16 (shapeCast S4096x4096 (U (main_arg0 : DevRef τ sig)) shapeCasts_S8x512x4096_S4096x4096) bitsLt_bf16_f32 := by
  simp only [hostOps0, hostOps0_1, hostOps0_2, List.flatten_cons, List.flatten_nil, List.append_nil, List.cons_append, List.nil_append, after_cons, after_nil]
  rfl

set_option maxRecDepth 8192 in
/-- The weights as the region finds them (a change of float format only). -/
theorem v2_eq (U : Valuation τ sig (Elt F)) :
    after (List.flatten [hostOps0, hostOps0_1, hostOps0_2]) U (main_v2 : DevRef τ sig)
      = truncf .bf16 (U (main_arg2 : DevRef τ sig)) bitsLt_bf16_f32 := by
  simp only [hostOps0, hostOps0_1, hostOps0_2, List.flatten_cons, List.flatten_nil, List.append_nil, List.cons_append, List.nil_append, after_cons, after_nil]
  rfl

set_option maxRecDepth 8192 in
/-- The safe labels as the region finds them: the ignore index replaced by 0, read as a [4096, 1] column. -/
theorem v7_eq (U : Valuation τ sig (Elt F)) :
    after (List.flatten [hostOps0, hostOps0_1, hostOps0_2]) U (main_v7 : DevRef τ sig)
      = shapeCast S4096x1 (shapeCast S4096
          (select (Cert.Spec.maskOf hf (U (main_arg1 : DevRef τ sig))) (U (main_arg1 : DevRef τ sig))
            (broadcastInDim S8x512 ![] bcast_S_S8x512 (id (constantI S_ 32 0#32))))
          shapeCasts_S8x512_S4096) shapeCasts_S4096_S4096x1 := by
  simp only [hostOps0, hostOps0_1, hostOps0_2, List.flatten_cons, List.flatten_nil, List.append_nil, List.cons_append, List.nil_append, after_cons, after_nil]
  rfl

end Cert.KernelIdeal.Tail

end
-- ==== Proof.KIArrays.lean ====
/-
  The arrays the kernel region finds, read at an index.

  The activations [8, 512, 4096] viewed as [4096, 4096] read row r = 512·b + t; the change of float format is the
  identity on extended reals; the safe labels viewed as a [4096, 1] column read the label of row r with the ignore
  index replaced by 0; and a [4096] array viewed as [8, 512] reads position 512·b + t at (b, t).
-/
import proofs.«418224_j48859547959893_3_alg».proof.Proof.KITail
import proofs.«418224_j48859547959893_3_alg».proof.Proof.Spec
import Idealize.ShloMosaic.Lib.Affine
import Idealize.ShloMosaic.Lib.ValueIdx
import Idealize.ShloMosaic.Lib.Pipeline.Value
import Idealize.ShloMosaic.Lib.ValueLayout

noncomputable section

namespace Cert.KernelIdeal.Arrays

open Cert.KernelIdeal Cert.KernelIdeal.Gen Idealize.ShloMosaic
open Cert.KernelIdeal.Tail (hf)

/-- The activations as the region finds them, at row r and feature h: x[r, h]. -/
theorem xrows_apply (X : FVec Ideal S8x512x4096 .f32) (r h : Fin 4096) :
    (truncf .bf16 (shapeCast S4096x4096 X shapeCasts_S8x512x4096_S4096x4096) bitsLt_bf16_f32 : FVec Ideal S4096x4096 .bf16)
        (ValueIdx.ix2 r h) = Cert.Spec.xrow X r h := by
  rw [ValueIdx.truncf_apply]
  unfold Cert.Spec.xrow
  refine shapeCast_apply X _ (ValueIdx.ix2 r h) (ValueIdx.ix3 (Cert.Spec.rowB r) (Cert.Spec.rowT r) h) ?_
  rw [Shape.rowMajor_val_three, Shape.rowMajor_val_two]
  show (r.val / 512 * 512 + r.val % 512) * 4096 + h.val = r.val * 4096 + h.val
  omega

/-- The weights as the region finds them, at entry v and feature h: W[v, h]. -/
theorem wrows_apply (Wt : FVec Ideal S32000x4096 .f32) (v : Fin 32000) (h : Fin 4096) :
    (truncf .bf16 Wt bitsLt_bf16_f32 : FVec Ideal S32000x4096 .bf16) (ValueIdx.ix2 v h) = Wt (ValueIdx.ix2 v h) := rfl

/-- The safe-label column at row r: the label of row r, the ignore index replaced by 0. -/
theorem ycol_apply (Y : IVec S8x512 32) (r : Fin 4096) :
    (shapeCast S4096x1 (shapeCast S4096
        (select (Cert.Spec.maskOf hf Y) Y (broadcastInDim S8x512 ![] bcast_S_S8x512 (id (constantI S_ 32 0#32))))
        shapeCasts_S8x512_S4096) shapeCasts_S4096_S4096x1) (ValueIdx.ix2 r (0 : Fin 1)) = Cert.Spec.ysafe Y r := by
  refine (shapeCast_apply _ _ (ValueIdx.ix2 r (0 : Fin 1)) (ValueIdx.ix1 r) ?_).trans ?_
  · rw [Shape.rowMajor_val_one, Shape.rowMajor_val_two]
    show r.val = r.val * 1 + 0
    omega
  refine (shapeCast_apply _ _ (ValueIdx.ix1 r) (ValueIdx.ix2 (Cert.Spec.rowB r) (Cert.Spec.rowT r)) ?_).trans ?_
  · rw [Shape.rowMajor_val_two, Shape.rowMajor_val_one]
    show r.val / 512 * 512 + r.val % 512 = r.val
    omega
  rw [ValueIdx.select_apply]
  unfold Cert.Spec.ysafe Cert.Spec.ylab
  by_cases hq : Y (ValueIdx.ix2 (Cert.Spec.rowB r) (Cert.Spec.rowT r)) = 4294967196#32
  · have hm : Cert.Spec.maskOf hf Y (ValueIdx.ix2 (Cert.Spec.rowB r) (Cert.Spec.rowT r)) = 0#1 := by
      show IntOp.cmpi .ne (Y (ValueIdx.ix2 (Cert.Spec.rowB r) (Cert.Spec.rowT r))) 4294967196#32 = 0#1
      rw [hq]; rfl
    rw [if_pos hq, hm, ValueIdx.select_zero]
    rfl
  · have hm : Cert.Spec.maskOf hf Y (ValueIdx.ix2 (Cert.Spec.rowB r) (Cert.Spec.rowT r)) = 1#1 := by
      show IntOp.cmpi .ne (Y (ValueIdx.ix2 (Cert.Spec.rowB r) (Cert.Spec.rowT r))) 4294967196#32 = 1#1
      exact IntOp.cmpi_ne.2 hq
    rw [if_neg hq, hm, ValueIdx.select_one]

/-- A [4096] array viewed as [8, 512] reads position 512·b + t at (b, t). -/
theorem ptl_reshape (f : Fin 4096 → EReal) (b : Fin 8) (t : Fin 512) :
    (shapeCast S8x512 (fun i : S4096.Idx => f (i 0)) shapeCasts_S4096_S8x512 : FVec Ideal S8x512 .f32) (ValueIdx.ix2 b t)
      = f ⟨512 * b.val + t.val, by omega⟩ := by
  refine shapeCast_apply (fun i : S4096.Idx => f (i 0)) _ (ValueIdx.ix2 b t) (ValueIdx.ix1 ⟨512 * b.val + t.val, by omega⟩) ?_
  rw [Shape.rowMajor_val_one, Shape.rowMajor_val_two]
  show 512 * b.val + t.val = b.val * 512 + t.val
  omega

end Cert.KernelIdeal.Arrays

end
-- ==== Proof.KIBlocks.lean ====
/-
  The input windows' blocks, read at an index.

  At grid point t = 25·i + j (i < 8 the row block, j < 25 the vocabulary tile) the activations' block holds rows
  512·i … 512·i + 511, the weights' block holds the vocabulary entries 1280·j … 1280·j + 1279, and the label block holds
  the safe labels of those rows.  So the sum over the 4096 features of the products of the two float blocks, at (p, q), is
  the logit of row 512·i + p at entry 1280·j + q.
-/
import proofs.«418224_j48859547959893_3_alg».proof.Proof.KIRuns
import proofs.«418224_j48859547959893_3_alg».proof.Proof.KITail
import proofs.«418224_j48859547959893_3_alg».proof.Proof.KIArrays
import proofs.«418224_j48859547959893_3_alg».proof.Proof.Spec

set_option maxRecDepth 16384

noncomputable section

namespace Cert.KernelIdeal.Blocks

open Cert.KernelIdeal Cert.KernelIdeal.Gen Cert.KernelIdeal.Hand Idealize.ShloMosaic

variable (m : (ℓ : Loc nD τ sig) → Buf (Elt Ideal) ℓ) (c : Dev nD)

/-- The program's three arguments as launched. -/
abbrev xin : FVec Ideal Cert.Spec.S8x512x4096 .f32 := m ((c.tc : Thread nD τ).loc main_arg0)
abbrev yin : IVec Cert.Spec.S8x512 32 := m ((c.tc : Thread nD τ).loc main_arg1)
abbrev win' : FVec Ideal Cert.Spec.S32000x4096 .f32 := m ((c.tc : Thread nD τ).loc main_arg2)

/-- The three input blocks at point t, at their literal types. -/
abbrev xblk (t : Fin cfg0.N) : Vec Ideal S512x4096 .bf16 := iblk (F := Ideal) m c 0 t
abbrev wblk (t : Fin cfg0.N) : Vec Ideal S1280x4096 .bf16 := iblk (F := Ideal) m c 1 t
abbrev yblk (t : Fin cfg0.N) : Vec Ideal S512x1 .i32 := iblk (F := Ideal) m c 2 t

/-- Row p of the row block of point t: 512·(t / 25) + p. -/
abbrev row (t : Fin cfg0.N) (p : Fin 512) : Fin 4096 :=
  ⟨512 * (t.val / 25) + p.val, by
    have ht : t.val < 200 := lt_of_lt_of_eq t.isLt N_0
    have hp := p.isLt
    omega⟩

/-- The block indices over the grid: point t = 25·i + j reads row block i of the activations and of the labels and
    vocabulary tile j of the weights; the second block index is 0 throughout. -/
theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0 :=
  (by decide +kernel : ∀ t : Fin grid0.N, _)

/-! ## Each block inside its array as the region finds it -/

/-- The activations' block at (p, h) is the array's entry at (512·(t / 25) + p, h). -/
theorem xblk_V (t : Fin cfg0.N) (p : Fin 512) (h : Fin 4096) :
    xblk m c t (ValueIdx.ix2 p h) = V m c main_v1 (ValueIdx.ix2 (row t p) h) := by
  show V m c main_v1 (((cfg0.win 0).blk t).view.emb (ValueIdx.ix2 p h)) = V m c main_v1 (ValueIdx.ix2 (row t p) h)
  obtain ⟨e0, e1, e2, e3, e4, e5⟩ := idx_facts t
  refine congrArg (V m c main_v1) ?_
  funext a; apply Fin.ext
  match a with
  | ⟨0, _⟩ => show win0_0.index t (0 : Fin 2) * 512 + 1 * p.val = 512 * (t.val / 25) + p.val; omega
  | ⟨1, _⟩ => show win0_0.index t (1 : Fin 2) * 4096 + 1 * h.val = h.val; omega

/-- The weights' block at (q, h) is the array's entry at (1280·(t mod 25) + q, h). -/
theorem wblk_V (t : Fin cfg0.N) (q : Fin 1280) (h : Fin 4096) :
    wblk m c t (ValueIdx.ix2 q h) = V m c main_v2 (ValueIdx.ix2 (Cert.Spec.tok (t.val % 25) q) h) := by
  show V m c main_v2 (((cfg0.win 1).blk t).view.emb (ValueIdx.ix2 q h))
    = V m c main_v2 (ValueIdx.ix2 (Cert.Spec.tok (t.val % 25) q) h)
  obtain ⟨e0, e1, e2, e3, e4, e5⟩ := idx_facts t
  have hq := q.isLt
  refine congrArg (V m c main_v2) ?_
  funext a; apply Fin.ext
  match a with
  | ⟨0, _⟩ =>
    show win0_1.index t (0 : Fin 2) * 1280 + 1 * q.val = (1280 * (t.val % 25) + q.val) % 32000
    omega
  | ⟨1, _⟩ => show win0_1.index t (1 : Fin 2) * 4096 + 1 * h.val = h.val; omega

/-- The labels' block at (p, 0) is the column's entry at (512·(t / 25) + p, 0). -/
theorem yblk_V (t : Fin cfg0.N) (p : Fin 512) :
    yblk m c t (ValueIdx.ix2 p (0 : Fin 1)) = V m c main_v7 (ValueIdx.ix2 (row t p) (0 : Fin 1)) := by
  show V m c main_v7 (((cfg0.win 2).blk t).view.emb (ValueIdx.ix2 p (0 : Fin 1)))
    = V m c main_v7 (ValueIdx.ix2 (row t p) (0 : Fin 1))
  obtain ⟨e0, e1, e2, e3, e4, e5⟩ := idx_facts t
  refine congrArg (V m c main_v7) ?_
  funext a; apply Fin.ext
  match a with
  | ⟨0, _⟩ => show win0_2.index t (0 : Fin 2) * 512 + 1 * p.val = 512 * (t.val / 25) + p.val; omega
  | ⟨1, _⟩ => show win0_2.index t (1 : Fin 2) * 1 + 1 * 0 = 0; omega

/-! ## Each block in terms of the program's arguments -/

theorem xblk_apply (t : Fin cfg0.N) (p : Fin 512) (h : Fin 4096) :
    xblk m c t (ValueIdx.ix2 p h) = Cert.Spec.xrow (xin m c) (row t p) h := by
  rw [xblk_V]
  have hv : V m c main_v1 = _ := Tail.v1_eq (F := Ideal) _
  exact (congrFun hv _).trans (Arrays.xrows_apply (xin m c) (row t p) h)

theorem wblk_apply (t : Fin cfg0.N) (q : Fin 1280) (h : Fin 4096) :
    wblk m c t (ValueIdx.ix2 q h) = win' m c (ValueIdx.ix2 (Cert.Spec.tok (t.val % 25) q) h) := by
  rw [wblk_V]
  have hv : V m c main_v2 = _ := Tail.v2_eq (F := Ideal) _
  exact (congrFun hv _).trans (Arrays.wrows_apply (win' m c) (Cert.Spec.tok (t.val % 25) q) h)

theorem yblk_apply (t : Fin cfg0.N) (p : Fin 512) :
    yblk m c t (ValueIdx.ix2 p (0 : Fin 1)) = Cert.Spec.ysafe (yin m c) (row t p) := by
  rw [yblk_V]
  have hv : V m c main_v7 = _ := Tail.v7_eq (F := Ideal) _
  exact (congrFun hv _).trans (Arrays.ycol_apply (yin m c) (row t p))

theorem blkLogit_eq (t : Fin cfg0.N) (p : Fin 512) (q : Fin 1280) :
    ∑ h : Fin 4096, xblk m c t (ValueIdx.ix2 p h) * wblk m c t (ValueIdx.ix2 q h)
      = Cert.Spec.logit (xin m c) (win' m c) (row t p) (Cert.Spec.tok (t.val % 25) q) := by
  unfold Cert.Spec.logit
  refine Finset.sum_congr rfl fun h _ => ?_
  rw [xblk_apply, wblk_apply]

end Cert.KernelIdeal.Blocks

end
-- ==== Proof.KIValue.lean ====
/-
  The kernel's carried columns over the grid, at the ideal values.

  The grid has 8 row blocks of 512 rows and, within each, 25 vocabulary tiles of 1280 lanes; point t = 25·i + j holds
  row block i and tile j.  Per row the body carries three numbers from tile to tile: the running maximum of the logits,
  the sum of exp (logit − maximum) rescaled whenever the maximum moves, and the sum of the logits at the lanes whose
  position is the safe label.  They are reset (−∞, 0, 0) at a row block's first tile.  Here: after point t the three
  columns hold, at row p, the streaming recurrences of the specification after t mod 25 + 1 tiles; and after a row
  block's last tile the output's column holds label logit − (maximum + log of the sum).
-/
import proofs.«418224_j48859547959893_3_alg».proof.Proof.KIFrame
import proofs.«418224_j48859547959893_3_alg».proof.Proof.KIPay
import proofs.«418224_j48859547959893_3_alg».proof.Proof.KIBlocks
import proofs.«418224_j48859547959893_3_alg».proof.Proof.Spec
import Idealize.ShloMosaic.Lib.Pipeline.Value

set_option maxRecDepth 16384

noncomputable section

namespace Cert.KernelIdeal.Value

open Cert.KernelIdeal Cert.KernelIdeal.Gen Cert.KernelIdeal.Hand Cert.KernelIdeal.Pay Cert.KernelIdeal.Blocks
open Idealize.ShloMosaic Idealize.ShloMosaic.TcCoe Idealize.ShloMosaic.Tactic
open Idealize.SL.Sem

/-! ## What each case's stores leave behind, as the body's payloads

Generic in the float type: each carried column ends a point holding its update computed from the blocks and from what
it held before; at the last tile the output's column holds the closing arithmetic of the three updates. -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- At the first tile of a row block (the carried columns reset to −∞, 0, 0 and read back), the running maximum is left at its update. -/
theorem sout_A_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    sout0_A_0 c i arg2 harg2 arg3 harg3 arg4 harg4 arg5 harg5 arg6 harg6 arg7 harg7 arg8 harg8 hc0 hc1 x0 x1 x2 = k0_pay2 (k0_pay9 x0 x1 (k0_pay4 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At the first tile of a row block (the carried columns reset to −∞, 0, 0 and read back), the running rescaled sum is left at its update. -/
theorem sout_A_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    sout0_A_1 c i arg2 harg2 arg3 harg3 arg4 harg4 arg5 harg5 arg6 harg6 arg7 harg7 arg8 harg8 hc0 hc1 x0 x1 x2 = k0_pay1 (k0_pay10 x0 x1 (k0_pay4 (F := F)) (k0_pay4 (F := F))) (k0_pay11 x0 x1 (k0_pay4 (F := F))) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At the first tile of a row block (the carried columns reset to −∞, 0, 0 and read back), the running label-logit sum is left at its update. -/
theorem sout_A_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    sout0_A_2 c i arg2 harg2 arg3 harg3 arg4 harg4 arg5 harg5 arg6 harg6 arg7 harg7 arg8 harg8 hc0 hc1 x0 x1 x2 = k0_pay8 i x0 x1 x2 (k0_pay6 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At a middle tile (the carried columns as the point before left them), the running maximum is left at its update. -/
theorem sout_B_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At a middle tile (the carried columns as the point before left them), the running rescaled sum is left at its update. -/
theorem sout_B_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At a middle tile (the carried columns as the point before left them), the running label-logit sum is left at its update. -/
theorem sout_B_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_2 c i arg2 harg2 arg3 harg3 arg4 harg4 arg5 harg5 arg6 harg6 arg7 harg7 arg8 harg8 hc0 hc1 x0 x1 x2 xs0 xs1 xs2 = k0_pay8 i x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At the last tile of a row block (the carried columns as the point before left them), the running maximum is left at its update. -/
theorem sout_C_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At the last tile of a row block (the carried columns as the point before left them), the running rescaled sum is left at its update. -/
theorem sout_C_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At the last tile of a row block (the carried columns as the point before left them), the running label-logit sum is left at its update. -/
theorem sout_C_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_2 c i arg2 harg2 arg3 harg3 arg4 harg4 arg5 harg5 arg6 harg6 arg7 harg7 arg8 harg8 hc0 hc1 x0 x1 x2 xs0 xs1 xs2 = k0_pay8 i x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

/-- At the last tile of a row block the output's column is left at the closing arithmetic of the three updates. -/
theorem out_C_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    out0_C_3 c i arg2 harg2 arg3 harg3 arg4 harg4 arg5 harg5 arg6 harg6 arg7 harg7 arg8 harg8 hc0 hc1 x0 x1 x2 xs0 xs1 xs2
      = k0_pay3 (k0_pay2 (k0_pay9 x0 x1 xs0)) (k0_pay1 (k0_pay10 x0 x1 xs0 xs0) (k0_pay11 x0 x1 xs0) xs1) (k0_pay8 i x0 x1 x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S512x1) hz2, View.ld_unit_zero (S := S512x4096) hz2, View.ld_unit_zero (S := S1280x4096) hz2, View.readCov_unit_zero (S := S512x1) _ hz2]

end Pieces

variable (m : (ℓ : Loc nD τ sig) → Buf (Elt Ideal) ℓ) (c : Dev nD)

/-! ## One tile's update of the three carried numbers, at a row

At point t the blocks hold row block t / 25 and vocabulary tile t mod 25.  If the carried columns hold, at row p, the
streaming recurrences after t mod 25 tiles, the body's three updates hold them after one tile more. -/

/-- Coordinate 1 of point t is its vocabulary tile, t mod 25. -/
theorem coord1 : ∀ t : Fin cfg0.N, ((grid0.coords t) 1).val = t.val % 25 :=
  (by decide +kernel : ∀ t : Fin grid0.N, _)

/-- The block's logit at (p, q) is the logit of the row at the tile's lane q. -/
theorem blk_logit (t : Fin cfg0.N) (p : Fin 512) (q : Fin 1280) :
    blkLogit (xblk m c t) (wblk m c t) p q
      = Cert.Spec.logit (xin m c) (win' m c) (row t p) (Cert.Spec.tok (t.val % 25) q) :=
  blkLogit_eq m c t p q

/-- The block's largest logit at row p is the tile's maximum. -/
theorem tile_sup (t : Fin cfg0.N) (p : Fin 512) :
    (Finset.univ.sup fun q : Fin 1280 => blkLogit (xblk m c t) (wblk m c t) p q)
      = Cert.Spec.tileMax (xin m c) (win' m c) (row t p) (t.val % 25) := by
  unfold Cert.Spec.tileMax
  exact Finset.sup_congr rfl fun q _ => blk_logit m c t p q

/-- The new running maximum. -/
theorem stepM (t : Fin cfg0.N) (p : Fin 512) (mp : Vec Ideal S512x1 .f32)
    (hm : mp (ValueIdx.ix2 p 0) = Cert.Spec.runM (xin m c) (win' m c) (row t p) (t.val % 25)) :
    k0_pay9 (F := Ideal) (xblk m c t) (wblk m c t) mp (ValueIdx.ix2 p 0)
      = Cert.Spec.runM (xin m c) (win' m c) (row t p) (t.val % 25 + 1) := by
  rw [pay9_apply, hm, tile_sup]
  rfl

/-- The three updates at once. -/
theorem step (t : Fin cfg0.N) (p : Fin 512) (mp lp tp : Vec Ideal S512x1 .f32)
    (hm : mp (ValueIdx.ix2 p 0) = Cert.Spec.runM (xin m c) (win' m c) (row t p) (t.val % 25))
    (hl : lp (ValueIdx.ix2 p 0) = Cert.Spec.runL (xin m c) (win' m c) (row t p) (t.val % 25))
    (ht : tp (ValueIdx.ix2 p 0) = Cert.Spec.runT (xin m c) (yin m c) (win' m c) (row t p) (t.val % 25)) :
    k0_pay2 (F := Ideal) (k0_pay9 (F := Ideal) (xblk m c t) (wblk m c t) mp) (ValueIdx.ix2 p 0)
        = Cert.Spec.runM (xin m c) (win' m c) (row t p) (t.val % 25 + 1)
    ∧ k0_pay1 (F := Ideal) (k0_pay10 (F := Ideal) (xblk m c t) (wblk m c t) mp mp)
          (k0_pay11 (F := Ideal) (xblk m c t) (wblk m c t) mp) lp (ValueIdx.ix2 p 0)
        = Cert.Spec.runL (xin m c) (win' m c) (row t p) (t.val % 25 + 1)
    ∧ k0_pay8 (F := Ideal) (grid0.coords t) (xblk m c t) (wblk m c t) (yblk m c t) tp (ValueIdx.ix2 p 0)
        = Cert.Spec.runT (xin m c) (yin m c) (win' m c) (row t p) (t.val % 25 + 1) := by
  have e9 := stepM m c t p mp hm
  refine ⟨?_, ?_, ?_⟩
  · rw [pay2_apply]
    exact e9
  · have e11 : ∀ q : Fin 1280, k0_pay11 (F := Ideal) (xblk m c t) (wblk m c t) mp (ValueIdx.ix2 p q)
        = Ideal.exp (Cert.Spec.logit (xin m c) (win' m c) (row t p) (Cert.Spec.tok (t.val % 25) q)
            - Cert.Spec.runM (xin m c) (win' m c) (row t p) (t.val % 25 + 1)) := fun q => by
      rw [pay11_apply, e9, blk_logit]
    rw [pay1_apply, pay10_apply, e9, hm, hl, Finset.sum_congr rfl fun q _ => e11 q]
    rfl
  · have hi : ((grid0.coords t) 1).val < 25 := by
      rw [coord1]
      exact Nat.mod_lt _ (by decide)
    have eq : ∀ q : Fin 1280,
        (if BitVec.ofNat 32 (1280 * ((grid0.coords t) 1).val + q.val) = yblk m c t (ValueIdx.ix2 p 0)
          then blkLogit (xblk m c t) (wblk m c t) p q else 0)
        = (if BitVec.ofNat 32 (1280 * (t.val % 25) + q.val) = Cert.Spec.ysafe (yin m c) (row t p)
          then Cert.Spec.logit (xin m c) (win' m c) (row t p) (Cert.Spec.tok (t.val % 25) q) else 0) := fun q => by
      rw [coord1, yblk_apply, blk_logit]
    rw [pay8_apply (xblk m c t) (wblk m c t) (yblk m c t) p (grid0.coords t) hi tp, ht,
      Finset.sum_congr rfl fun q _ => eq q]
    rfl

/-! ## The carried columns over the grid

After point t the three carried columns hold, at row p of the row block, the streaming recurrences after
t mod 25 + 1 tiles; after a row block's last tile the output's column holds the streamed per-token value. -/

/-- What the buffers held after the point before t. -/
abbrev prev (t : Fin cfg0.N) : Vec Ideal S512 .f32 × Vec Ideal S512x1 .f32 × Vec Ideal S512x1 .f32 × Vec Ideal S512x1 .f32 :=
  outsAt0 (F := Ideal) m c (t.val - 1) (Nat.lt_of_le_of_lt (Nat.sub_le _ _) t.isLt)

/-- At the first tile of a row block (the carried columns reset to −∞, 0, 0 and read back): the three carried columns after the point. -/
theorem outs_A (t : Fin cfg0.N) (h0 : t.val % 25 = 0) (h1 : ¬t.val % 25 = 24) :
    (outsAt0 (F := Ideal) m c t.val t.isLt).2.1 = k0_pay2 (F := Ideal) (k0_pay9 (F := Ideal) (xblk m c t) (wblk m c t) (k0_pay4 (F := Ideal)))
    ∧ (outsAt0 (F := Ideal) m c t.val t.isLt).2.2.1 = k0_pay1 (F := Ideal) (k0_pay10 (F := Ideal) (xblk m c t) (wblk m c t) (k0_pay4 (F := Ideal)) (k0_pay4 (F := Ideal))) (k0_pay11 (F := Ideal) (xblk m c t) (wblk m c t) (k0_pay4 (F := Ideal))) (k0_pay5 (F := Ideal))
    ∧ (outsAt0 (F := Ideal) m c t.val t.isLt).2.2.2 = k0_pay8 (F := Ideal) (grid0.coords t) (xblk m c t) (wblk m c t) (yblk m c t) (k0_pay6 (F := Ideal)) := by
  rw [outsAt0_A m c t h0 h1]
  dsimp only
  exact ⟨sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk (F := Ideal) m c 0 t) (iblk (F := Ideal) m c 1 t) (iblk (F := Ideal) m c 2 t),
    sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk (F := Ideal) m c 0 t) (iblk (F := Ideal) m c 1 t) (iblk (F := Ideal) m c 2 t),
    sout_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk (F := Ideal) m c 0 t) (iblk (F := Ideal) m c 1 t) (iblk (F := Ideal) m c 2 t)⟩

/-- At a middle tile (the carried columns as the point before left them): the three carried columns after the point. -/
theorem outs_B (t : Fin cfg0.N) (h0 : ¬t.val % 25 = 0) (h1 : ¬t.val % 25 = 24) :
    (outsAt0 (F := Ideal) m c t.val t.isLt).2.1 = k0_pay2 (F := Ideal) (k0_pay9 (F := Ideal) (xblk m c t) (wblk m c t) (prev m c t).2.1)
    ∧ (outsAt0 (F := Ideal) m c t.val t.isLt).2.2.1 = k0_pay1 (F := Ideal) (k0_pay10 (F := Ideal) (xblk m c t) (wblk m c t) (prev m c t).2.1 (prev m c t).2.1) (k0_pay11 (F := Ideal) (xblk m c t) (wblk m c t) (prev m c t).2.1) (prev m c t).2.2.1
    ∧ (outsAt0 (F := Ideal) m c t.val t.isLt).2.2.2 = k0_pay8 (F := Ideal) (grid0.coords t) (xblk m c t) (wblk m c t) (yblk m c t) (prev m c t).2.2.2 := by
  rw [outsAt0_B m c t h0 h1]
  dsimp only
  exact ⟨sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk (F := Ideal) m c 0 t) (iblk (F := Ideal) m c 1 t) (iblk (F := Ideal) m c 2 t) (prev m c t).2.1 (prev m c t).2.2.1 (prev m c t).2.2.2,
    sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk (F := Ideal) m c 0 t) (iblk (F := Ideal) m c 1 t) (iblk (F := Ideal) m c 2 t) (prev m c t).2.1 (prev m c t).2.2.1 (prev m c t).2.2.2,
    sout_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk (F := Ideal) m c 0 t) (iblk (F := Ideal) m c 1 t) (iblk (F := Ideal) m c 2 t) (prev m c t).2.1 (prev m c t).2.2.1 (prev m c t).2.2.2⟩

/-- At the last tile of a row block (the carried columns as the point before left them): the three carried columns after the point, and the output's column. -/
theorem outs_C (t : Fin cfg0.N) (h0 : ¬t.val % 25 = 0) (h1 : t.val % 25 = 24) :
    (outsAt0 (F := Ideal) m c t.val t.isLt).2.1 = k0_pay2 (F := Ideal) (k0_pay9 (F := Ideal) (xblk m c t) (wblk m c t) (prev m c t).2.1)
    ∧ (outsAt0 (F := Ideal) m c t.val t.isLt).2.2.1 = k0_pay1 (F := Ideal) (k0_pay10 (F := Ideal) (xblk m c t) (wblk m c t) (prev m c t).2.1 (prev m c t).2.1) (k0_pay11 (F := Ideal) (xblk m c t) (wblk m c t) (prev m c t).2.1) (prev m c t).2.2.1
    ∧ (outsAt0 (F := Ideal) m c t.val t.isLt).2.2.2 = k0_pay8 (F := Ideal) (grid0.coords t) (xblk m c t) (wblk m c t) (yblk m c t) (prev m c t).2.2.2
    ∧ (outsAt0 (F := Ideal) m c t.val t.isLt).1 = k0_pay3 (F := Ideal) (k0_pay2 (F := Ideal) (k0_pay9 (F := Ideal) (xblk m c t) (wblk m c t) (prev m c t).2.1)) (k0_pay1 (F := Ideal) (k0_pay10 (F := Ideal) (xblk m c t) (wblk m c t) (prev m c t).2.1 (prev m c t).2.1) (k0_pay11 (F := Ideal) (xblk m c t) (wblk m c t) (prev m c t).2.1) (prev m c t).2.2.1) (k0_pay8 (F := Ideal) (grid0.coords t) (xblk m c t) (wblk m c t) (yblk m c t) (prev m c t).2.2.2) := by
  rw [outsAt0_C m c t h0 h1]
  dsimp only
  exact ⟨sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t) (iblk (F := Ideal) m c 2 t) (prev m c t).2.1 (prev m c t).2.2.1 (prev m c t).2.2.2,
    sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t) (iblk (F := Ideal) m c 2 t) (prev m c t).2.1 (prev m c t).2.2.1 (prev m c t).2.2.2,
    sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t) (iblk (F := Ideal) m c 2 t) (prev m c t).2.1 (prev m c t).2.2.1 (prev m c t).2.2.2,
    out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t) (iblk (F := Ideal) m c 2 t) (prev m c t).2.1 (prev m c t).2.2.1 (prev m c t).2.2.2⟩

/-- The point before t, when t is not a row block's first tile: the same row block, one tile earlier. -/
abbrev pred (t : Fin cfg0.N) : Fin cfg0.N := ⟨t.val - 1, Nat.lt_of_le_of_lt (Nat.sub_le _ _) t.isLt⟩

/-- Off a row block's first tile, what the point before left is the recurrences after t mod 25 tiles, at the rows of t. -/
theorem prev_facts (t : Fin cfg0.N) (h0 : ¬t.val % 25 = 0) (p : Fin 512)
    (ih : (outsAt0 (F := Ideal) m c (pred t).val (pred t).isLt).2.1 (ValueIdx.ix2 p 0) = Cert.Spec.runM (xin m c) (win' m c) (row (pred t) p) ((pred t).val % 25 + 1)
    ∧ (outsAt0 (F := Ideal) m c (pred t).val (pred t).isLt).2.2.1 (ValueIdx.ix2 p 0) = Cert.Spec.runL (xin m c) (win' m c) (row (pred t) p) ((pred t).val % 25 + 1)
    ∧ (outsAt0 (F := Ideal) m c (pred t).val (pred t).isLt).2.2.2 (ValueIdx.ix2 p 0) = Cert.Spec.runT (xin m c) (yin m c) (win' m c) (row (pred t) p) ((pred t).val % 25 + 1)) :
    (prev m c t).2.1 (ValueIdx.ix2 p 0) = Cert.Spec.runM (xin m c) (win' m c) (row t p) (t.val % 25)
    ∧ (prev m c t).2.2.1 (ValueIdx.ix2 p 0) = Cert.Spec.runL (xin m c) (win' m c) (row t p) (t.val % 25)
    ∧ (prev m c t).2.2.2 (ValueIdx.ix2 p 0) = Cert.Spec.runT (xin m c) (yin m c) (win' m c) (row t p) (t.val % 25) := by
  have hr : row (pred t) p = row t p := Fin.ext (by
    show 512 * ((t.val - 1) / 25) + p.val = 512 * (t.val / 25) + p.val
    omega)
  have hk : (pred t).val % 25 + 1 = t.val % 25 := by
    show (t.val - 1) % 25 + 1 = t.val % 25
    omega
  rw [hr, hk] at ih
  exact ih

/-- At a row block's first tile. -/
theorem inv_A (t : Fin cfg0.N) (h0 : t.val % 25 = 0) (h1 : ¬t.val % 25 = 24) (p : Fin 512) :
    (outsAt0 (F := Ideal) m c t.val t.isLt).2.1 (ValueIdx.ix2 p 0) = Cert.Spec.runM (xin m c) (win' m c) (row t p) (t.val % 25 + 1)
    ∧ (outsAt0 (F := Ideal) m c t.val t.isLt).2.2.1 (ValueIdx.ix2 p 0) = Cert.Spec.runL (xin m c) (win' m c) (row t p) (t.val % 25 + 1)
    ∧ (outsAt0 (F := Ideal) m c t.val t.isLt).2.2.2 (ValueIdx.ix2 p 0) = Cert.Spec.runT (xin m c) (yin m c) (win' m c) (row t p) (t.val % 25 + 1) := by
  obtain ⟨eM, eL, eT⟩ := outs_A m c t h0 h1
  rw [eM, eL, eT]
  exact step m c t p (k0_pay4 (F := Ideal)) (k0_pay5 (F := Ideal)) (k0_pay6 (F := Ideal))
    (by rw [pay4_apply, h0]; rfl) (by rw [pay5_apply, h0]; rfl) (by rw [pay6_apply, h0]; rfl)

/-- Off a row block's first tile, from the point before. -/
theorem inv_BC (t : Fin cfg0.N) (h0 : ¬t.val % 25 = 0) (p : Fin 512)
    (ih : (outsAt0 (F := Ideal) m c (pred t).val (pred t).isLt).2.1 (ValueIdx.ix2 p 0) = Cert.Spec.runM (xin m c) (win' m c) (row (pred t) p) ((pred t).val % 25 + 1)
    ∧ (outsAt0 (F := Ideal) m c (pred t).val (pred t).isLt).2.2.1 (ValueIdx.ix2 p 0) = Cert.Spec.runL (xin m c) (win' m c) (row (pred t) p) ((pred t).val % 25 + 1)
    ∧ (outsAt0 (F := Ideal) m c (pred t).val (pred t).isLt).2.2.2 (ValueIdx.ix2 p 0) = Cert.Spec.runT (xin m c) (yin m c) (win' m c) (row (pred t) p) ((pred t).val % 25 + 1)) :
    (outsAt0 (F := Ideal) m c t.val t.isLt).2.1 (ValueIdx.ix2 p 0) = Cert.Spec.runM (xin m c) (win' m c) (row t p) (t.val % 25 + 1)
    ∧ (outsAt0 (F := Ideal) m c t.val t.isLt).2.2.1 (ValueIdx.ix2 p 0) = Cert.Spec.runL (xin m c) (win' m c) (row t p) (t.val % 25 + 1)
    ∧ (outsAt0 (F := Ideal) m c t.val t.isLt).2.2.2 (ValueIdx.ix2 p 0) = Cert.Spec.runT (xin m c) (yin m c) (win' m c) (row t p) (t.val % 25 + 1) := by
  obtain ⟨hm, hl, ht⟩ := prev_facts m c t h0 p ih
  by_cases h1 : t.val % 25 = 24
  · obtain ⟨eM, eL, eT, -⟩ := outs_C m c t h0 h1
    rw [eM, eL, eT]
    exact step m c t p (prev m c t).2.1 (prev m c t).2.2.1 (prev m c t).2.2.2 hm hl ht
  · obtain ⟨eM, eL, eT⟩ := outs_B m c t h0 h1
    rw [eM, eL, eT]
    exact step m c t p (prev m c t).2.1 (prev m c t).2.2.1 (prev m c t).2.2.2 hm hl ht

/-- The invariant at every position, by induction on the position. -/
theorem inv_nat : ∀ (n : ℕ) (hn : n < cfg0.N) (p : Fin 512),
    (outsAt0 (F := Ideal) m c (⟨n, hn⟩ : Fin cfg0.N).val (⟨n, hn⟩ : Fin cfg0.N).isLt).2.1 (ValueIdx.ix2 p 0) = Cert.Spec.runM (xin m c) (win' m c) (row (⟨n, hn⟩ : Fin cfg0.N) p) ((⟨n, hn⟩ : Fin cfg0.N).val % 25 + 1)
    ∧ (outsAt0 (F := Ideal) m c (⟨n, hn⟩ : Fin cfg0.N).val (⟨n, hn⟩ : Fin cfg0.N).isLt).2.2.1 (ValueIdx.ix2 p 0) = Cert.Spec.runL (xin m c) (win' m c) (row (⟨n, hn⟩ : Fin cfg0.N) p) ((⟨n, hn⟩ : Fin cfg0.N).val % 25 + 1)
    ∧ (outsAt0 (F := Ideal) m c (⟨n, hn⟩ : Fin cfg0.N).val (⟨n, hn⟩ : Fin cfg0.N).isLt).2.2.2 (ValueIdx.ix2 p 0) = Cert.Spec.runT (xin m c) (yin m c) (win' m c) (row (⟨n, hn⟩ : Fin cfg0.N) p) ((⟨n, hn⟩ : Fin cfg0.N).val % 25 + 1)
  | 0, hn, p => inv_A m c ⟨0, hn⟩ rfl (by show ¬(0 : ℕ) % 25 = 24; decide) p
  | n + 1, hn, p => by
    by_cases h0 : (n + 1) % 25 = 0
    · exact inv_A m c ⟨n + 1, hn⟩ h0 (by show ¬(n + 1) % 25 = 24; omega) p
    · exact inv_BC m c ⟨n + 1, hn⟩ h0 p (inv_nat n (Nat.lt_of_succ_lt hn) p)

/-- After point t the three carried columns hold, at row p, the running maximum, the running rescaled sum and the running
    label-logit sum after t mod 25 + 1 tiles. -/
theorem scratch_inv (t : Fin cfg0.N) (p : Fin 512) :
    ((outsAt0 (F := Ideal) m c t.val t.isLt).2.1 (ValueIdx.ix2 p 0) = Cert.Spec.runM (xin m c) (win' m c) (row t p) (t.val % 25 + 1))
    ∧ ((outsAt0 (F := Ideal) m c t.val t.isLt).2.2.1 (ValueIdx.ix2 p 0) = Cert.Spec.runL (xin m c) (win' m c) (row t p) (t.val % 25 + 1))
    ∧ ((outsAt0 (F := Ideal) m c t.val t.isLt).2.2.2 (ValueIdx.ix2 p 0)
        = Cert.Spec.runT (xin m c) (yin m c) (win' m c) (row t p) (t.val % 25 + 1)) :=
  inv_nat m c t.val t.isLt p

/-- After a row block's last tile the output's column holds, at row p, the streamed per-token value. -/
theorem out_eq (t : Fin cfg0.N) (p : Fin 512) (h24 : t.val % 25 = 24) :
    (outsAt0 (F := Ideal) m c t.val t.isLt).1 (ValueIdx.ix1 p)
      = Cert.Spec.ptlStream (xin m c) (yin m c) (win' m c) (row t p) := by
  have h0 : ¬t.val % 25 = 0 := by omega
  obtain ⟨hm, hl, ht⟩ := prev_facts m c t h0 p (inv_nat m c (pred t).val (pred t).isLt p)
  obtain ⟨sM, sL, sT⟩ := step m c t p (prev m c t).2.1 (prev m c t).2.2.1 (prev m c t).2.2.2 hm hl ht
  obtain ⟨-, -, -, eO⟩ := outs_C m c t h0 h24
  rw [eO, pay3_apply, sM, sL, sT, h24]
  rfl

end Cert.KernelIdeal.Value

end
-- ==== Proof.KICover.lean ====
/-
  From blocks to the array.

  The per-token buffer [4096] is written in blocks of 512: block b is written back once, at the last column tile of row
  block b (grid position 25·b + 24), with what the body left in the staging buffer there.  So after the run, position r
  of the buffer holds entry r mod 512 of what position 25·(r / 512) + 24 left.
-/
import proofs.«418224_j48859547959893_3_alg».proof.Proof.KIFrame
import Idealize.ShloMosaic.Lib.Pipeline.Value
import Idealize.ShloMosaic.Lib.ValueIdx

noncomputable section

namespace Cert.KernelIdeal.Cover

open Cert.KernelIdeal Cert.KernelIdeal.Gen Cert.KernelIdeal.Hand Idealize.ShloMosaic Idealize.ShloMosaic.TcCoe
open Idealize.SL Idealize.SL.Sem
open Idealize.ShloMosaic.Pipeline (Dat Cfg Window)

variable {F : FTy → Type} [FloatOps F]

/-- The block index of the per-token buffer's window at grid position t is the row block t / 25. -/
theorem index_eq : ∀ t : Fin cfg0.N, win0_3.index t (0 : Fin 1) = t.val / 25 :=
  (by decide +kernel : ∀ t : Fin grid0.N, win0_3.index t (0 : Fin 1) = t.val / 25)

/-- A position of the buffer is in the block of grid position t iff it lies in that block's range of 512. -/
theorem mem_blk (t : Fin cfg0.N) (i : S4096.Idx) :
    i ∈ ((cfg0.win 3).blk t).view.set ↔ ∀ a : Fin 1, win0_3.index t a * S512.size a ≤ (i a).val ∧ (i a).val < win0_3.index t a * S512.size a + S512.size a := by
  show i ∈ ((View.whole main_v8).slice (win0_3.rect t)).set ↔ _
  rw [View.set_slice_whole, Rect.mem_set_unit]
  exact Iff.rfl

/-- A position of the buffer is below 4096. -/
theorem idx_lt (i : S4096.Idx) : (i 0).val < 4096 := (i 0).isLt

/-- A family indexed by a bounded position does not depend on how the bound is proved, and respects equal positions. -/
theorem fam_congr {α : Type} {N : ℕ} (o : (n : ℕ) → n < N → α) {n n' : ℕ} (h : n = n') (hn : n < N) (hn' : n' < N) :
    o n hn = o n' hn' := by subst h; rfl

/-- The whole buffer after the run, position by position: entry r mod 512 of what grid position 25·(r / 512) + 24 left. -/
def G (o : (n : ℕ) → n < cfg0.N → Vec F S512 .f32) : S4096.Idx → Elt F .f32 := fun i =>
  o (25 * ((i 0).val / 512) + 24) (by have : cfg0.N = 200 := N_0; have := idx_lt i; omega)
    (ValueIdx.ix1 ⟨(i 0).val % 512, Nat.mod_lt _ (by decide)⟩)

/-- For any pipeline data whose output window's staging buffer holds `o t` after position t: position r of the buffer
    after the run holds entry r mod 512 of `o (25·(r / 512) + 24)` — the flushed blocks are the 8 row blocks, each written
    once, and together they cover the buffer. -/
theorem final_of (c : Dev nD) (dat : Dat τ (Elt F) Unit ℕ (UR sig nD τ) ℕ cfg0 c)
    (o : (n : ℕ) → n < cfg0.N → Vec F S512 .f32)
    (hafter : ∀ t : Fin cfg0.N, dat.after 3 t = o t.val t.isLt) (r : Fin 4096) :
    dat.arrAt 3 cfg0.N (ValueIdx.ix1 r)
      = o (25 * (r.val / 512) + 24) (by have : cfg0.N = 200 := N_0; omega) (ValueIdx.ix1 ⟨r.val % 512, Nat.mod_lt _ (by decide)⟩) := by
  have hN : cfg0.N = 200 := N_0
  have hG : ∀ t, (cfg0.win 3).flush t = true → dat.flushed 3 t = ((cfg0.win 3).blk t).view.read (Elt F) (G o) := by
    intro t hf
    have h24 : t.val % 25 = 24 := (flush0_3 t).mp hf
    show (cfg0.win 3).cut (grid0.coords t) (dat.after 3 t) = _
    rw [hafter]
    funext j
    show o t.val t.isLt j = G o (((cfg0.win 3).blk t).view.emb j)
    have hj : (j 0).val < 512 := (j 0).isLt
    have he : ((((cfg0.win 3).blk t).view.emb j) 0).val = win0_3.index t (0 : Fin 1) * 512 + 1 * (j 0).val := rfl
    rw [index_eq t] at he
    have e1 : 25 * ((((cfg0.win 3).blk t).view.emb j 0).val / 512) + 24 = t.val := by rw [he]; omega
    have e2 : (((cfg0.win 3).blk t).view.emb j 0).val % 512 = (j 0).val := by rw [he]; omega
    have e3 : (ValueIdx.ix1 ⟨(((cfg0.win 3).blk t).view.emb j 0).val % 512, Nat.mod_lt _ (by decide)⟩ : S512.Idx) = j := by
      funext a
      match a with
      | ⟨0, _⟩ => exact Fin.ext e2
    unfold G
    exact ((congrFun (fam_congr o e1 _ t.isLt) _).trans (congrArg (o t.val t.isLt) e3)).symm
  have hcover : ∀ i : S4096.Idx, ∃ t : Fin cfg0.N, (cfg0.win 3).flush t = true ∧ i ∈ ((cfg0.win 3).blk t).view.set := by
    intro i
    have hi := idx_lt i
    refine ⟨⟨25 * ((i 0).val / 512) + 24, by omega⟩, (flush0_3 _).mpr (by show (25 * ((i 0).val / 512) + 24) % 25 = 24; omega), ?_⟩
    rw [mem_blk]
    intro a
    match a with
    | ⟨0, _⟩ =>
      show win0_3.index _ (0 : Fin 1) * 512 ≤ (i 0).val ∧ (i 0).val < win0_3.index _ (0 : Fin 1) * 512 + 512
      rw [index_eq]
      show (25 * ((i 0).val / 512) + 24) / 25 * 512 ≤ (i 0).val ∧ (i 0).val < (25 * ((i 0).val / 512) + 24) / 25 * 512 + 512
      omega
  exact congrFun (dat.arrAt_eq_of_cover 3 (G o) hG hcover) (ValueIdx.ix1 r)

variable (m : (ℓ : Loc nD τ sig) → Buf (Elt F) ℓ)

/-- The per-token buffer after the run: position r holds entry r mod 512 of what the body left in the output's staging
    buffer at the last column tile of row block r / 512. -/
theorem final (c : Dev nD) (r : Fin 4096) :
    (dats m 0 c).arrAt 3 cfg0.N (ValueIdx.ix1 r)
      = (outsAt0 m c (25 * (r.val / 512) + 24) (by have : cfg0.N = 200 := N_0; omega)).1
          (ValueIdx.ix1 ⟨r.val % 512, Nat.mod_lt _ (by decide)⟩) :=
  final_of c (dats m 0 c) (fun n h => (outsAt0 m c n h).1) (after0_3 m c) r

end Cert.KernelIdeal.Cover

end
-- ==== Proof.Algebra.lean ====
/-
  The algebra of the streaming log-softmax, on the extended reals.

  For real inputs every logit is a real number.  The running maximum over the 25 tiles of 1280 lanes is the row maximum; the
  rescaled running sum is Σ_v exp (logit v − M); the running label sum is the logit at the safe label; and the two orders of
  the closing subtraction agree because every quantity involved is real.
-/
import proofs.«418224_j48859547959893_3_alg».proof.Proof.Spec
import Mathlib.Data.EReal.Basic
import Mathlib.Data.EReal.Operations
import Mathlib.Analysis.SpecialFunctions.Log.Basic
import Mathlib.Algebra.BigOperators.Group.Finset.Sigma
import Mathlib.Algebra.BigOperators.Group.Finset.Piecewise
import Mathlib.Algebra.Order.BigOperators.Group.Finset

noncomputable section

namespace Cert.Spec.Algebra

open Cert.Spec
open Idealize.ShloMosaic

variable {x : FVec Ideal S8x512x4096 .f32} {y : IVec S8x512 32} {W : FVec Ideal S32000x4096 .f32}

/-! ## Reals inside the extended reals -/

/-- A finite sum of reals, read in the extended reals, is the real sum. -/
theorem sum_coe {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- exp of a real. -/
theorem exp_coe (a : ℝ) : Ideal.exp (a : EReal) = (Real.exp a : EReal) := rfl

/-- log of a positive real. -/
theorem log_coe_pos {a : ℝ} (h : 0 < a) : Ideal.log (a : EReal) = (Real.log a : EReal) := by
  show (if a ≤ 0 then (⊥ : EReal) else (Real.log a : EReal)) = _
  rw [if_neg (not_le.mpr h)]

/-- Σ_h x[r, h] · W[v, h] is a real number when every x and W entry is. -/
theorem logit_real (hfin : FiniteIn x W) (r : Fin 4096) (v : Fin 32000) : ∃ a : ℝ, logit x W r v = (a : EReal) := by
  obtain ⟨hx, hW⟩ := hfin
  choose fx hfx using hx
  choose fW hfW using hW
  refine ⟨∑ h : Fin 4096, fx (ValueIdx.ix3 (rowB r) (rowT r) h) * fW (ValueIdx.ix2 v h), ?_⟩
  rw [← sum_coe]
  unfold logit xrow
  refine Finset.sum_congr rfl fun h _ => ?_
  rw [hfx, hfW, EReal.coe_mul]

/-! ## The tiles cover the vocabulary -/

/-- Lane q of tile n < 25 is the entry 1280·n + q. -/
theorem tok_val {n : ℕ} (hn : n < 25) (q : Fin 1280) : (tok n q).val = 1280 * n + q.val := by
  have hq := q.isLt
  show (1280 * n + q.val) % 32000 = _
  exact Nat.mod_eq_of_lt (by omega)

/-- Every entry v is lane v mod 1280 of tile v / 1280. -/
theorem tok_div_mod (v : Fin 32000) : tok (v.val / 1280) ⟨v.val % 1280, Nat.mod_lt _ (by decide)⟩ = v := by
  apply Fin.ext
  show (1280 * (v.val / 1280) + v.val % 1280) % 32000 = v.val
  rw [Nat.div_add_mod]
  exact Nat.mod_eq_of_lt v.isLt

/-- A sum over the 25 tiles' lanes is the sum over the vocabulary. -/
theorem sum_tiles {M : Type} [AddCommMonoid M] (F : Fin 32000 → M) :
    ∑ k ∈ Finset.range 25, ∑ q : Fin 1280, F (tok k q) = ∑ v : Fin 32000, F v := by
  rw [← Finset.sum_product' (Finset.range 25) Finset.univ (fun k q => F (tok k q))]
  refine Finset.sum_nbij' (fun p => tok p.1 p.2)
    (fun v => (v.val / 1280, ⟨v.val % 1280, Nat.mod_lt _ (by decide)⟩)) ?_ ?_ ?_ ?_ ?_
  · intro p _
    exact Finset.mem_univ _
  · intro v _
    have hv := v.isLt
    simp only [Finset.mem_product, Finset.mem_range, Finset.mem_univ, and_true]
    omega
  · rintro ⟨k, q⟩ hp
    simp only [Finset.mem_product, Finset.mem_range, Finset.mem_univ, and_true] at hp
    have hq := q.isLt
    have hv := tok_val hp q
    refine Prod.ext ?_ (Fin.ext ?_)
    · show (tok k q).val / 1280 = k
      rw [hv]; omega
    · show (tok k q).val % 1280 = q.val
      rw [hv]; omega
  · intro v _
    exact tok_div_mod v
  · intro p _
    rfl

/-! ## The running maximum -/

theorem runM_succ (r : Fin 4096) (n : ℕ) :
    runM x W r (n + 1) = max (runM x W r n) (tileMax x W r n) := rfl

theorem runM_mono (r : Fin 4096) {n m : ℕ} (h : n ≤ m) : runM x W r n ≤ runM x W r m := by
  induction h with
  | refl => exact le_rfl
  | step _ ih => exact ih.trans (by rw [runM_succ]; exact le_max_left _ _)

/-- A logit of a tile already visited is below the running maximum. -/
theorem le_runM (r : Fin 4096) {n m : ℕ} (h : n < m) (q : Fin 1280) : logit x W r (tok n q) ≤ runM x W r m := by
  refine le_trans ?_ (runM_mono r (Nat.succ_le_of_lt h))
  rw [runM_succ]
  exact le_trans (Finset.le_sup (f := fun q : Fin 1280 => logit x W r (tok n q)) (Finset.mem_univ q)) (le_max_right _ _)

/-- The running maximum never exceeds the row maximum. -/
theorem runM_le (r : Fin 4096) (n : ℕ) : runM x W r n ≤ rowMax x W r := by
  induction n with
  | zero => exact bot_le
  | succ n ih =>
    rw [runM_succ]
    exact max_le ih (Finset.sup_le fun q _ => Finset.le_sup (f := logit x W r) (Finset.mem_univ _))

theorem runM_eq (hfin : FiniteIn x W) (r : Fin 4096) : runM x W r 25 = rowMax x W r := by
  refine le_antisymm (runM_le r 25) (Finset.sup_le fun v _ => ?_)
  have hv := v.isLt
  have h := le_runM (x := x) (W := W) r (n := v.val / 1280) (m := 25) (by omega)
    ⟨v.val % 1280, Nat.mod_lt _ (by decide)⟩
  rwa [tok_div_mod] at h

/-- The row maximum is attained, hence real. -/
theorem rowMax_real (hfin : FiniteIn x W) (r : Fin 4096) : ∃ M : ℝ, rowMax x W r = (M : EReal) := by
  obtain ⟨v, _, hv⟩ := Finset.exists_mem_eq_sup Finset.univ Finset.univ_nonempty (logit x W r)
  obtain ⟨a, ha⟩ := logit_real hfin r v
  exact ⟨a, by unfold rowMax; rw [hv, ha]⟩

/-- After at least one tile the running maximum is real: it is above a logit and below the row maximum. -/
theorem runM_real (hfin : FiniteIn x W) (r : Fin 4096) (n : ℕ) : ∃ M : ℝ, runM x W r (n + 1) = (M : EReal) := by
  obtain ⟨R, hR⟩ := rowMax_real hfin r
  obtain ⟨a, ha⟩ := logit_real hfin r (tok 0 0)
  have h1 : runM x W r (n + 1) ≠ ⊤ := by
    intro h
    have h' := runM_le (x := x) (W := W) r (n + 1)
    rw [h, hR] at h'
    exact absurd h' (not_le.mpr (EReal.coe_lt_top R))
  have h2 : runM x W r (n + 1) ≠ ⊥ := by
    intro h
    have h' := le_runM (x := x) (W := W) r (Nat.succ_pos n) (0 : Fin 1280)
    rw [h, ha] at h'
    exact absurd h' (not_le.mpr (EReal.bot_lt_coe a))
  exact ⟨(runM x W r (n + 1)).toReal, (EReal.coe_toReal h1 h2).symm⟩

/-! ## The rescaled running sum -/

theorem runL_succ (r : Fin 4096) (n : ℕ) :
    runL x W r (n + 1) = Ideal.exp (runM x W r n - runM x W r (n + 1)) * runL x W r n
      + ∑ q : Fin 1280, Ideal.exp (logit x W r (tok n q) - runM x W r (n + 1)) := rfl

/-- After n tiles the running sum is Σ over the lanes seen of exp (logit − running maximum). -/
theorem runL_inv (hfin : FiniteIn x W) (r : Fin 4096) (n : ℕ) :
    runL x W r n
      = ∑ k ∈ Finset.range n, ∑ q : Fin 1280, Ideal.exp (logit x W r (tok k q) - runM x W r n) := by
  induction n with
  | zero => rfl
  | succ n ih =>
    rw [Finset.sum_range_succ, runL_succ, ih]
    congr 1
    rcases n with _ | m
    · simp
    · obtain ⟨M, hM⟩ := runM_real hfin r m
      obtain ⟨M', hM'⟩ := runM_real hfin r (m + 1)
      choose a ha using logit_real hfin r
      rw [hM', hM]
      simp only [ha, ← EReal.coe_sub, exp_coe, sum_coe, ← EReal.coe_mul]
      congr 1
      rw [Finset.mul_sum]
      refine Finset.sum_congr rfl fun k _ => ?_
      rw [Finset.mul_sum]
      refine Finset.sum_congr rfl fun q _ => ?_
      rw [← Real.exp_add]
      congr 1
      ring

theorem runL_eq (hfin : FiniteIn x W) (r : Fin 4096) : runL x W r 25 = rowSumExp x W r := by
  rw [runL_inv hfin r 25, runM_eq hfin r]
  exact sum_tiles (fun v => Ideal.exp (logit x W r v - rowMax x W r))

/-! ## The running label sum -/

theorem runT_inv (r : Fin 4096) (n : ℕ) :
    runT x y W r n = ∑ k ∈ Finset.range n, ∑ q : Fin 1280,
      (if BitVec.ofNat 32 (1280 * k + q.val) = ysafe y r then logit x W r (tok k q) else 0) := by
  induction n with
  | zero => rfl
  | succ n ih =>
    rw [Finset.sum_range_succ, ← ih]
    rfl

/-- For a position below 32000 the word of the position is the safe label exactly at the label's entry. -/
theorem word_eq_iff {r : Fin 4096} (hy : (ysafe y r).toNat < 32000) {k : ℕ} (hk : k < 25) (q : Fin 1280) :
    BitVec.ofNat 32 (1280 * k + q.val) = ysafe y r ↔ tok k q = ytok y r := by
  have hv := tok_val hk q
  have hq := q.isLt
  constructor
  · intro h
    apply Fin.ext
    show (tok k q).val = (ysafe y r).toNat % 32000
    rw [← h, hv, BitVec.toNat_ofNat]
    omega
  · intro h
    have h' : (tok k q).val = (ysafe y r).toNat % 32000 := congrArg Fin.val h
    rw [hv, Nat.mod_eq_of_lt hy] at h'
    apply BitVec.eq_of_toNat_eq
    rw [BitVec.toNat_ofNat, h']
    exact Nat.mod_eq_of_lt (by omega)

theorem runT_eq (hfin : FiniteIn x W) {r : Fin 4096} (hy : (ysafe y r).toNat < 32000) :
    runT x y W r 25 = logit x W r (ytok y r) := by
  rw [runT_inv r 25]
  have h1 : ∀ k ∈ Finset.range 25,
      ∑ q : Fin 1280, (if BitVec.ofNat 32 (1280 * k + q.val) = ysafe y r then logit x W r (tok k q) else 0)
        = ∑ q : Fin 1280, (fun v : Fin 32000 => if v = ytok y r then logit x W r v else 0) (tok k q) := by
    intro k hk
    refine Finset.sum_congr rfl fun q _ => ?_
    simp only [word_eq_iff hy (Finset.mem_range.mp hk) q]
  rw [Finset.sum_congr rfl h1, sum_tiles (fun v : Fin 32000 => if v = ytok y r then logit x W r v else 0),
    Finset.sum_ite_eq']
  simp

theorem ptlStream_eq (hfin : FiniteIn x W) {r : Fin 4096} (hy : (ysafe y r).toNat < 32000) :
    ptlStream x y W r = ptl x y W r := by
  unfold ptlStream ptl
  rw [runT_eq hfin hy, runM_eq hfin r, runL_eq hfin r]

/-! ## The two orders of the closing subtraction -/

/-- Σ_v exp (logit v − M) is a positive real. -/
theorem rowSumExp_pos (hfin : FiniteIn x W) (r : Fin 4096) :
    ∃ S : ℝ, 0 < S ∧ rowSumExp x W r = (S : EReal) := by
  obtain ⟨M, hM⟩ := rowMax_real hfin r
  choose a ha using logit_real hfin r
  refine ⟨∑ v : Fin 32000, Real.exp (a v - M),
    Finset.sum_pos (fun v _ => Real.exp_pos _) Finset.univ_nonempty, ?_⟩
  unfold rowSumExp
  rw [hM, ← sum_coe]
  refine Finset.sum_congr rfl fun v _ => ?_
  rw [ha, ← EReal.coe_sub, exp_coe]

theorem ptlRef_eq (hfin : FiniteIn x W) (r : Fin 4096) : ptlRef x y W r = ptl x y W r := by
  obtain ⟨M, hM⟩ := rowMax_real hfin r
  obtain ⟨S, hS, hSe⟩ := rowSumExp_pos hfin r
  obtain ⟨a, ha⟩ := logit_real hfin r (ytok y r)
  unfold ptlRef ptl
  rw [hM, hSe, ha, log_coe_pos hS, ← EReal.coe_sub, ← EReal.coe_sub, ← EReal.coe_add, ← EReal.coe_sub]
  rw [sub_sub]

/-! ## The safe label is a vocabulary index -/

theorem ysafe_lt (hl : LabelsOk y) (r : Fin 4096) : (ysafe y r).toNat < 32000 := by
  by_cases h : ylab y r = 4294967196#32
  · rw [ysafe, if_pos h]
    decide
  · rw [ysafe, if_neg h]
    rcases hl (ValueIdx.ix2 (rowB r) (rowT r)) with h' | h'
    · exact absurd h' h
    · exact h'

end Cert.Spec.Algebra

end
-- ==== Proof.KIFinal.lean ====
/-
  The kernel program's run, read in the specification's words.  After the region the per-token buffer holds, at row r,
  what the last column tile of r's row block stored at lane r mod 512: the streaming form of the per-token
  log-probability, which for real inputs and labels in their range is the per-token log-probability itself.  The 75 host
  lines after the region then compute the closing arithmetic of that array reshaped to [8, 512], of the label mask, and of the
  chosen half's count raised to at least 1.
-/
import proofs.«418224_j48859547959893_3_alg».proof.Proof.KIFrame
import proofs.«418224_j48859547959893_3_alg».proof.Proof.KIValue
import proofs.«418224_j48859547959893_3_alg».proof.Proof.KICover
import proofs.«418224_j48859547959893_3_alg».proof.Proof.KITail
import proofs.«418224_j48859547959893_3_alg».proof.Proof.KIArrays
import proofs.«418224_j48859547959893_3_alg».proof.Proof.KIBlocks
import proofs.«418224_j48859547959893_3_alg».proof.Proof.Algebra

noncomputable section

namespace Cert.KernelIdeal.Final

open Cert.KernelIdeal Cert.KernelIdeal.Gen Cert.KernelIdeal.Hand Cert.KernelIdeal.Blocks
open Idealize.ShloMosaic Idealize.ShloMosaic.TcCoe Idealize.SL.Sem

variable (m : (ℓ : Loc nD τ sig) → Buf (Elt Ideal) ℓ) (ρ : Dev nD → PrngReg)

/-- The per-token buffer after the region, row by row: the per-token log-probability. -/
theorem out_row (c : Dev nD) (hfin : Cert.Spec.FiniteIn (xin m c) (win' m c)) (hl : Cert.Spec.LabelsOk (yin m c)) (r : Fin 4096) :
    (dats (F := Ideal) m 0 c).arrAt 3 cfg0.N (ValueIdx.ix1 r) = Cert.Spec.ptl (xin m c) (yin m c) (win' m c) r := by
  have hN : cfg0.N = 200 := N_0
  have hr := r.isLt
  have ht : 25 * (r.val / 512) + 24 < cfg0.N := by omega
  rw [Cover.final m c r]
  have h24 : (⟨25 * (r.val / 512) + 24, ht⟩ : Fin cfg0.N).val % 25 = 24 := by
    show (25 * (r.val / 512) + 24) % 25 = 24
    omega
  rw [Value.out_eq m c ⟨25 * (r.val / 512) + 24, ht⟩ ⟨r.val % 512, Nat.mod_lt _ (by decide)⟩ h24]
  have hrow : row ⟨25 * (r.val / 512) + 24, ht⟩ ⟨r.val % 512, Nat.mod_lt _ (by decide)⟩ = r := by
    apply Fin.ext
    show 512 * ((25 * (r.val / 512) + 24) / 25) + r.val % 512 = r.val
    omega
  rw [hrow]
  exact Cert.Spec.Algebra.ptlStream_eq hfin (Cert.Spec.Algebra.ysafe_lt hl r)

/-- The per-token buffer after the region, reshaped to [8, 512], is the specification's per-token array. -/
theorem out_arr (c : Dev nD) (hfin : Cert.Spec.FiniteIn (xin m c) (win' m c)) (hl : Cert.Spec.LabelsOk (yin m c)) :
    (shapeCast S8x512 ((dats (F := Ideal) m 0 c).arrAt 3 cfg0.N) shapeCasts_S4096_S8x512 : FVec Ideal S8x512 .f32)
      = Cert.Spec.ptlArr (xin m c) (yin m c) (win' m c) := by
  have h : ((dats (F := Ideal) m 0 c).arrAt 3 cfg0.N : S4096.Idx → EReal)
      = fun i : S4096.Idx => Cert.Spec.ptl (xin m c) (yin m c) (win' m c) (i 0) := by
    funext i
    obtain ⟨r, rfl⟩ : ∃ r : Fin 4096, i = ValueIdx.ix1 r := ⟨i 0, ValueIdx.eq_ix1 i⟩
    exact out_row m c hfin hl r
  rw [h]
  funext i
  obtain ⟨b, t, rfl⟩ : ∃ (b : Fin 8) (t : Fin 512), i = ValueIdx.ix2 b t := ⟨i 0, i 1, ValueIdx.eq_ix2 i⟩
  rw [Arrays.ptl_reshape]
  rfl

/-- What the lines after the region leave in the result buffer. -/
theorem result_eq (c : Dev nD) (hfin : Cert.Spec.FiniteIn (xin m c) (win' m c)) (hl : Cert.Spec.LabelsOk (yin m c)) :
    Pipeline.afterTail₀ cfgs (dats (F := Ideal) m) 0 (V0 m) [hostOps1, hostOps1_1, hostOps1_2, hostOps1_3, hostOps1_4] c main_v42
      = Cert.Spec.tailFn Tail.hf (Cert.Spec.ptlArr (xin m c) (yin m c) (win' m c)) (Cert.Spec.maskOf Tail.hf (yin m c))
          (maxsi (Cert.Spec.cntOf Tail.hf (Cert.Spec.maskOf Tail.hf (yin m c))) (constantI S_ 32 1#32)) := by
  unfold Pipeline.afterTail₀
  rw [Tail.tail_eq]
  have h8 : Pipeline.withArrays (cfgs 0).spec c (V0 m c) (fun w => (dats (F := Ideal) m 0 c).arrAt w (cfgs 0).N) (main_v8 : DevRef τ sig)
      = (dats (F := Ideal) m 0 c).arrAt 3 cfg0.N :=
    Pipeline.withArrays_arr spec0 launch0.win.arr_inj c (V0 m c) (fun w => (dats (F := Ideal) m 0 c).arrAt w cfg0.N) 3
  have h4 : Pipeline.withArrays (cfgs 0).spec c (V0 m c) (fun w => (dats (F := Ideal) m 0 c).arrAt w (cfgs 0).N) (main_v4 : DevRef τ sig)
      = Cert.Spec.maskOf Tail.hf (yin m c) :=
    (Pipeline.withArrays_of_ne spec0 c (V0 m c) (fun w => (dats (F := Ideal) m 0 c).arrAt w cfg0.N) main_v4 (by decide)).trans
      (Tail.mask_eq (fun b => m (c, b)))
  rw [h8, h4, out_arr m c hfin hl]

/-- THE KERNEL PROGRAM'S RUN: under real inputs and labels in their range, every weakly fair execution ends with the
    result buffer at the specification's closing arithmetic and the arguments unchanged. -/
theorem run (hpre : ∀ c, Cert.Spec.FiniteIn (xin m c) (win' m c) ∧ Cert.Spec.LabelsOk (yin m c)) :
    θ_run defs (onTc (τ := τ) (main (F := Ideal))) ⟨m, fun _ => 0, ρ⟩ (fun r => ∀ c : Dev nD,
      r.2.mem ((c.tc : Thread nD τ).loc main_v42)
        = Cert.Spec.tailFn Tail.hf (Cert.Spec.ptlArr (xin m c) (yin m c) (win' m c)) (Cert.Spec.maskOf Tail.hf (yin m c))
            (maxsi (Cert.Spec.cntOf Tail.hf (Cert.Spec.maskOf Tail.hf (yin m c))) (constantI S_ 32 1#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v42 (Pipeline.mem_restRefs_of main_v42 (by decide) (by decide))).trans (result_eq m c (hpre c).1 (hpre c).2),
      ((h c).2 main_arg0 (Pipeline.mem_restRefs_of main_arg0 (by decide) (by decide))).trans
        ((tail_arg m (dats m) c (by decide) (by decide)).trans (V_arg m c (by decide))),
      ((h c).2 main_arg1 (Pipeline.mem_restRefs_of main_arg1 (by decide) (by decide))).trans
        ((tail_arg m (dats m) c (by decide) (by decide)).trans (V_arg m c (by decide))),
      ((h c).2 main_arg2 (Pipeline.mem_restRefs_of main_arg2 (by decide) (by decide))).trans
        ((tail_arg m (dats m) c (by decide) (by decide)).trans (V_arg m c (by decide)))⟩) (run_main m ρ)

end Cert.KernelIdeal.Final

end
-- ==== Proof.RefTerm.lean ====
/-
  The reference program's result as ONE pure term of its three arguments, operation by operation in
  the program's own order and names: `refPtlTerm` the per-token array (the contraction, the
  log-softmax along the last axis, the labels with the ignored label replaced by zero, the entry
  taken at each label, reshaped to [8,512]) and `refRest` the remaining operations over that array and
  the mask of tokens whose label is not the ignored one; `refOut` is their composition.
-/
import proofs.«418224_j48859547959893_3_alg».proof.ReferenceIdeal
import proofs.«418224_j48859547959893_3_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The mask of the tokens that count: where the label differs from the ignored label -100. -/
def refMask (y : IVec S8x512 32) : IVec S8x512 1 :=
  let main_c : IVec S_ 32 := constantI S_ 32 4294967196#32
  let main_v2 : IVec S8x512 32 := broadcastInDim S8x512 ![] bcast_S_S8x512 main_c
  cmpi .ne y main_v2

/-- The per-token array: at token (b, t) the log-softmax of row (b, t) of `x · Wᵀ` taken at the token's
    label (the ignored label read as 0; an index outside [0, 31999] after wrapping negative ones answers NaN). -/
def refPtlTerm (x : FVec F S8x512x4096 .f32) (y : IVec S8x512 32) (W : FVec F S32000x4096 .f32) : FVec F S8x512 .f32 :=
  let main_v0 : FVec F S8x512x32000 .f32 := Host.dotGeneral dot_S8x512x4096_S32000x4096_S8x512x32000_2_1_01_0_n_n none x W
  -- log_softmax
  let main_call0_cst : FVec F S_ .f32 := constant S_ .f32 0xFF800000#32
  let main_call0_v0 : FVec F S8x512 .f32 := Host.reduce FloatOps.maximumf main_v0 main_call0_cst reducesTo_S8x512x32000_S8x512_d2 h_S_
  let main_call0_cst_0 : FVec F S_ .f32 := constant S_ .f32 0xFF800000#32
  let main_call0_v1 : FVec F S8x512 .f32 := broadcastInDim S8x512 ![] bcast_S_S8x512 main_call0_cst_0
  let main_call0_v2 : FVec F S8x512 .f32 := maximumf main_call0_v1 main_call0_v0
  let main_call0_v3 : FVec F S8x512x1 .f32 := broadcastInDim S8x512x1 ![0, 1] bcast_S8x512_S8x512x1_0_1 main_call0_v2
  let main_call0_v4 : FVec F S8x512x32000 .f32 := broadcastInDim S8x512x32000 ![0, 1, 2] bcast_S8x512x1_S8x512x32000_0_1_2 main_call0_v3
  let main_call0_v5 : FVec F S8x512x32000 .f32 := subf main_v0 main_call0_v4
  let main_call0_v6 : FVec F S8x512x32000 .f32 := Host.exp main_call0_v5
  let main_call0_cst_1 : FVec F S_ .f32 := constant S_ .f32 0x00000000#32
  let main_call0_v7 : FVec F S8x512 .f32 := Host.reduceAdd main_call0_v6 main_call0_cst_1 reducesTo_S8x512x32000_S8x512_d2 h_S_
  let main_call0_v8 : FVec F S8x512x1 .f32 := broadcastInDim S8x512x1 ![0, 1] bcast_S8x512_S8x512x1_0_1 main_call0_v7
  let main_call0_v9 : FVec F S8x512x1 .f32 := Host.log main_call0_v8
  let main_call0_v10 : FVec F S8x512x32000 .f32 := broadcastInDim S8x512x32000 ![0, 1, 2] bcast_S8x512x1_S8x512x32000_0_1_2 main_call0_v9
  let main_v1 : FVec F S8x512x32000 .f32 := subf main_call0_v5 main_call0_v10
  -- the labels, the ignored one replaced by 0
  let main_c : IVec S_ 32 := constantI S_ 32 4294967196#32
  let main_v2 : IVec S8x512 32 := broadcastInDim S8x512 ![] bcast_S_S8x512 main_c
  let main_v3 : IVec S8x512 1 := cmpi .ne y main_v2
  let main_c_0 : IVec S_ 32 := constantI S_ 32 0#32
  let main_call1_v0 : IVec S_ 32 := id main_c_0
  let main_call1_v1 : IVec S8x512 32 := broadcastInDim S8x512 ![] bcast_S_S8x512 main_call1_v0
  let main_v4 : IVec S8x512 32 := select main_v3 y main_call1_v1
  let main_v5 : IVec S8x512x1 32 := broadcastInDim S8x512x1 ![0, 1] bcast_S8x512_S8x512x1_0_1 main_v4
  -- take_along_axis
  let main_call2_c : IVec S_ 32 := constantI S_ 32 0#32
  let main_call2_v0 : IVec S8x512x1 32 := broadcastInDim S8x512x1 ![] bcast_S_S8x512x1 main_call2_c
  let main_call2_v1 : IVec S8x512x1 1 := cmpi .slt main_v5 main_call2_v0
  let main_call2_c_0 : IVec S_ 32 := constantI S_ 32 32000#32
  let main_call2_v2 : IVec S8x512x1 32 := broadcastInDim S8x512x1 ![] bcast_S_S8x512x1 main_call2_c_0
  let main_call2_v3 : IVec S8x512x1 32 := addi main_v5 main_call2_v2
  let main_call2_v4 : IVec S8x512x1 32 := select main_call2_v1 main_call2_v3 main_v5
  let main_call2_v5 : IVec S8x512x1x1 32 := shapeCast S8x512x1x1 main_call2_v4 shapeCasts_S8x512x1_S8x512x1x1
  let main_call2_c_1 : IVec S1 32 := constantI S1 32 31999#32
  let main_call2_c_2 : IVec S_ 32 := constantI S_ 32 0#32
  let main_call2_v6 : IVec S8x512x1x1 32 := broadcastInDim S8x512x1x1 ![] bcast_S_S8x512x1x1 main_call2_c_2
  let main_call2_v7 : IVec S8x512x1x1 1 := cmpi .sge main_call2_v5 main_call2_v6
  let main_call2_v8 : IVec S1x1x1x1 32 := broadcastInDim S1x1x1x1 ![3] bcast_S1_S1x1x1x1_3 main_call2_c_1
  let main_call2_v9 : IVec S8x512x1x1 32 := broadcastInDim S8x512x1x1 ![0, 1, 2, 3] bcast_S1x1x1x1_S8x512x1x1_0_1_2_3 main_call2_v8
  let main_call2_v10 : IVec S8x512x1x1 1 := cmpi .sle main_call2_v5 main_call2_v9
  let main_call2_v11 : IVec S8x512x1x1 1 := andi main_call2_v7 main_call2_v10
  let main_call2_c_3 : IVec S_ 1 := constantI S_ 1 1#1
  let main_call2_v12 : IVec S8x512x1 1 := Host.reduce IntOp.andi main_call2_v11 main_call2_c_3 reducesTo_S8x512x1x1_S8x512x1_d3 h_S_
  let main_call2_v13 : FVec F S8x512x1 .f32 := Host.gather gather_S8x512x32000_S8x512x1x1_S8x512x1_n_2_01_01_2_3_111 main_v1 main_call2_v5
  let main_call2_cst : FVec F S_ .f32 := constant S_ .f32 0x7FC00000#32
  let main_call2_v14 : FVec F S8x512x1 .f32 := broadcastInDim S8x512x1 ![] bcast_S_S8x512x1 main_call2_cst
  let main_v6 : FVec F S8x512x1 .f32 := select main_call2_v12 main_call2_v13 main_call2_v14
  -- reshape to [8,512]
  shapeCast S8x512 main_v6 shapeCasts_S8x512x1_S8x512

/-- The operations after the per-token array, over that array `main_v7` and the mask `main_v3`: the masked
    sums per sequence, their first and last four, the mean negated masked entry over the first four sequences,
    and the two log-sigmoid terms of the scaled differences, averaged. -/
def refRest (main_v7 : FVec F S8x512 .f32) (main_v3 : IVec S8x512 1) : FVec F S_ .f32 :=
  let main_v8 : FVec F S8x512 .f32 := uitofp .f32 main_v3
  let main_v9 : FVec F S8x512 .f32 := mulf main_v7 main_v8
  let main_cst : FVec F S_ .f32 := constant S_ .f32 0x00000000#32
  let main_v10 : FVec F S8 .f32 := Host.reduceAdd main_v9 main_cst reducesTo_S8x512_S8_d1 h_S_
  let main_v11 : FVec F S4 .f32 := extractStridedSlice S4 ![0] main_v10 slices_S8_S4_0
  let main_v12 : FVec F S4 .f32 := extractStridedSlice S4 ![4] main_v10 slices_S8_S4_4
  let main_v13 : IVec S4x512 1 := extractStridedSlice S4x512 ![0, 0] main_v3 slices_S8x512_S4x512_0_0
  let main_v14 : FVec F S4x512 .f32 := extractStridedSlice S4x512 ![0, 0] main_v7 slices_S8x512_S4x512_0_0
  let main_v15 : FVec F S4x512 .f32 := Host.negf main_v14
  let main_v16 : FVec F S4x512 .f32 := uitofp .f32 main_v13
  let main_v17 : FVec F S4x512 .f32 := mulf main_v15 main_v16
  let main_cst_1 : FVec F S_ .f32 := constant S_ .f32 0x00000000#32
  let main_v18 : FVec F S_ .f32 := Host.reduceAdd main_v17 main_cst_1 reducesTo_S4x512_S_d0_1 h_S_
  let main_v19 : IVec S4x512 32 := extui 32 main_v13 natLt_1_32
  let main_c_2 : IVec S_ 32 := constantI S_ 32 0#32
  let main_v20 : IVec S_ 32 := Host.reduce IntOp.addi main_v19 main_c_2 reducesTo_S4x512_S_d0_1 h_S_
  let main_v21 : FVec F S_ .f32 := sitofp .f32 main_v20
  let main_v22 : FVec F S_ .f32 := Host.divf main_v18 main_v21
  let main_v23 : FVec F S4 .f32 := subf main_v11 main_v12
  let main_cst_3 : FVec F S_ .f32 := constant S_ .f32 0x3DCCCCCD#32
  let main_v24 : FVec F S4 .f32 := broadcastInDim S4 ![] bcast_S_S4 main_cst_3
  let main_v25 : FVec F S4 .f32 := mulf main_v24 main_v23
  -- log_sigmoid (softplus inside)
  let main_call3_v0 : FVec F S4 .f32 := Host.negf main_v25
  let main_call3_call0_cst : FVec F S_ .f32 := constant S_ .f32 0x00000000#32
  let main_call3_call0_v0 : FVec F S4 .f32 := broadcastInDim S4 ![] bcast_S_S4 main_call3_call0_cst
  let main_call3_call0_v1 : FVec F S4 .f32 := maximumf main_call3_v0 main_call3_call0_v0
  let main_call3_call0_v2 : FVec F S4 .f32 := broadcastInDim S4 ![] bcast_S_S4 main_call3_call0_cst
  let main_call3_call0_v3 : FVec F S4 .f32 := subf main_call3_v0 main_call3_call0_v2
  let main_call3_call0_v4 : IVec S4 1 := cmpf .une main_call3_call0_v3 main_call3_call0_v3
  let main_call3_call0_v5 : FVec F S4 .f32 := broadcastInDim S4 ![] bcast_S_S4 main_call3_call0_cst
  let main_call3_call0_v6 : FVec F S4 .f32 := addf main_call3_v0 main_call3_call0_v5
  let main_call3_call0_v7 : FVec F S4 .f32 := Host.absf main_call3_call0_v3
  let main_call3_call0_v8 : FVec F S4 .f32 := Host.negf main_call3_call0_v7
  let main_call3_call0_v9 : FVec F S4 .f32 := Host.exp main_call3_call0_v8
  let main_call3_call0_v10 : FVec F S4 .f32 := Host.log1p main_call3_call0_v9
  let main_call3_call0_v11 : FVec F S4 .f32 := addf main_call3_call0_v1 main_call3_call0_v10
  let main_call3_v1 : FVec F S4 .f32 := select main_call3_call0_v4 main_call3_call0_v6 main_call3_call0_v11
  let main_v26 : FVec F S4 .f32 := Host.negf main_call3_v1
  let main_v27 : FVec F S4 .f32 := Host.negf main_v26
  let main_cst_4 : FVec F S_ .f32 := constant S_ .f32 0x3F800000#32
  let main_v28 : FVec F S4 .f32 := broadcastInDim S4 ![] bcast_S_S4 main_cst_4
  let main_v29 : FVec F S4 .f32 := mulf main_v27 main_v28
  let main_cst_5 : FVec F S_ .f32 := constant S_ .f32 0xBDCCCCCD#32
  let main_v30 : FVec F S4 .f32 := broadcastInDim S4 ![] bcast_S_S4 main_cst_5
  let main_v31 : FVec F S4 .f32 := mulf main_v30 main_v23
  -- log_sigmoid (softplus inside)
  let main_call4_v0 : FVec F S4 .f32 := Host.negf main_v31
  let main_call4_call0_cst : FVec F S_ .f32 := constant S_ .f32 0x00000000#32
  let main_call4_call0_v0 : FVec F S4 .f32 := broadcastInDim S4 ![] bcast_S_S4 main_call4_call0_cst
  let main_call4_call0_v1 : FVec F S4 .f32 := maximumf main_call4_v0 main_call4_call0_v0
  let main_call4_call0_v2 : FVec F S4 .f32 := broadcastInDim S4 ![] bcast_S_S4 main_call4_call0_cst
  let main_call4_call0_v3 : FVec F S4 .f32 := subf main_call4_v0 main_call4_call0_v2
  let main_call4_call0_v4 : IVec S4 1 := cmpf .une main_call4_call0_v3 main_call4_call0_v3
  let main_call4_call0_v5 : FVec F S4 .f32 := broadcastInDim S4 ![] bcast_S_S4 main_call4_call0_cst
  let main_call4_call0_v6 : FVec F S4 .f32 := addf main_call4_v0 main_call4_call0_v5
  let main_call4_call0_v7 : FVec F S4 .f32 := Host.absf main_call4_call0_v3
  let main_call4_call0_v8 : FVec F S4 .f32 := Host.negf main_call4_call0_v7
  let main_call4_call0_v9 : FVec F S4 .f32 := Host.exp main_call4_call0_v8
  let main_call4_call0_v10 : FVec F S4 .f32 := Host.log1p main_call4_call0_v9
  let main_call4_call0_v11 : FVec F S4 .f32 := addf main_call4_call0_v1 main_call4_call0_v10
  let main_call4_v1 : FVec F S4 .f32 := select main_call4_call0_v4 main_call4_call0_v6 main_call4_call0_v11
  let main_v32 : FVec F S4 .f32 := Host.negf main_call4_v1
  let main_cst_6 : FVec F S_ .f32 := constant S_ .f32 0x00000000#32
  let main_v33 : FVec F S4 .f32 := broadcastInDim S4 ![] bcast_S_S4 main_cst_6
  let main_v34 : FVec F S4 .f32 := mulf main_v32 main_v33
  let main_v35 : FVec F S4 .f32 := subf main_v29 main_v34
  let main_cst_7 : FVec F S_ .f32 := constant S_ .f32 0x3F800000#32
  let main_v36 : FVec F S_ .f32 := mulf main_v22 main_cst_7
  let main_cst_8 : FVec F S_ .f32 := constant S_ .f32 0x00000000#32
  let main_v37 : FVec F S_ .f32 := Host.reduceAdd main_v35 main_cst_8 reducesTo_S4_S_d0 h_S_
  let main_cst_9 : FVec F S_ .f32 := constant S_ .f32 0x40800000#32
  let main_v38 : FVec F S_ .f32 := Host.divf main_v37 main_cst_9
  addf main_v36 main_v38

/-- The reference's result as one pure term of its three arguments. -/
def refOut (x : FVec F S8x512x4096 .f32) (y : IVec S8x512 32) (W : FVec F S32000x4096 .f32) : FVec F S_ .f32 :=
  refRest (refPtlTerm x y W) (refMask y)

end Cert.ReferenceIdeal.Hand

end
-- ==== Proof.RefRun.lean ====
/-
  The run of the reference program read back: @main as a list of its host operations (the calls to its
  module-local functions inlined), the list's fold at the result buffer as `refOut` of the arguments'
  contents, and the run: every weakly fair execution terminates with the result buffer at that term and the
  arguments unchanged.
-/
import proofs.«418224_j48859547959893_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's first 47 operations, through the per-token array: the contraction; log_softmax's fifteen; the ignored
    label, its broadcast, the comparison, the zero; _where's three; the labels' broadcast; take_along_axis's
    twenty-two; the reshape to [8,512]. Each call's body is listed at the call over the call's own buffers. -/
abbrev opsA : List (HloOp τ sig (Elt F)) :=
  [ StableHlo.binary main_arg0 main_arg2 main_v0 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    StableHlo.TRef.nullary main_call0.cst (constant S_ .f32 0xFF800000#32),
    StableHlo.TRef.binary (.of main_v0 : StableHlo.TRef sig ⟨S8x512x32000, .f32⟩) main_call0.cst main_call0.v0 (fun x v => Host.reduce FloatOps.maximumf x v reducesTo_S8x512x32000_S8x512_d2 h_S_),
    StableHlo.TRef.nullary main_call0.cst_0 (constant S_ .f32 0xFF800000#32),
    StableHlo.TRef.unary main_call0.cst_0 main_call0.v1 (broadcastInDim S8x512 ![] bcast_S_S8x512),
    StableHlo.TRef.binary main_call0.v1 main_call0.v0 main_call0.v2 maximumf,
    StableHlo.TRef.unary main_call0.v2 main_call0.v3 (broadcastInDim S8x512x1 ![0, 1] bcast_S8x512_S8x512x1_0_1),
    StableHlo.TRef.unary main_call0.v3 main_call0.v4 (broadcastInDim S8x512x32000 ![0, 1, 2] bcast_S8x512x1_S8x512x32000_0_1_2),
    StableHlo.TRef.binary (.of main_v0 : StableHlo.TRef sig ⟨S8x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8x512x32000_S8x512_d2 h_S_),
    StableHlo.TRef.unary main_call0.v7 main_call0.v8 (broadcastInDim S8x512x1 ![0, 1] bcast_S8x512_S8x512x1_0_1),
    StableHlo.TRef.unary main_call0.v8 main_call0.v9 Host.log,
    StableHlo.TRef.unary main_call0.v9 main_call0.v10 (broadcastInDim S8x512x32000 ![0, 1, 2] bcast_S8x512x1_S8x512x32000_0_1_2),
    StableHlo.TRef.binary main_call0.v5 main_call0.v10 main_call0.v11 subf,
    StableHlo.nullary main_c (constantI S_ 32 4294967196#32),
    StableHlo.unary main_c main_v2 (broadcastInDim S8x512 ![] bcast_S_S8x512 : (⟨S_, .i32⟩ : BufTy).Contents (Elt F) → (⟨S8x512, .i32⟩ : BufTy).Contents (Elt F)),
    StableHlo.binary main_arg1 main_v2 main_v3 (cmpi .ne : (⟨S8x512, .i32⟩ : BufTy).Contents (Elt F) → (⟨S8x512, .i32⟩ : BufTy).Contents (Elt F) → (⟨S8x512, .i1⟩ : BufTy).Contents (Elt F)),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S8x512 ![] bcast_S_S8x512),
    StableHlo.TRef.ternary (.of main_v3 : StableHlo.TRef sig ⟨S8x512, .i1⟩) (.of main_arg1 : StableHlo.TRef sig ⟨S8x512, .i32⟩) main_call1.v1 main_call1.v2 select,
    StableHlo.unary main_v4 main_v5 (broadcastInDim S8x512x1 ![0, 1] bcast_S8x512_S8x512x1_0_1 : (⟨S8x512, .i32⟩ : BufTy).Contents (Elt F) → (⟨S8x512x1, .i32⟩ : BufTy).Contents (Elt F)),
    StableHlo.TRef.nullary main_call2.c (constantI S_ 32 0#32),
    StableHlo.TRef.unary main_call2.c main_call2.v0 (broadcastInDim S8x512x1 ![] bcast_S_S8x512x1),
    StableHlo.TRef.binary (.of main_v5 : StableHlo.TRef sig ⟨S8x512x1, .i32⟩) main_call2.v0 main_call2.v1 (cmpi .slt),
    StableHlo.TRef.nullary main_call2.c_0 (constantI S_ 32 32000#32),
    StableHlo.TRef.unary main_call2.c_0 main_call2.v2 (broadcastInDim S8x512x1 ![] bcast_S_S8x512x1),
    StableHlo.TRef.binary (.of main_v5 : StableHlo.TRef sig ⟨S8x512x1, .i32⟩) main_call2.v2 main_call2.v3 addi,
    StableHlo.TRef.ternary main_call2.v1 main_call2.v3 (.of main_v5 : StableHlo.TRef sig ⟨S8x512x1, .i32⟩) main_call2.v4 select,
    StableHlo.TRef.reshape main_call2.v4 main_call2.v5 rfl shapeCasts_S8x512x1_S8x512x1x1,
    StableHlo.TRef.nullary main_call2.c_1 (constantI S1 32 31999#32),
    StableHlo.TRef.nullary main_call2.c_2 (constantI S_ 32 0#32),
    StableHlo.TRef.unary main_call2.c_2 main_call2.v6 (broadcastInDim S8x512x1x1 ![] bcast_S_S8x512x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S8x512x1x1 ![0, 1, 2, 3] bcast_S1x1x1x1_S8x512x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8x512x1x1_S8x512x1_d3 h_S_),
    StableHlo.TRef.binary (.of main_v1 : StableHlo.TRef sig ⟨S8x512x32000, .f32⟩) main_call2.v5 main_call2.v13 (fun x i => Host.gather gather_S8x512x32000_S8x512x1x1_S8x512x1_n_2_01_01_2_3_111 x i),
    StableHlo.TRef.nullary main_call2.cst (constant S_ .f32 0x7FC00000#32),
    StableHlo.TRef.unary main_call2.cst main_call2.v14 (broadcastInDim S8x512x1 ![] bcast_S_S8x512x1),
    StableHlo.TRef.ternary main_call2.v12 main_call2.v13 main_call2.v14 main_call2.v15 select,
    StableHlo.reshape main_v6 main_v7 rfl shapeCasts_S8x512x1_S8x512 ]

/-- @main's remaining 72 operations: the masked sums, the slices, the mean over the first four sequences, the two
    log_sigmoid calls (three operations each around softplus's fourteen) and the closing arithmetic. -/
abbrev opsB : List (HloOp τ sig (Elt F)) :=
  [ StableHlo.unary main_v3 main_v8 (uitofp .f32 : (⟨S8x512, .i1⟩ : BufTy).Contents (Elt F) → (⟨S8x512, .f32⟩ : BufTy).Contents (Elt F)),
    StableHlo.binary main_v7 main_v8 main_v9 (mulf : (⟨S8x512, .f32⟩ : BufTy).Contents (Elt F) → (⟨S8x512, .f32⟩ : BufTy).Contents (Elt F) → (⟨S8x512, .f32⟩ : BufTy).Contents (Elt F)),
    StableHlo.nullary main_cst (constant S_ .f32 0x00000000#32),
    StableHlo.binary main_v9 main_cst main_v10 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.unary main_v10 main_v11 ((extractStridedSlice S4 ![0] · slices_S8_S4_0) : (⟨S8, .f32⟩ : BufTy).Contents (Elt F) → (⟨S4, .f32⟩ : BufTy).Contents (Elt F)),
    StableHlo.unary main_v10 main_v12 ((extractStridedSlice S4 ![4] · slices_S8_S4_4) : (⟨S8, .f32⟩ : BufTy).Contents (Elt F) → (⟨S4, .f32⟩ : BufTy).Contents (Elt F)),
    StableHlo.unary main_v3 main_v13 ((extractStridedSlice S4x512 ![0, 0] · slices_S8x512_S4x512_0_0) : (⟨S8x512, .i1⟩ : BufTy).Contents (Elt F) → (⟨S4x512, .i1⟩ : BufTy).Contents (Elt F)),
    StableHlo.unary main_v7 main_v14 ((extractStridedSlice S4x512 ![0, 0] · slices_S8x512_S4x512_0_0) : (⟨S8x512, .f32⟩ : BufTy).Contents (Elt F) → (⟨S4x512, .f32⟩ : BufTy).Contents (Elt F)),
    StableHlo.unary main_v14 main_v15 (Host.negf : (⟨S4x512, .f32⟩ : BufTy).Contents (Elt F) → (⟨S4x512, .f32⟩ : BufTy).Contents (Elt F)),
    StableHlo.unary main_v13 main_v16 (uitofp .f32 : (⟨S4x512, .i1⟩ : BufTy).Contents (Elt F) → (⟨S4x512, .f32⟩ : BufTy).Contents (Elt F)),
    StableHlo.binary main_v15 main_v16 main_v17 (mulf : (⟨S4x512, .f32⟩ : BufTy).Contents (Elt F) → (⟨S4x512, .f32⟩ : BufTy).Contents (Elt F) → (⟨S4x512, .f32⟩ : BufTy).Contents (Elt F)),
    StableHlo.nullary main_cst_1 (constant S_ .f32 0x00000000#32),
    StableHlo.binary main_v17 main_cst_1 main_v18 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.unary main_v13 main_v19 ((extui 32 · natLt_1_32) : (⟨S4x512, .i1⟩ : BufTy).Contents (Elt F) → (⟨S4x512, .i32⟩ : BufTy).Contents (Elt F)),
    StableHlo.nullary main_c_2 (constantI S_ 32 0#32),
    StableHlo.binary main_v19 main_c_2 main_v20 ((fun x v => Host.reduce IntOp.addi x v reducesTo_S4x512_S_d0_1 h_S_) : (⟨S4x512, .i32⟩ : BufTy).Contents (Elt F) → (⟨S_, .i32⟩ : BufTy).Contents (Elt F) → (⟨S_, .i32⟩ : BufTy).Contents (Elt F)),
    StableHlo.unary main_v20 main_v21 (sitofp .f32 : (⟨S_, .i32⟩ : BufTy).Contents (Elt F) → (⟨S_, .f32⟩ : BufTy).Contents (Elt F)),
    StableHlo.binary main_v18 main_v21 main_v22 (Host.divf : (⟨S_, .f32⟩ : BufTy).Contents (Elt F) → (⟨S_, .f32⟩ : BufTy).Contents (Elt F) → (⟨S_, .f32⟩ : BufTy).Contents (Elt F)),
    StableHlo.binary main_v11 main_v12 main_v23 (subf : (⟨S4, .f32⟩ : BufTy).Contents (Elt F) → (⟨S4, .f32⟩ : BufTy).Contents (Elt F) → (⟨S4, .f32⟩ : BufTy).Contents (Elt F)),
    StableHlo.nullary main_cst_3 (constant S_ .f32 0x3DCCCCCD#32),
    StableHlo.unary main_cst_3 main_v24 (broadcastInDim S4 ![] bcast_S_S4 : (⟨S_, .f32⟩ : BufTy).Contents (Elt F) → (⟨S4, .f32⟩ : BufTy).Contents (Elt F)),
    StableHlo.binary main_v24 main_v23 main_v25 (mulf : (⟨S4, .f32⟩ : BufTy).Contents (Elt F) → (⟨S4, .f32⟩ : BufTy).Contents (Elt F) → (⟨S4, .f32⟩ : BufTy).Contents (Elt F)),
    StableHlo.TRef.unary (.of main_v25 : StableHlo.TRef sig ⟨S4, .f32⟩) main_call3.v0 Host.negf,
    StableHlo.TRef.nullary main_call3.call0.cst (constant S_ .f32 0x00000000#32),
    StableHlo.TRef.unary main_call3.call0.cst main_call3.call0.v0 (broadcastInDim S4 ![] bcast_S_S4),
    StableHlo.TRef.binary main_call3.v0 main_call3.call0.v0 main_call3.call0.v1 maximumf,
    StableHlo.TRef.unary main_call3.call0.cst main_call3.call0.v2 (broadcastInDim S4 ![] bcast_S_S4),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S4 ![] bcast_S_S4),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.unary main_v26 main_v27 (Host.negf : (⟨S4, .f32⟩ : BufTy).Contents (Elt F) → (⟨S4, .f32⟩ : BufTy).Contents (Elt F)),
    StableHlo.nullary main_cst_4 (constant S_ .f32 0x3F800000#32),
    StableHlo.unary main_cst_4 main_v28 (broadcastInDim S4 ![] bcast_S_S4 : (⟨S_, .f32⟩ : BufTy).Contents (Elt F) → (⟨S4, .f32⟩ : BufTy).Contents (Elt F)),
    StableHlo.binary main_v27 main_v28 main_v29 (mulf : (⟨S4, .f32⟩ : BufTy).Contents (Elt F) → (⟨S4, .f32⟩ : BufTy).Contents (Elt F) → (⟨S4, .f32⟩ : BufTy).Contents (Elt F)),
    StableHlo.nullary main_cst_5 (constant S_ .f32 0xBDCCCCCD#32),
    StableHlo.unary main_cst_5 main_v30 (broadcastInDim S4 ![] bcast_S_S4 : (⟨S_, .f32⟩ : BufTy).Contents (Elt F) → (⟨S4, .f32⟩ : BufTy).Contents (Elt F)),
    StableHlo.binary main_v30 main_v23 main_v31 (mulf : (⟨S4, .f32⟩ : BufTy).Contents (Elt F) → (⟨S4, .f32⟩ : BufTy).Contents (Elt F) → (⟨S4, .f32⟩ : BufTy).Contents (Elt F)),
    StableHlo.TRef.unary (.of main_v31 : StableHlo.TRef sig ⟨S4, .f32⟩) main_call4.v0 Host.negf,
    StableHlo.TRef.nullary main_call4.call0.cst (constant S_ .f32 0x00000000#32),
    StableHlo.TRef.unary main_call4.call0.cst main_call4.call0.v0 (broadcastInDim S4 ![] bcast_S_S4),
    StableHlo.TRef.binary main_call4.v0 main_call4.call0.v0 main_call4.call0.v1 maximumf,
    StableHlo.TRef.unary main_call4.call0.cst main_call4.call0.v2 (broadcastInDim S4 ![] bcast_S_S4),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S4 ![] bcast_S_S4),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.nullary main_cst_6 (constant S_ .f32 0x00000000#32),
    StableHlo.unary main_cst_6 main_v33 (broadcastInDim S4 ![] bcast_S_S4 : (⟨S_, .f32⟩ : BufTy).Contents (Elt F) → (⟨S4, .f32⟩ : BufTy).Contents (Elt F)),
    StableHlo.binary main_v32 main_v33 main_v34 (mulf : (⟨S4, .f32⟩ : BufTy).Contents (Elt F) → (⟨S4, .f32⟩ : BufTy).Contents (Elt F) → (⟨S4, .f32⟩ : BufTy).Contents (Elt F)),
    StableHlo.binary main_v29 main_v34 main_v35 (subf : (⟨S4, .f32⟩ : BufTy).Contents (Elt F) → (⟨S4, .f32⟩ : BufTy).Contents (Elt F) → (⟨S4, .f32⟩ : BufTy).Contents (Elt F)),
    StableHlo.nullary main_cst_7 (constant S_ .f32 0x3F800000#32),
    StableHlo.binary main_v22 main_cst_7 main_v36 (mulf : (⟨S_, .f32⟩ : BufTy).Contents (Elt F) → (⟨S_, .f32⟩ : BufTy).Contents (Elt F) → (⟨S_, .f32⟩ : BufTy).Contents (Elt F)),
    StableHlo.nullary main_cst_8 (constant S_ .f32 0x00000000#32),
    StableHlo.binary main_v35 main_cst_8 main_v37 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_9 (constant S_ .f32 0x40800000#32),
    StableHlo.binary main_v37 main_cst_9 main_v38 (Host.divf : (⟨S_, .f32⟩ : BufTy).Contents (Elt F) → (⟨S_, .f32⟩ : BufTy).Contents (Elt F) → (⟨S_, .f32⟩ : BufTy).Contents (Elt F)),
    StableHlo.binary main_v36 main_v38 main_v39 (addf : (⟨S_, .f32⟩ : BufTy).Contents (Elt F) → (⟨S_, .f32⟩ : BufTy).Contents (Elt F) → (⟨S_, .f32⟩ : BufTy).Contents (Elt F)) ]

/-- @main's 119 operations in order. -/
abbrev ops : List (HloOp τ sig (Elt F)) := opsA ++ opsB

set_option maxRecDepth 8192 in
set_option maxHeartbeats 4000000 in
/-- @main is that straight line: each call unfolds to its body over the call's buffers, and sequencing a
    line after a line is the one line, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., unary_bufs_sub ..,
    binary_bufs_sub .., nullary_bufs_sub .., binary_bufs_sub .., unary_bufs_sub .., unary_bufs_sub .., unary_bufs_sub ..,
    unary_bufs_sub .., unary_bufs_sub .., unary_bufs_sub .., binary_bufs_sub .., nullary_bufs_sub .., binary_bufs_sub ..,
    unary_bufs_sub .., nullary_bufs_sub .., binary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., unary_bufs_sub .., nullary_bufs_sub .., unary_bufs_sub .., binary_bufs_sub .., nullary_bufs_sub ..,
    unary_bufs_sub .., binary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    nullary_bufs_sub .., unary_bufs_sub .., binary_bufs_sub .., binary_bufs_sub .., nullary_bufs_sub .., binary_bufs_sub ..,
    nullary_bufs_sub .., binary_bufs_sub .., nullary_bufs_sub .., binary_bufs_sub .., binary_bufs_sub ..⟩

/-- The contents after one line then another are the second's after the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- `cast` along a proof of `α = α` is the identity, as a propositional rewrite: a rewrite by it is checked by its
    types alone, where the definitional form would have the two sides of the final comparison differ by a cast. -/
theorem cast_eq' {α : Sort _} (h : α = α) (a : α) : cast h a = a := eq_of_heq (cast_heq h a)

set_option maxRecDepth 16384 in
set_option maxHeartbeats 1000000 in
/-- After the first line the per-token buffer holds `refPtlTerm` of the arguments' contents: each operation's result
    read at its own buffer is its function of its operands' contents, at any other buffer what was there; the typed
    references' casts, the identity at these literal references, are rewritten away; what is left is `refPtlTerm`'s
    chain of `let`s unfolded, operation for operation. -/
theorem ptl_eq (V : Valuation τ sig (Elt F)) :
    after opsA V (main_v7 : DevRef τ sig)
      = refPtlTerm (V (main_arg0 : DevRef τ sig)) (V (main_arg1 : DevRef τ sig)) (V (main_arg2 : DevRef τ sig)) := by
  after_results_simp
  simp only [TRef.ofBuf, TRef.toBuf, cast_eq']
  rfl

set_option maxRecDepth 16384 in
set_option maxHeartbeats 4000000 in
/-- After the first line the mask buffer holds `refMask` of the labels. -/
theorem mask_eq (V : Valuation τ sig (Elt F)) :
    after opsA V (main_v3 : DevRef τ sig) = refMask (V (main_arg1 : DevRef τ sig)) := by
  simp only [after_cons, after_nil]
  rfl

attribute [local irreducible] Host.reduce Host.reduceAdd in
set_option maxRecDepth 16384 in
set_option maxHeartbeats 4000000 in
/-- After the second line the result buffer holds `refRest` of the per-token buffer's and the mask buffer's
    contents before it, by computation: the fold unrolled, each operation's result decides whether the buffer read is
    the one it writes. The reductions stay folded throughout. -/
theorem rest_eq (W : Valuation τ sig (Elt F)) :
    after opsB W (main_v39 : DevRef τ sig) = refRest (W (main_v7 : DevRef τ sig)) (W (main_v3 : DevRef τ sig)) := by
  simp only [after_cons, after_nil]
  rfl

/-- The fold at the result buffer is `refOut` of the arguments' contents. -/
theorem out_eq (V : Valuation τ sig (Elt F)) :
    after ops V (main_v39 : DevRef τ sig)
      = refOut (V (main_arg0 : DevRef τ sig)) (V (main_arg1 : DevRef τ sig)) (V (main_arg2 : DevRef τ sig)) := by
  rw [show (ops : List (HloOp τ sig (Elt F))) = opsA ++ opsB from rfl, after_append, rest_eq, ptl_eq, mask_eq]
  rfl

set_option maxRecDepth 16384 in
set_option maxHeartbeats 4000000 in
theorem arg0_eqA (V : Valuation τ sig (Elt F)) :
    after opsA V (main_arg0 : DevRef τ sig) = V (main_arg0 : DevRef τ sig) := by
  simp only [after_cons, after_nil]
  rfl

set_option maxRecDepth 16384 in
set_option maxHeartbeats 4000000 in
theorem arg0_eqB (W : Valuation τ sig (Elt F)) :
    after opsB W (main_arg0 : DevRef τ sig) = W (main_arg0 : DevRef τ sig) := by
  simp only [after_cons, after_nil]
  rfl

/-- No operation writes argument 0's buffer. -/
theorem arg0_eq (V : Valuation τ sig (Elt F)) :
    after ops V (main_arg0 : DevRef τ sig) = V (main_arg0 : DevRef τ sig) := by
  rw [show (ops : List (HloOp τ sig (Elt F))) = opsA ++ opsB from rfl, after_append, arg0_eqB, arg0_eqA]

set_option maxRecDepth 16384 in
set_option maxHeartbeats 4000000 in
theorem arg1_eqA (V : Valuation τ sig (Elt F)) :
    after opsA V (main_arg1 : DevRef τ sig) = V (main_arg1 : DevRef τ sig) := by
  simp only [after_cons, after_nil]
  rfl

set_option maxRecDepth 16384 in
set_option maxHeartbeats 4000000 in
theorem arg1_eqB (W : Valuation τ sig (Elt F)) :
    after opsB W (main_arg1 : DevRef τ sig) = W (main_arg1 : DevRef τ sig) := by
  simp only [after_cons, after_nil]
  rfl

/-- No operation writes argument 1's buffer. -/
theorem arg1_eq (V : Valuation τ sig (Elt F)) :
    after ops V (main_arg1 : DevRef τ sig) = V (main_arg1 : DevRef τ sig) := by
  rw [show (ops : List (HloOp τ sig (Elt F))) = opsA ++ opsB from rfl, after_append, arg1_eqB, arg1_eqA]

set_option maxRecDepth 16384 in
set_option maxHeartbeats 4000000 in
theorem arg2_eqA (V : Valuation τ sig (Elt F)) :
    after opsA V (main_arg2 : DevRef τ sig) = V (main_arg2 : DevRef τ sig) := by
  simp only [after_cons, after_nil]
  rfl

set_option maxRecDepth 16384 in
set_option maxHeartbeats 4000000 in
theorem arg2_eqB (W : Valuation τ sig (Elt F)) :
    after opsB W (main_arg2 : DevRef τ sig) = W (main_arg2 : DevRef τ sig) := by
  simp only [after_cons, after_nil]
  rfl

/-- No operation writes argument 2's buffer. -/
theorem arg2_eq (V : Valuation τ sig (Elt F)) :
    after ops V (main_arg2 : DevRef τ sig) = V (main_arg2 : DevRef τ sig) := by
  rw [show (ops : List (HloOp τ sig (Elt F))) = opsA ++ opsB from rfl, after_append, arg2_eqB, arg2_eqA]

set_option maxRecDepth 16384 in
set_option maxHeartbeats 4000000 in
/-- On the device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v39).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Hand

end
-- ==== Proof.RefTail.lean ====
/-
  The reference's closing arithmetic is the shared chain of the specification: the same operations in the same order,
  dividing the chosen half's negated masked sum by the count of its labels that are not ignored.
-/
import proofs.«418224_j48859547959893_3_alg».proof.Proof.RefTerm
import proofs.«418224_j48859547959893_3_alg».proof.Proof.Spec

noncomputable section

namespace Cert.ReferenceIdeal.Tail

open Cert.ReferenceIdeal Cert.ReferenceIdeal.Gen Idealize.ShloMosaic

variable {F : FTy → Type} [FloatOps F]

/-- The shape relations of the closing arithmetic, from the reference program's stated facts. -/
theorem hf : Cert.Spec.TailFacts :=
  ⟨bcast_S_S8x512, reducesTo_S8x512_S8_d1, h_S_, slices_S8_S4_0, slices_S8_S4_4, slices_S8x512_S4x512_0_0,
    reducesTo_S4x512_S_d0_1, natLt_1_32, bcast_S_S4, reducesTo_S4_S_d0⟩

/-- The reference's label mask is the specification's. -/
theorem refMask_eq (y : IVec S8x512 32) : Hand.refMask y = Cert.Spec.maskOf hf y := rfl

/-- The reference's operations after the per-token array are the specification's chain at the plain count. -/
theorem refRest_eq (p : FVec F S8x512 .f32) (mask : IVec S8x512 1) :
    Hand.refRest (F := F) p mask = Cert.Spec.tailFn hf p mask (Cert.Spec.cntOf hf mask) := rfl

end Cert.ReferenceIdeal.Tail

end
-- ==== Proof.RefRead.lean ====
/-
  The reference's per-token array read at an index: at token (b, t) it is the log-softmax of row 512·b + t of the
  product x · Wᵀ, taken at the token's safe label.
-/
import proofs.«418224_j48859547959893_3_alg».proof.Proof.RefTerm
import proofs.«418224_j48859547959893_3_alg».proof.Proof.Spec
import proofs.«418224_j48859547959893_3_alg».proof.Proof.Algebra
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic.ValueIdx

/-! ## The layout operations read at coordinates -/

section Layout
variable {α : Type}

/-- A scalar broadcast to any shape reads the scalar. -/
theorem bcast_0_apply {T : Shape} (dims : Fin S_.rank → Fin T.rank) (h : S_.BroadcastsInDim T dims)
    (A : S_.Idx → α) (j : T.Idx) : broadcastInDim T dims h A j = A ix0 := by
  unfold broadcastInDim; exact congrArg A (funext fun a => a.elim0)

/-- [8,512] → [8,512,1] along the first two axes reads (b, t). -/
theorem bcast_23_apply (dims : Fin S8x512.rank → Fin S8x512x1.rank) (h : S8x512.BroadcastsInDim S8x512x1 dims)
    (hd : dims = ![0, 1]) (A : S8x512.Idx → α) (b : Fin 8) (t : Fin 512) (z : Fin 1) :
    broadcastInDim S8x512x1 dims h A (ix3 b t z) = A (ix2 b t) := by
  subst hd
  exact broadcastInDim_apply _ _ _ _ (ix2 b t) (fun a => match a with | ⟨0, _⟩ => rfl | ⟨1, _⟩ => rfl)

/-- [8,512,1] → [8,512,32000] reads (b, t, 0). -/
theorem bcast_33_apply (dims : Fin S8x512x1.rank → Fin S8x512x32000.rank) (h : S8x512x1.BroadcastsInDim S8x512x32000 dims)
    (hd : dims = ![0, 1, 2]) (A : S8x512x1.Idx → α) (b : Fin 8) (t : Fin 512) (v : Fin 32000) :
    broadcastInDim S8x512x32000 dims h A (ix3 b t v) = A (ix3 b t 0) := by
  subst hd
  exact broadcastInDim_apply _ _ _ _ (ix3 b t 0) (fun a => match a with | ⟨0, _⟩ => rfl | ⟨1, _⟩ => rfl | ⟨2, _⟩ => rfl)

/-- A constant [1] array broadcast to [1,1,1,1] and then to [8,512,1,1] reads the constant. -/
theorem bcast_const_apply (dims₁ : Fin S1.rank → Fin S1x1x1x1.rank) (h₁ : S1.BroadcastsInDim S1x1x1x1 dims₁)
    (dims₂ : Fin S1x1x1x1.rank → Fin S8x512x1x1.rank) (h₂ : S1x1x1x1.BroadcastsInDim S8x512x1x1 dims₂)
    (c : BitVec 32) (j : S8x512x1x1.Idx) :
    broadcastInDim S8x512x1x1 dims₂ h₂ (broadcastInDim S1x1x1x1 dims₁ h₁ (constantI S1 32 c)) j = c := rfl

/-- [8,512,1] → [8,512,1,1] reads (b, t, z). -/
theorem cast_34_apply (A : S8x512x1.Idx → α) (b : Fin 8) (t : Fin 512) (z w : Fin 1) :
    shapeCast S8x512x1x1 A shapeCasts_S8x512x1_S8x512x1x1 (ix4 b t z w) = A (ix3 b t z) :=
  shapeCast_apply _ _ _ (ix3 b t z) (by
    rw [Shape.rowMajor_val_three, Shape.rowMajor_val_four]
    show (b.val * 512 + t.val) * 1 + z.val = ((b.val * 512 + t.val) * 1 + z.val) * 1 + w.val
    omega)

/-- [8,512,1] → [8,512] reads (b, t, 0). -/
theorem cast_32_apply (A : S8x512x1.Idx → α) (b : Fin 8) (t : Fin 512) :
    shapeCast S8x512 A shapeCasts_S8x512x1_S8x512 (ix2 b t) = A (ix3 b t 0) :=
  shapeCast_apply _ _ _ (ix3 b t 0) (by
    rw [Shape.rowMajor_val_three, Shape.rowMajor_val_two]
    show (b.val * 512 + t.val) * 1 + 0 = b.val * 512 + t.val
    omega)

end Layout

/-! ## The contraction read at coordinates -/

theorem lhs_dot_0 (i : S8x512x32000.Idx) (q : dot_S8x512x4096_S32000x4096_S8x512x32000_2_1_01_0_n_n.contr.Idx) :
    (dot_S8x512x4096_S32000x4096_S8x512x32000_2_1_01_0_n_n.lhsIdx i q 0).val = (i 0).val := by
  unfold DotDims.lhsIdx
  rw [dif_neg (show ¬(0 : Fin S8x512x4096.rank) ∈ dot_S8x512x4096_S32000x4096_S8x512x32000_2_1_01_0_n_n.lhsBatch by decide), dif_pos (show (0 : Fin S8x512x4096.rank) ∈ dot_S8x512x4096_S32000x4096_S8x512x32000_2_1_01_0_n_n.lhsNonContracting by decide)]
  rfl

theorem lhs_dot_1 (i : S8x512x32000.Idx) (q : dot_S8x512x4096_S32000x4096_S8x512x32000_2_1_01_0_n_n.contr.Idx) :
    (dot_S8x512x4096_S32000x4096_S8x512x32000_2_1_01_0_n_n.lhsIdx i q 1).val = (i 1).val := by
  unfold DotDims.lhsIdx
  rw [dif_neg (show ¬(1 : Fin S8x512x4096.rank) ∈ dot_S8x512x4096_S32000x4096_S8x512x32000_2_1_01_0_n_n.lhsBatch by decide), dif_pos (show (1 : Fin S8x512x4096.rank) ∈ dot_S8x512x4096_S32000x4096_S8x512x32000_2_1_01_0_n_n.lhsNonContracting by decide)]
  rfl

theorem lhs_dot_2 (i : S8x512x32000.Idx) (q : dot_S8x512x4096_S32000x4096_S8x512x32000_2_1_01_0_n_n.contr.Idx) :
    (dot_S8x512x4096_S32000x4096_S8x512x32000_2_1_01_0_n_n.lhsIdx i q 2).val = (q ⟨0, by decide⟩).val :=
  dot_S8x512x4096_S32000x4096_S8x512x32000_2_1_01_0_n_n.lhsIdx_val_of_single rfl i q

theorem rhs_dot_0 (i : S8x512x32000.Idx) (q : dot_S8x512x4096_S32000x4096_S8x512x32000_2_1_01_0_n_n.contr.Idx) :
    (dot_S8x512x4096_S32000x4096_S8x512x32000_2_1_01_0_n_n.rhsIdx i q 0).val = (i 2).val := by
  unfold DotDims.rhsIdx
  rw [dif_neg (show ¬(0 : Fin S32000x4096.rank) ∈ dot_S8x512x4096_S32000x4096_S8x512x32000_2_1_01_0_n_n.rhsBatch by decide), dif_pos (show (0 : Fin S32000x4096.rank) ∈ dot_S8x512x4096_S32000x4096_S8x512x32000_2_1_01_0_n_n.rhsNonContracting by decide)]
  rfl

theorem rhs_dot_1 (i : S8x512x32000.Idx) (q : dot_S8x512x4096_S32000x4096_S8x512x32000_2_1_01_0_n_n.contr.Idx) :
    (dot_S8x512x4096_S32000x4096_S8x512x32000_2_1_01_0_n_n.rhsIdx i q 1).val = (q ⟨0, by decide⟩).val :=
  dot_S8x512x4096_S32000x4096_S8x512x32000_2_1_01_0_n_n.rhsIdx_val_of_single rfl i q

/-- The product x · Wᵀ at (b, t, v) is Σ_h x[b, t, h] · W[v, h]. -/
theorem dot_apply (x : FVec Ideal S8x512x4096 .f32) (W : FVec Ideal S32000x4096 .f32) (b : Fin 8) (t : Fin 512) (v : Fin 32000) :
    Host.dotGeneral (F := Ideal) dot_S8x512x4096_S32000x4096_S8x512x32000_2_1_01_0_n_n none x W (ix3 b t v)
      = ∑ h : Fin 4096, x (ix3 b t h) * W (ix2 v h) := by
  simp only [Host.dotGeneral]
  rw [Ideal.dotGeneral_apply, ← Equiv.sum_comp (ValueIdx.contrEquiv1 dot_S8x512x4096_S32000x4096_S8x512x32000_2_1_01_0_n_n 4096 rfl rfl).symm]
  refine Finset.sum_congr rfl fun k _ => ?_
  have hk := ValueIdx.contrEquiv1_symm_val dot_S8x512x4096_S32000x4096_S8x512x32000_2_1_01_0_n_n 4096 rfl rfl k
  have el : dot_S8x512x4096_S32000x4096_S8x512x32000_2_1_01_0_n_n.lhsIdx (ix3 b t v) ((ValueIdx.contrEquiv1 dot_S8x512x4096_S32000x4096_S8x512x32000_2_1_01_0_n_n 4096 rfl rfl).symm k) = ix3 b t k := funext fun a => Fin.ext (by
    match a with
    | ⟨0, _⟩ => exact lhs_dot_0 _ _
    | ⟨1, _⟩ => exact lhs_dot_1 _ _
    | ⟨2, _⟩ => exact (lhs_dot_2 _ _).trans hk)
  have er : dot_S8x512x4096_S32000x4096_S8x512x32000_2_1_01_0_n_n.rhsIdx (ix3 b t v) ((ValueIdx.contrEquiv1 dot_S8x512x4096_S32000x4096_S8x512x32000_2_1_01_0_n_n 4096 rfl rfl).symm k) = ix2 v k := funext fun a => Fin.ext (by
    match a with
    | ⟨0, _⟩ => exact rhs_dot_0 _ _
    | ⟨1, _⟩ => exact (rhs_dot_1 _ _).trans hk)
  rw [el, er]

/-! ## The reductions read at coordinates -/

/-- The f32 pattern of −∞. -/
theorem ofBits_neg_inf_f32 : Ideal.ofBits .f32 0xFF800000#32 = ⊥ := by simp [Ideal.ofBits, Ideal.ieee]

theorem reduces_vocab : S8x512x32000.Reduces [2] S8x512 := by decide

theorem lift_vocab (b : Fin 8) (t : Fin 512) (v : Fin 32000) : reduces_vocab.lift (ix2 b t) v = ix3 b t v :=
  funext fun a => Fin.ext (by match a with | ⟨0, _⟩ => rfl | ⟨1, _⟩ => rfl | ⟨2, _⟩ => rfl)

/-- The maximum over the vocabulary axis, from −∞, at (b, t) is the supremum of the row. -/
theorem rowmax_apply (A : FVec Ideal S8x512x32000 .f32) (b : Fin 8) (t : Fin 512) :
    Host.reduce (FloatOps.maximumf (F := Ideal) (φ := .f32)) A (constant (F := Ideal) S_ .f32 0xFF800000#32)
        reducesTo_S8x512x32000_S8x512_d2 h_S_ (ix2 b t)
      = Finset.univ.sup (fun v : Fin 32000 => A (ix3 b t v)) := by
  rw [Host.reduce_eq_fold_single _ _ _ _ reduces_vocab]
  show (Finset.univ : Finset (Fin 32000)).fold max (Ideal.ofBits .f32 0xFF800000#32) (A ∘ reduces_vocab.lift (ix2 b t)) = _
  rw [ofBits_neg_inf_f32, show (A ∘ reduces_vocab.lift (ix2 b t)) = (fun v : Fin 32000 => A (ix3 b t v)) from
    funext fun v => congrArg A (lift_vocab b t v)]
  rfl

/-- The sum over the vocabulary axis, from 0, at (b, t). -/
theorem rowsum_apply (A : FVec Ideal S8x512x32000 .f32) (b : Fin 8) (t : Fin 512) :
    Host.reduceAdd (F := Ideal) A (constant (F := Ideal) S_ .f32 0x00000000#32) reducesTo_S8x512x32000_S8x512_d2 h_S_ (ix2 b t)
      = ∑ v : Fin 32000, A (ix3 b t v) := by
  rw [hostReduceAdd_apply, Ideal.hostReduceAdd_single _ reduces_vocab]
  show Ideal.ofBits .f32 0x00000000#32 + ∑ k : Fin 32000, A (reduces_vocab.lift (ix2 b t) k) = _
  rw [Ideal.ofBits_zero_f32, zero_add]
  exact Finset.sum_congr rfl fun v _ => congrArg A (lift_vocab b t v)

theorem reduces_unit : S8x512x1x1.Reduces [3] S8x512x1 := by decide

theorem lift_unit (b : Fin 8) (t : Fin 512) (z w : Fin 1) : reduces_unit.lift (ix3 b t z) w = ix4 b t z w :=
  funext fun a => Fin.ext (by match a with | ⟨0, _⟩ => rfl | ⟨1, _⟩ => rfl | ⟨2, _⟩ => rfl | ⟨3, _⟩ => rfl)

/-- The conjunction over a unit axis, from 1, reads the one entry. -/
theorem andred_apply (A : IVec S8x512x1x1 1) (b : Fin 8) (t : Fin 512) (z : Fin 1) :
    Host.reduce IntOp.andi A (constantI S_ 1 1#1) reducesTo_S8x512x1x1_S8x512x1_d3 h_S_ (ix3 b t z) = A (ix4 b t z 0) := by
  rw [Host.reduce_eq_fold_single _ _ _ _ reduces_unit,
    show (Finset.univ : Finset (Fin (S8x512x1x1.size 3))) = {(⟨0, by decide⟩ : Fin (S8x512x1x1.size 3))} from by decide,
    Finset.fold_singleton]
  have e : (A ∘ reduces_unit.lift (ix3 b t z)) (⟨0, by decide⟩ : Fin (S8x512x1x1.size 3)) = A (ix4 b t z 0) :=
    congrArg A (lift_unit b t z 0)
  rw [e]
  generalize A (ix4 b t z 0) = a
  revert a; decide

/-! ## The gather read at coordinates -/

theorem gather_axis_0 (j : S8x512x1.Idx) (idx : IVec S8x512x1x1 32) :
    gather_S8x512x32000_S8x512x1x1_S8x512x1_n_2_01_01_2_3_111.start j idx 0 + gather_S8x512x32000_S8x512x1x1_S8x512x1_n_2_01_01_2_3_111.batchCoord j 0 + gather_S8x512x32000_S8x512x1x1_S8x512x1_n_2_01_01_2_3_111.offCoord j 0 = (j 0).val := by
  rw [GatherDims.start_batching _ _ _ _ (show (0 : Fin S8x512x32000.rank) ∈ gather_S8x512x32000_S8x512x1x1_S8x512x1_n_2_01_01_2_3_111.operandBatchingDims by decide),
    GatherDims.offCoord_eq_zero _ _ _ (fun h => ((GatherDims.mem_sKept _ _).mp h).2
      (show (0 : Fin S8x512x32000.rank) ∈ gather_S8x512x32000_S8x512x1x1_S8x512x1_n_2_01_01_2_3_111.operandBatchingDims by decide))]
  unfold GatherDims.batchCoord
  rw [dif_pos (show (0 : Fin S8x512x32000.rank) ∈ gather_S8x512x32000_S8x512x1x1_S8x512x1_n_2_01_01_2_3_111.operandBatchingDims by decide)]
  simp only [Nat.zero_add, Nat.add_zero]
  rfl

theorem gather_axis_1 (j : S8x512x1.Idx) (idx : IVec S8x512x1x1 32) :
    gather_S8x512x32000_S8x512x1x1_S8x512x1_n_2_01_01_2_3_111.start j idx 1 + gather_S8x512x32000_S8x512x1x1_S8x512x1_n_2_01_01_2_3_111.batchCoord j 1 + gather_S8x512x32000_S8x512x1x1_S8x512x1_n_2_01_01_2_3_111.offCoord j 1 = (j 1).val := by
  rw [GatherDims.start_batching _ _ _ _ (show (1 : Fin S8x512x32000.rank) ∈ gather_S8x512x32000_S8x512x1x1_S8x512x1_n_2_01_01_2_3_111.operandBatchingDims by decide),
    GatherDims.offCoord_eq_zero _ _ _ (fun h => ((GatherDims.mem_sKept _ _).mp h).2
      (show (1 : Fin S8x512x32000.rank) ∈ gather_S8x512x32000_S8x512x1x1_S8x512x1_n_2_01_01_2_3_111.operandBatchingDims by decide))]
  unfold GatherDims.batchCoord
  rw [dif_pos (show (1 : Fin S8x512x32000.rank) ∈ gather_S8x512x32000_S8x512x1x1_S8x512x1_n_2_01_01_2_3_111.operandBatchingDims by decide)]
  simp only [Nat.zero_add, Nat.add_zero]
  rfl

theorem gather_axis_2 (j : S8x512x1.Idx) (idx : IVec S8x512x1x1 32) :
    gather_S8x512x32000_S8x512x1x1_S8x512x1_n_2_01_01_2_3_111.start j idx 2 + gather_S8x512x32000_S8x512x1x1_S8x512x1_n_2_01_01_2_3_111.batchCoord j 2 + gather_S8x512x32000_S8x512x1x1_S8x512x1_n_2_01_01_2_3_111.offCoord j 2
      = min (idx (ix4 (j 0) (j 1) (j 2) 0)).toInt.toNat 31999 := by
  rw [GatherDims.batchCoord_eq_zero _ _ _ (show ¬(2 : Fin S8x512x32000.rank) ∈ gather_S8x512x32000_S8x512x1x1_S8x512x1_n_2_01_01_2_3_111.operandBatchingDims by decide),
    GatherDims.offCoord_eq_zero _ _ _ (fun h => ((GatherDims.mem_sKept _ _).mp h).1
      (show (2 : Fin S8x512x32000.rank) ∈ gather_S8x512x32000_S8x512x1x1_S8x512x1_n_2_01_01_2_3_111.collapsedSliceDims by decide))]
  simp only [Nat.add_zero]
  unfold GatherDims.start
  rw [dif_pos (show (2 : Fin S8x512x32000.rank) ∈ gather_S8x512x32000_S8x512x1x1_S8x512x1_n_2_01_01_2_3_111.startIndexMap by decide)]
  have hsi : gather_S8x512x32000_S8x512x1x1_S8x512x1_n_2_01_01_2_3_111.siIdx j ⟨List.idxOf (2 : Fin S8x512x32000.rank) gather_S8x512x32000_S8x512x1x1_S8x512x1_n_2_01_01_2_3_111.startIndexMap,
      List.idxOf_lt_length_iff.2 (show (2 : Fin S8x512x32000.rank) ∈ gather_S8x512x32000_S8x512x1x1_S8x512x1_n_2_01_01_2_3_111.startIndexMap by decide)⟩ = ix4 (j 0) (j 1) (j 2) 0 := by
    funext c; refine Fin.ext ?_
    match c with
    | ⟨0, _⟩ => rfl
    | ⟨1, _⟩ => rfl
    | ⟨2, _⟩ => rfl
    | ⟨3, _⟩ => rfl
  rw [hsi]
  rfl

/-- A word read signed and clamped into [0, 31999]. -/
def clampTok (w : BitVec 32) : Fin 32000 := ⟨min w.toInt.toNat 31999, by omega⟩

/-- The gather at (b, t, z): the operand's row (b, t) at the start index read signed and clamped into [0, 31999]. -/
theorem gather_apply {α : Type} (A : S8x512x32000.Idx → α) (idx : IVec S8x512x1x1 32) (b : Fin 8) (t : Fin 512) (z : Fin 1) :
    Host.gather gather_S8x512x32000_S8x512x1x1_S8x512x1_n_2_01_01_2_3_111 A idx (ix3 b t z) = A (ix3 b t (clampTok (idx (ix4 b t z 0)))) := by
  unfold Host.gather clampTok
  congr 1
  funext a
  refine Fin.ext ?_
  show gather_S8x512x32000_S8x512x1x1_S8x512x1_n_2_01_01_2_3_111.start (ix3 b t z) idx a + gather_S8x512x32000_S8x512x1x1_S8x512x1_n_2_01_01_2_3_111.batchCoord (ix3 b t z) a + gather_S8x512x32000_S8x512x1x1_S8x512x1_n_2_01_01_2_3_111.offCoord (ix3 b t z) a = _
  match a with
  | ⟨0, _⟩ => exact gather_axis_0 _ _
  | ⟨1, _⟩ => exact gather_axis_1 _ _
  | ⟨2, _⟩ => exact gather_axis_2 _ _

/-! ## The pointwise operations at an index -/

section Pointwise
variable {s : Shape}

theorem cmpi_apply {w : Nat} (p : CmpIPredicate) (a c : IVec s w) (i : s.Idx) : cmpi p a c i = IntOp.cmpi p (a i) (c i) := rfl
theorem addi_apply {w : Nat} (a c : IVec s w) (i : s.Idx) : addi a c i = IntOp.addi (a i) (c i) := rfl
theorem andi_apply {w : Nat} (a c : IVec s w) (i : s.Idx) : andi a c i = IntOp.andi (a i) (c i) := rfl
theorem constantI_apply {w : Nat} (c : BitVec w) (i : s.Idx) : constantI s w c i = c := rfl

/-! The float operations at an index. -/

theorem subf_at (a c : FVec Ideal s .f32) (i : s.Idx) : subf a c i = a i - c i := id rfl
theorem maximumf_at (a c : FVec Ideal s .f32) (i : s.Idx) : maximumf a c i = max (a i) (c i) := id rfl
theorem hostExp_at (A : FVec Ideal s .f32) (i : s.Idx) : Host.exp A i = Ideal.exp (A i) := id rfl
theorem hostLog_at (A : FVec Ideal s .f32) (i : s.Idx) : Host.log A i = Ideal.log (A i) := id rfl
theorem constant_at (c : BitVec 32) (i : s.Idx) : constant (F := Ideal) s .f32 c i = Ideal.ofBits .f32 c := id rfl

end Pointwise

/-! ## Row 512·b + t and its logits -/

/-- Row 512·b + t. -/
def rowOf (b : Fin 8) (t : Fin 512) : Fin 4096 := ⟨512 * b.val + t.val, by omega⟩

theorem rowB_rowOf (b : Fin 8) (t : Fin 512) : Cert.Spec.rowB (rowOf b t) = b :=
  Fin.ext (by show (512 * b.val + t.val) / 512 = b.val; omega)

theorem rowT_rowOf (b : Fin 8) (t : Fin 512) : Cert.Spec.rowT (rowOf b t) = t :=
  Fin.ext (by show (512 * b.val + t.val) % 512 = t.val; omega)

/-- The product at (b, t, v) is the logit of row 512·b + t at v. -/
theorem dot_eq_logit (x : FVec Ideal S8x512x4096 .f32) (W : FVec Ideal S32000x4096 .f32) (b : Fin 8) (t : Fin 512) (v : Fin 32000) :
    Host.dotGeneral (F := Ideal) dot_S8x512x4096_S32000x4096_S8x512x32000_2_1_01_0_n_n none x W (ix3 b t v) = Cert.Spec.logit x W (rowOf b t) v := by
  rw [dot_apply]
  unfold Cert.Spec.logit Cert.Spec.xrow
  rw [rowB_rowOf, rowT_rowOf]

/-! ## The per-token array in three parts: the row-wise log-softmax, the index array of safe labels, the entry taken per row -/

/-- The log-softmax of every row along the vocabulary axis, operation by operation. -/
def lsm (main_v0 : FVec Ideal S8x512x32000 .f32) : FVec Ideal S8x512x32000 .f32 :=
  let main_call0_cst : FVec Ideal S_ .f32 := constant S_ .f32 0xFF800000#32
  let main_call0_v0 : FVec Ideal S8x512 .f32 := Host.reduce FloatOps.maximumf main_v0 main_call0_cst reducesTo_S8x512x32000_S8x512_d2 h_S_
  let main_call0_cst_0 : FVec Ideal S_ .f32 := constant S_ .f32 0xFF800000#32
  let main_call0_v1 : FVec Ideal S8x512 .f32 := broadcastInDim S8x512 ![] bcast_S_S8x512 main_call0_cst_0
  let main_call0_v2 : FVec Ideal S8x512 .f32 := maximumf main_call0_v1 main_call0_v0
  let main_call0_v3 : FVec Ideal S8x512x1 .f32 := broadcastInDim S8x512x1 ![0, 1] bcast_S8x512_S8x512x1_0_1 main_call0_v2
  let main_call0_v4 : FVec Ideal S8x512x32000 .f32 := broadcastInDim S8x512x32000 ![0, 1, 2] bcast_S8x512x1_S8x512x32000_0_1_2 main_call0_v3
  let main_call0_v5 : FVec Ideal S8x512x32000 .f32 := subf main_v0 main_call0_v4
  let main_call0_v6 : FVec Ideal S8x512x32000 .f32 := Host.exp main_call0_v5
  let main_call0_cst_1 : FVec Ideal S_ .f32 := constant S_ .f32 0x00000000#32
  let main_call0_v7 : FVec Ideal S8x512 .f32 := Host.reduceAdd main_call0_v6 main_call0_cst_1 reducesTo_S8x512x32000_S8x512_d2 h_S_
  let main_call0_v8 : FVec Ideal S8x512x1 .f32 := broadcastInDim S8x512x1 ![0, 1] bcast_S8x512_S8x512x1_0_1 main_call0_v7
  let main_call0_v9 : FVec Ideal S8x512x1 .f32 := Host.log main_call0_v8
  let main_call0_v10 : FVec Ideal S8x512x32000 .f32 := broadcastInDim S8x512x32000 ![0, 1, 2] bcast_S8x512x1_S8x512x32000_0_1_2 main_call0_v9
  let main_v1 : FVec Ideal S8x512x32000 .f32 := subf main_call0_v5 main_call0_v10
  main_v1

/-- The index array: the labels with the ignored one replaced by 0, a negative one moved up by the vocabulary size, as [8,512,1,1]. -/
def safeIdx (y : IVec S8x512 32) : IVec S8x512x1x1 32 :=
  let main_c : IVec S_ 32 := constantI S_ 32 4294967196#32
  let main_v2 : IVec S8x512 32 := broadcastInDim S8x512 ![] bcast_S_S8x512 main_c
  let main_v3 : IVec S8x512 1 := cmpi .ne y main_v2
  let main_c_0 : IVec S_ 32 := constantI S_ 32 0#32
  let main_call1_v0 : IVec S_ 32 := id main_c_0
  let main_call1_v1 : IVec S8x512 32 := broadcastInDim S8x512 ![] bcast_S_S8x512 main_call1_v0
  let main_v4 : IVec S8x512 32 := select main_v3 y main_call1_v1
  let main_v5 : IVec S8x512x1 32 := broadcastInDim S8x512x1 ![0, 1] bcast_S8x512_S8x512x1_0_1 main_v4
  let main_call2_c : IVec S_ 32 := constantI S_ 32 0#32
  let main_call2_v0 : IVec S8x512x1 32 := broadcastInDim S8x512x1 ![] bcast_S_S8x512x1 main_call2_c
  let main_call2_v1 : IVec S8x512x1 1 := cmpi .slt main_v5 main_call2_v0
  let main_call2_c_0 : IVec S_ 32 := constantI S_ 32 32000#32
  let main_call2_v2 : IVec S8x512x1 32 := broadcastInDim S8x512x1 ![] bcast_S_S8x512x1 main_call2_c_0
  let main_call2_v3 : IVec S8x512x1 32 := addi main_v5 main_call2_v2
  let main_call2_v4 : IVec S8x512x1 32 := select main_call2_v1 main_call2_v3 main_v5
  let main_call2_v5 : IVec S8x512x1x1 32 := shapeCast S8x512x1x1 main_call2_v4 shapeCasts_S8x512x1_S8x512x1x1
  main_call2_v5

/-- The entry of each row at its index (NaN where the index is outside [0, 31999]), as [8,512]. -/
def takeAt (main_v1 : FVec Ideal S8x512x32000 .f32) (main_call2_v5 : IVec S8x512x1x1 32) : FVec Ideal S8x512 .f32 :=
  let main_call2_c_1 : IVec S1 32 := constantI S1 32 31999#32
  let main_call2_c_2 : IVec S_ 32 := constantI S_ 32 0#32
  let main_call2_v6 : IVec S8x512x1x1 32 := broadcastInDim S8x512x1x1 ![] bcast_S_S8x512x1x1 main_call2_c_2
  let main_call2_v7 : IVec S8x512x1x1 1 := cmpi .sge main_call2_v5 main_call2_v6
  let main_call2_v8 : IVec S1x1x1x1 32 := broadcastInDim S1x1x1x1 ![3] bcast_S1_S1x1x1x1_3 main_call2_c_1
  let main_call2_v9 : IVec S8x512x1x1 32 := broadcastInDim S8x512x1x1 ![0, 1, 2, 3] bcast_S1x1x1x1_S8x512x1x1_0_1_2_3 main_call2_v8
  let main_call2_v10 : IVec S8x512x1x1 1 := cmpi .sle main_call2_v5 main_call2_v9
  let main_call2_v11 : IVec S8x512x1x1 1 := andi main_call2_v7 main_call2_v10
  let main_call2_c_3 : IVec S_ 1 := constantI S_ 1 1#1
  let main_call2_v12 : IVec S8x512x1 1 := Host.reduce IntOp.andi main_call2_v11 main_call2_c_3 reducesTo_S8x512x1x1_S8x512x1_d3 h_S_
  let main_call2_v13 : FVec Ideal S8x512x1 .f32 := Host.gather gather_S8x512x32000_S8x512x1x1_S8x512x1_n_2_01_01_2_3_111 main_v1 main_call2_v5
  let main_call2_cst : FVec Ideal S_ .f32 := constant S_ .f32 0x7FC00000#32
  let main_call2_v14 : FVec Ideal S8x512x1 .f32 := broadcastInDim S8x512x1 ![] bcast_S_S8x512x1 main_call2_cst
  let main_v6 : FVec Ideal S8x512x1 .f32 := select main_call2_v12 main_call2_v13 main_call2_v14
  shapeCast S8x512 main_v6 shapeCasts_S8x512x1_S8x512

/-- The per-token array is the three parts composed. -/
theorem refPtlTerm_eq (x : FVec Ideal S8x512x4096 .f32) (y : IVec S8x512 32) (W : FVec Ideal S32000x4096 .f32) :
    Cert.ReferenceIdeal.Hand.refPtlTerm (F := Ideal) x y W
      = takeAt (lsm (Host.dotGeneral (F := Ideal) dot_S8x512x4096_S32000x4096_S8x512x32000_2_1_01_0_n_n none x W)) (safeIdx y) := rfl

/-- The log-softmax at (b, t, v): the entry less the row's supremum, less the logarithm of the row's sum of exponentials of
    such differences. -/
theorem lsm_apply (z : FVec Ideal S8x512x32000 .f32) (b : Fin 8) (t : Fin 512) (v : Fin 32000) :
    lsm z (ix3 b t v) = (z (ix3 b t v) - Finset.univ.sup (fun v' : Fin 32000 => z (ix3 b t v')))
      - Ideal.log (∑ v' : Fin 32000, Ideal.exp (z (ix3 b t v') - Finset.univ.sup (fun v'' : Fin 32000 => z (ix3 b t v'')))) := by
  unfold lsm
  dsimp only
  simp only [subf_at, bcast_33_apply, bcast_23_apply, bcast_0_apply, maximumf_at, constant_at, rowmax_apply,
    hostLog_at, rowsum_apply, hostExp_at, ofBits_neg_inf_f32, max_bot_left]

/-- A label with the ignored one replaced by 0. -/
def safeLab (w : BitVec 32) : BitVec 32 := Scalar.select (IntOp.cmpi .ne w 4294967196#32) w 0#32

/-- The index array at (b, t, 0, 0). -/
theorem safeIdx_apply (y : IVec S8x512 32) (b : Fin 8) (t : Fin 512) :
    safeIdx y (ix4 b t 0 0)
      = Scalar.select (IntOp.cmpi .slt (safeLab (y (ix2 b t))) 0#32) (IntOp.addi (safeLab (y (ix2 b t))) 32000#32)
          (safeLab (y (ix2 b t))) := by
  unfold safeIdx safeLab
  dsimp only
  simp only [cast_34_apply, select_apply, cmpi_apply, addi_apply, bcast_23_apply, bcast_0_apply, constantI_apply, id_eq]

/-- The entry taken at (b, t). -/
theorem takeAt_apply (lp : FVec Ideal S8x512x32000 .f32) (idx : IVec S8x512x1x1 32) (b : Fin 8) (t : Fin 512) :
    takeAt lp idx (ix2 b t)
      = Scalar.select (IntOp.andi (IntOp.cmpi .sge (idx (ix4 b t 0 0)) 0#32) (IntOp.cmpi .sle (idx (ix4 b t 0 0)) 31999#32))
          (lp (ix3 b t (clampTok (idx (ix4 b t 0 0))))) (Ideal.ofBits .f32 0x7FC00000#32) := by
  unfold takeAt
  dsimp only
  simp only [cast_32_apply, select_apply, andred_apply, andi_apply, cmpi_apply, bcast_0_apply, constantI_apply, bcast_const_apply,
    gather_apply, constant_at]

/-! ## The labels: the safe label is a vocabulary index, so no wrap and no clamp -/

open Idealize.ShloMosaic.StableHlo.Predicate in
/-- The entry taken at (b, t) when the index is a vocabulary index k. -/
theorem takeAt_of_eq (lp : FVec Ideal S8x512x32000 .f32) (idx : IVec S8x512x1x1 32) (b : Fin 8) (t : Fin 512)
    (k : Fin 32000) (hk : (idx (ix4 b t 0 0)).toNat = k.val) :
    takeAt lp idx (ix2 b t) = lp (ix3 b t k) := by
  rw [takeAt_apply]
  generalize idx (ix4 b t 0 0) = w at hk ⊢
  have hw : w.toNat < 2 ^ 31 := by have := k.isLt; omega
  have h0 : (0#32 : BitVec 32).toNat = 0 := rfl
  have h9 : (31999#32 : BitVec 32).toNat = 31999 := rfl
  have h1 : IntOp.cmpi .sge w 0#32 = 1#1 := (sge_iff_toNat hw (by rw [h0]; decide)).mpr (by rw [h0]; exact Nat.zero_le _)
  have h2 : IntOp.cmpi .sle w 31999#32 = 1#1 :=
    (sle_iff_toNat hw (by rw [h9]; decide)).mpr (by rw [h9]; have := k.isLt; omega)
  have hc : clampTok w = k := Fin.ext (by
    show min w.toInt.toNat 31999 = k.val
    have := toInt_eq_toNat_of_lt hw
    have := k.isLt
    omega)
  rw [h1, h2, hc, show IntOp.andi (1#1 : BitVec 1) 1#1 = 1#1 from by decide, select_one]

theorem safeLab_eq (y : IVec S8x512 32) (b : Fin 8) (t : Fin 512) :
    safeLab (y (ix2 b t)) = Cert.Spec.ysafe y (rowOf b t) := by
  unfold Cert.Spec.ysafe Cert.Spec.ylab safeLab
  rw [rowB_rowOf, rowT_rowOf]
  by_cases h : y (ix2 b t) = 4294967196#32
  · rw [if_pos h, h]; decide
  · rw [if_neg h]
    have hne : IntOp.cmpi .ne (y (ix2 b t)) 4294967196#32 = 1#1 := by
      show BitVec.ofBool (y (ix2 b t) != 4294967196#32) = 1#1
      rw [bne_iff_ne.mpr h]; rfl
    rw [hne, select_one]

open Idealize.ShloMosaic.StableHlo.Predicate in
/-- The index array at (b, t, 0, 0) is the safe label of row 512·b + t. -/
theorem safeIdx_eq (y : IVec S8x512 32) (hl : Cert.Spec.LabelsOk y) (b : Fin 8) (t : Fin 512) :
    safeIdx y (ix4 b t 0 0) = Cert.Spec.ysafe y (rowOf b t) := by
  rw [safeIdx_apply, safeLab_eq]
  have hs := Cert.Spec.Algebra.ysafe_lt hl (rowOf b t)
  generalize Cert.Spec.ysafe y (rowOf b t) = s at hs ⊢
  have h0 : (0#32 : BitVec 32).toNat = 0 := rfl
  have hlt : IntOp.cmpi .slt s 0#32 = 0#1 := eq_zero_of_ne_one (fun h => by
    have := (slt_iff_toNat (by omega) (by rw [h0]; decide)).mp h
    rw [h0] at this
    exact Nat.not_lt_zero _ this)
  rw [hlt, select_zero]

/-! ## The per-token array at (b, t) -/

theorem refPtl_eq_ref (x : FVec Ideal S8x512x4096 .f32) (y : IVec S8x512 32) (W : FVec Ideal S32000x4096 .f32)
    (hl : Cert.Spec.LabelsOk y) (b : Fin 8) (t : Fin 512) :
    Cert.ReferenceIdeal.Hand.refPtlTerm (F := Ideal) x y W (ix2 b t) = Cert.Spec.ptlRef x y W (rowOf b t) := by
  have hk : (safeIdx y (ix4 b t 0 0)).toNat = (Cert.Spec.ytok y (rowOf b t)).val := by
    rw [safeIdx_eq y hl]
    exact (Nat.mod_eq_of_lt (Cert.Spec.Algebra.ysafe_lt hl (rowOf b t))).symm
  rw [refPtlTerm_eq, takeAt_of_eq _ _ b t (Cert.Spec.ytok y (rowOf b t)) hk, lsm_apply]
  simp only [dot_eq_logit]
  unfold Cert.Spec.ptlRef Cert.Spec.rowSumExp Cert.Spec.rowMax
  rfl

theorem refPtl_eq (x : FVec Ideal S8x512x4096 .f32) (y : IVec S8x512 32) (W : FVec Ideal S32000x4096 .f32)
    (hfin : Cert.Spec.FiniteIn x W) (hl : Cert.Spec.LabelsOk y) :
    Cert.ReferenceIdeal.Hand.refPtlTerm (F := Ideal) x y W = Cert.Spec.ptlArr x y W := by
  funext i
  obtain ⟨b, t, rfl⟩ : ∃ (b : Fin 8) (t : Fin 512), i = ix2 b t := ⟨i 0, i 1, eq_ix2 i⟩
  rw [refPtl_eq_ref x y W hl b t, Cert.Spec.Algebra.ptlRef_eq hfin]
  show _ = Cert.Spec.ptl x y W _
  exact congrArg (Cert.Spec.ptl x y W) (Fin.ext rfl)

end Cert.ReferenceIdeal.Read

end
-- ==== Proof.RefFinal.lean ====
/-
  The reference's run, read in the specification's words: under real inputs and labels in their range the result buffer
  ends at the closing arithmetic of the per-token log-probabilities, the label mask and the plain count.
-/
import proofs.«418224_j48859547959893_3_alg».proof.Proof.RefRun
import proofs.«418224_j48859547959893_3_alg».proof.Proof.RefTail
import proofs.«418224_j48859547959893_3_alg».proof.Proof.RefRead

noncomputable section

namespace Cert.ReferenceIdeal.Final

open Cert.ReferenceIdeal Idealize.ShloMosaic Idealize.ShloMosaic.TcCoe Idealize.SL.Sem

/-- The reference's result as the specification's closing arithmetic of the per-token log-probabilities. -/
theorem refOut_eq (x : FVec Ideal S8x512x4096 .f32) (y : IVec S8x512 32) (W : FVec Ideal S32000x4096 .f32)
    (hfin : Cert.Spec.FiniteIn x W) (hl : Cert.Spec.LabelsOk y) :
    Hand.refOut (F := Ideal) x y W
      = Cert.Spec.tailFn Tail.hf (Cert.Spec.ptlArr x y W) (Cert.Spec.maskOf Tail.hf y)
          (Cert.Spec.cntOf Tail.hf (Cert.Spec.maskOf Tail.hf y)) := by
  unfold Hand.refOut
  rw [Tail.refRest_eq, Tail.refMask_eq, Read.refPtl_eq x y W hfin hl]

end Cert.ReferenceIdeal.Final

end
-- ==== Proof.PreFacts.lean ====
/-
  Decoding the precondition.

  The printed predicate is the conjunction of four bits: every |x| < +∞, every |W| < +∞, every label is the ignore
  index or lies in [0, 32000) as a signed word, and the count of non-ignored labels among the first four sequences is at
  least 1 as a signed word.  Read at its one index, the conjunction being 1 gives: every entry of x and W is a real number;
  every label is the ignore word or has unsigned value below 32000; and the signed maximum of the count and 1 is the count.
-/
import proofs.«418224_j48859547959893_3_alg».proof.Pre_finite_inputs
import proofs.«418224_j48859547959893_3_alg».proof.Proof.Gen.Pre_finite_inputs
import proofs.«418224_j48859547959893_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic

instance : Subsingleton Cert.Pre_finite_inputs.S_.Idx := ⟨fun a b => funext fun d => d.elim0⟩

/-- An extended real whose absolute value is below +∞ is a real number. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- The f32 pattern 0x7F800000 denotes +∞. -/
theorem ofBits_inf : Ideal.ofBits .f32 0x7F800000#32 = (⊤ : EReal) := by
  simp [Ideal.ofBits, Ideal.ieee]

/-- An entry whose absolute value compares below the broadcast +∞ is a real number. -/
theorem real_of_elem {s : Shape} (hb : Cert.Pre_finite_inputs.S_.BroadcastsInDim s (![] : Fin 0 → Fin s.rank))
    (v : FVec Ideal s .f32) (i : s.Idx)
    (e : cmpf .olt (Host.absf v) (broadcastInDim s ![] hb (constant Cert.Pre_finite_inputs.S_ .f32 0x7F800000#32)) i = 1#1) :
    ∃ r : ℝ, v i = (r : EReal) := by
  have e' : Ideal.cmp .olt (max (v i) (-(v i))) (Ideal.ofBits .f32 0x7F800000#32) = 1#1 := e
  rw [ofBits_inf] at e'
  simp only [Ideal.cmp, StableHlo.Predicate.ofBool_eq_one_iff, decide_eq_true_eq] at e'
  exact real_of_abs_lt_top _ e'

/-- A label that is nonnegative and below 32000 as a signed word has unsigned value below 32000. -/
theorem toNat_lt_of_signed {a : BitVec 32} (h0 : (0#32 : BitVec 32).toInt ≤ a.toInt) (h1 : a.toInt < (32000#32 : BitVec 32).toInt) :
    a.toNat < 32000 := by
  have e0 : (0#32 : BitVec 32).toInt = 0 := by decide
  have e1 : (32000#32 : BitVec 32).toInt = 32000 := by decide
  rw [e0] at h0; rw [e1] at h1
  rw [BitVec.toInt_eq_toNat_cond] at h0 h1
  have := a.isLt
  split at h0 <;> omega

/-- A word that is at least 1 as a signed number is its own signed maximum with 1. -/
theorem maxsi_one_of_sge {a : BitVec 32} (h : (1#32 : BitVec 32).toInt ≤ a.toInt) : IntOp.maxsi a 1#32 = a := by
  simp only [IntOp.maxsi]
  split
  · rfl
  · rename_i hn
    rw [BitVec.slt_iff_toInt_lt] at hn
    have : a.toInt = (1#32 : BitVec 32).toInt := by omega
    exact (BitVec.toInt_inj.1 this).symm

/-- The precondition, decoded: both float inputs are real everywhere, every label is the ignore word or a vocabulary
    index, and the count of non-ignored labels in the first four sequences is at least 1 (so its signed maximum with 1 is
    itself). -/
theorem of_pre (hf : Cert.Spec.TailFacts) (x : FVec Ideal Cert.Spec.S8x512x4096 .f32) (y : IVec Cert.Spec.S8x512 32)
    (W : FVec Ideal Cert.Spec.S32000x4096 .f32)
    (h : Cert.Pre_finite_inputs.fn (F := Ideal) x y W = fun _ => 1#1) :
    Cert.Spec.FiniteIn x W ∧ Cert.Spec.LabelsOk y
      ∧ maxsi (Cert.Spec.cntOf hf (Cert.Spec.maskOf hf y)) (constantI Cert.Spec.S_ 32 1#32)
          = Cert.Spec.cntOf hf (Cert.Spec.maskOf hf y) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨⟨fun i => ?_, fun i => ?_⟩, fun i => ?_, ?_⟩
  · exact real_of_elem _ x i (Host.reduce_andi_all _ _ _ _ _ h1 i)
  · exact real_of_elem _ W i (Host.reduce_andi_all _ _ _ _ _ h2 i)
  · have e := Host.reduce_andi_all _ _ _ _ _ h3 i
    have e' : IntOp.ori (IntOp.cmpi .eq (y i) 4294967196#32)
        (IntOp.andi (IntOp.cmpi .sge (y i) 0#32) (IntOp.cmpi .slt (y i) 32000#32)) = 1#1 := e
    rcases IntOp.ori_eq_one.1 e' with hq | hq
    · exact Or.inl (IntOp.cmpi_eq.1 hq)
    · obtain ⟨ha, hb⟩ := IntOp.andi_eq_one.1 hq
      exact Or.inr (toNat_lt_of_signed (IntOp.cmpi_sge.1 ha) (IntOp.cmpi_slt.1 hb))
  · have h4' : IntOp.cmpi .sge (Cert.Spec.cntOf hf (Cert.Spec.maskOf hf y) ValueIdx.ix0) 1#32 = 1#1 := h4
    funext j
    obtain rfl : j = ValueIdx.ix0 := ValueIdx.eq_ix0 j
    exact maxsi_one_of_sge (IntOp.cmpi_sge.1 h4')

end Cert.PreFacts

end
-- ==== Proof.lean ====
/-
  The certificate: the streaming LM-head kernel (a vocabulary-tiled matmul with an online log-sum-exp and a fused label-logit
  pick, followed by the CPO sigmoid loss on the host) against the plain jnp reference, over the extended reals.

  Per row, the kernel keeps a running maximum, a rescaled running sum of exponentials and the logit at the label; after the
  25 vocabulary tiles it writes  label-logit − (maximum + log sum).  The reference computes  (logit − maximum) − log sum  from
  the whole logits row and picks the label's entry.  For real inputs the two agree (the running quantities are the row's
  maximum and the row's sum of exp (logit − maximum); every quantity is real, so the two orders of subtraction agree).  Both
  programs then run the same closing arithmetic; the kernel divides the chosen half's sum by max(count, 1), the reference by
  the count, and the precondition's last conjunct (at least one label of the chosen half is not ignored) makes them equal.
  The labels' range conjunct makes the kernel's position match and the reference's index pick the same vocabulary entry.

  The frames: each kernel program is its region (grid 8 × 25, three scratch columns carried along a row block's 25 tiles, the
  output block stored at the last tile) between host lines; the reference is a straight line of host operations.
-/
import proofs.«418224_j48859547959893_3_alg».proof.Defs
import proofs.«418224_j48859547959893_3_alg».proof.Proof.Gen.Kernel
import proofs.«418224_j48859547959893_3_alg».proof.Proof.Gen.KernelIdeal
import proofs.«418224_j48859547959893_3_alg».proof.Proof.Gen.ReferenceIdeal
import proofs.«418224_j48859547959893_3_alg».proof.Proof.Gen.Pre_finite_inputs
import proofs.«418224_j48859547959893_3_alg».proof.Proof.KFrame
import proofs.«418224_j48859547959893_3_alg».proof.Proof.KIFinal
import proofs.«418224_j48859547959893_3_alg».proof.Proof.RefFinal
import proofs.«418224_j48859547959893_3_alg».proof.Proof.PreFacts
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The two idealized programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c => Cert.PreFacts.of_pre Cert.KernelIdeal.Tail.hf _ _ _ (hpre c)
  refine ⟨_, Cert.KernelIdeal.Final.run m ρ (fun c => ⟨(hdec c).1, (hdec c).2.1⟩), ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  rw [Cert.ReferenceIdeal.Final.refOut_eq _ _ _ (hdec c).1 (hdec c).2.1, (hdec c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
